-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4 : Shape := ⟨1, ![4]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : IVec S4 32) (main_arg2 : FVec F S3072x1024 .f32) (main_arg3 : FVec F S3072 .f32) (main_arg4 : FVec F S1024x1024 .f32) (main_arg5 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg2
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg3
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_v13 main_v16
-- ==== Kernel.lean ====
abbrev S4x2048x1024 : Shape := ⟨3, ![4, 2048, 1024]⟩
abbrev S4 : Shape := ⟨1, ![4]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S1024x3072 : Shape := ⟨2, ![1024, 3072]⟩
abbrev S1x3072 : Shape := ⟨2, ![1, 3072]⟩
abbrev S512x1024 : Shape := ⟨2, ![512, 1024]⟩
abbrev S512x3072 : Shape := ⟨2, ![512, 3072]⟩
abbrev S4x1024x2048 : Shape := ⟨3, ![4, 1024, 2048]⟩
abbrev S1x512x1024 : Shape := ⟨3, ![1, 512, 1024]⟩
abbrev S1x2048x1024 : Shape := ⟨3, ![1, 2048, 1024]⟩
abbrev S1x1024x512 : Shape := ⟨3, ![1, 1024, 512]⟩
abbrev S1 : Shape := ⟨1, ![1]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S1x1024 : Shape := ⟨2, ![1, 1024]⟩

abbrev nBuf : Space → Nat
  | .hbm => 23
  | .vmem => 24
  | .smem => 1
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S1024x3072, .f32⟩
  | .hbm, ⟨7, _⟩ => ⟨S1024x3072, .bf16⟩
  | .hbm, ⟨8, _⟩ => ⟨S1024x1024, .f32⟩
  | .hbm, ⟨9, _⟩ => ⟨S1024x1024, .bf16⟩
  | .hbm, ⟨10, _⟩ => ⟨S1x3072, .f32⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S4x2048x1024, .bf16⟩
  | .hbm, ⟨15, _⟩ => ⟨S4x2048x1024, .bf16⟩
  | .hbm, ⟨16, _⟩ => ⟨S4x2048x1024, .bf16⟩
  | .hbm, ⟨17, _⟩ => ⟨S4x1024x2048, .bf16⟩
  | .hbm, ⟨18, _⟩ => ⟨S4x2048x1024, .bf16⟩
  | .hbm, ⟨19, _⟩ => ⟨S8192x1024, .bf16⟩
  | .hbm, ⟨20, _⟩ => ⟨S1x1024, .f32⟩
  | .hbm, ⟨21, _⟩ => ⟨S8192x1024, .f32⟩
  | .hbm, ⟨22, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x1024x512, .bf16⟩
  | .local _ .vmem, ⟨17, _⟩ => ⟨S1x1024x512, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .smem, ⟨0, _⟩ => ⟨S4, .i32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 4], ![false, false]⟩

abbrev pre1 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x1024_S8192x1024 : S4x2048x1024.ShapeCasts S8192x1024
  transposes_S3072x1024_S1024x3072_1_0 : S3072x1024.Transposes [1, 0] S1024x3072
  bitsLt_bf16_f32 : FTy.bits .bf16 < FTy.bits .f32
  transposes_S1024x1024_S1024x1024_1_0 : S1024x1024.Transposes [1, 0] S1024x1024
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S8192x1024_S4x2048x1024 : S8192x1024.ShapeCasts S4x2048x1024
  numel1_S1 : S1.numel = 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  iota_S512x2048_d1_w32 : S512x2048.Iotas .tc 32 [1]
  reduces_S512x2048_S512 : S512x2048.Reduces [1] S512
  shapeCasts_S512_S512x1 : S512.ShapeCasts S512x1
  broadcasts_S512x1_S512x2048 : S512x1.Broadcasts S512x2048
  transposes_S512x1024_p1_0_S1024x512 : S512x1024.Transposes [1, 0] S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  packedbf16_S1x1024x512_S1x1024x512_0_0_0 : (Rect.unit (s := S1x1024x512) ![0, 0, 0] S1x1024x512.size inb_S1x1024x512_S1x1024x512_0_0_0).PackedRows (EltTy.packing .bf16)
  shapeCasts_S4x1024x2048_S4x2048x1024 : S4x1024x2048.ShapeCasts S4x2048x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x3072_S512x3072_1_0_0_1_n_n_wf : DotDims.WF S512x1024 S1024x3072 S512x3072 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hrank1 : 0 < grid1.rank
  k1_off1_inb : ∀ i : grid1.Coords, ∀ a, (k1_off1 i) a + S1.size a ≤ S4.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x512.size a ≤ S4x1024x2048.size a
  hwx1_3 : ∀ i : grid1.Coords, EltTy.bits .bf16 = 32 ∨ (Rect.block (s := S4x1024x2048) S1x1024x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev spec1_0 : Pipeline.WinSpec sig grid1.rank :=
  Pipeline.WinSpec.ofSpec (Memref.whole main_v8) S1x512x1024.size reads1_0 false false 2 stage1_0 sem1_0 nbuf1_0 hstage1_0

abbrev spec1_1 : Pipeline.WinSpec sig grid1.rank :=
  Pipeline.WinSpec.ofSpec (Memref.whole main_v7) S1x2048x1024.size reads1_1 false false 2 stage1_1 sem1_1 nbuf1_1 hstage1_1

abbrev spec1_2 : Pipeline.WinSpec sig grid1.rank :=
  Pipeline.WinSpec.ofSpec (Memref.whole main_v9) S1x2048x1024.size reads1_2 false false 2 stage1_2 sem1_2 nbuf1_2 hstage1_2

abbrev spec1_3 : Pipeline.WinSpec sig grid1.rank :=
  Pipeline.WinSpec.ofSpec (Memref.whole main_v10) S1x1024x512.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 | 1 => cc1_transform_1 | 2 => cc1_transform_2 | 3 => cc1_transform_3 | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | 3 => hreads1_3 | ⟨_ + 4, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | 3 => hinb1_3 | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | 3 => hwx1_3 | ⟨_ + 4, h⟩ => absurd h (Nat.not_lt.2 (Nat.le_add_left _ _))
abbrev win2_0 : Pipeline.Window sig grid2 :=
  Pipeline.Window.ofSpec (Memref.whole main_v12) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where
  harr1 : ∀ w, (spec1 w).arr.IsWhole

variable [Facts]
-- ==== ReferenceIdeal.lean ====
abbrev S4x2048x1024 : Shape := ⟨3, ![4, 2048, 1024]⟩
abbrev S4 : Shape := ⟨1, ![4]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S4x2048x2048 : Shape := ⟨3, ![4, 2048, 2048]⟩
abbrev S_ : Shape := ⟨0, ![]⟩
abbrev S2048 : Shape := ⟨1, ![2048]⟩
abbrev S1x1x2048 : Shape := ⟨3, ![1, 1, 2048]⟩
abbrev S4x1x1 : Shape := ⟨3, ![4, 1, 1]⟩
abbrev S4x1x2048 : Shape := ⟨3, ![4, 1, 2048]⟩
abbrev S4x2048 : Shape := ⟨2, ![4, 2048]⟩
abbrev S4x2048x1 : Shape := ⟨3, ![4, 2048, 1]⟩
abbrev S4x1024x2048 : Shape := ⟨3, ![4, 1024, 2048]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4, .i32⟩
  | .hbm, ⟨2, _⟩ => ⟨S3072x1024, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S4x2048x3072, .f32⟩
  | .hbm, ⟨7, _⟩ => ⟨S1x1x3072, .f32⟩
  | .hbm, ⟨8, _⟩ => ⟨S4x2048x3072, .f32⟩
  | .hbm, ⟨9, _⟩ => ⟨S4x2048x3072, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x2048, .f32⟩
  | .hbm, ⟨14, _⟩ => ⟨S_, .f32⟩
  | .hbm, ⟨15, _⟩ => ⟨S4x2048x2048, .f32⟩
  | .hbm, ⟨16, _⟩ => ⟨S4x2048x2048, .f32⟩
  | .hbm, ⟨17, _⟩ => ⟨S2048, .i32⟩
  | .hbm, ⟨18, _⟩ => ⟨S1x1x2048, .i32⟩
  | .hbm, ⟨19, _⟩ => ⟨S4x1x1, .i32⟩
  | .hbm, ⟨20, _⟩ => ⟨S4x1x2048, .i32⟩
  | .hbm, ⟨21, _⟩ => ⟨S4x1x2048, .i32⟩
  | .hbm, ⟨22, _⟩ => ⟨S4x1x2048, .i1⟩
  | .hbm, ⟨23, _⟩ => ⟨S_, .f32⟩
  | .hbm, ⟨24, _⟩ => ⟨S_, .f32⟩
  | .hbm, ⟨25, _⟩ => ⟨S4x2048x2048, .i1⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S4x2048x2048, .f32⟩
  | .hbm, ⟨41, _⟩ => ⟨S4x2048x2048, .f32⟩
  | .hbm, ⟨42, _⟩ => ⟨S4x2048x1024, .f32⟩
  | .hbm, ⟨43, _⟩ => ⟨S4x1024x2048, .f32⟩
  | .hbm, ⟨44, _⟩ => ⟨S4x2048x1024, .f32⟩
  | .hbm, ⟨45, _⟩ => ⟨S4x2048x1024, .f32⟩
  | .hbm, ⟨46, _⟩ => ⟨S1x1x1024, .f32⟩
  | .hbm, ⟨47, _⟩ => ⟨S4x2048x1024, .f32⟩
  | .hbm, ⟨48, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  bcast_S_S4x2048x2048 : S_.BroadcastsInDim S4x2048x2048 (![] : Fin 0 → Fin S4x2048x2048.rank)
  bcast_S2048_S1x1x2048_2 : S2048.BroadcastsInDim S1x1x2048 (![2] : Fin 1 → Fin S1x1x2048.rank)
  bcast_S4_S4x1x1_0 : S4.BroadcastsInDim S4x1x1 (![0] : Fin 1 → Fin S4x1x1.rank)
  bcast_S1x1x2048_S4x1x2048_0_1_2 : S1x1x2048.BroadcastsInDim S4x1x2048 (![0, 1, 2] : Fin 3 → Fin S4x1x2048.rank)
  bcast_S4x1x1_S4x1x2048_0_1_2 : S4x1x1.BroadcastsInDim S4x1x2048 (![0, 1, 2] : Fin 3 → Fin S4x1x2048.rank)
  bcast_S4x1x2048_S4x2048x2048_0_1_2 : S4x1x2048.BroadcastsInDim S4x2048x2048 (![0, 1, 2] : Fin 3 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  transposes_S4x2048x1024_S4x1024x2048_0_2_1 : S4x2048x1024.Transposes [0, 2, 1] S4x1024x2048
  shapeCasts_S4x1024x2048_S4x2048x1024 : S4x1024x2048.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.KB.Region0.lean ====
/- Region 0 of @main: the key / query / value projection, one row block of 512 rows per grid point.
   At any contents `V` of the core's buffers when the region is entered: every input window's staging
   buffer holds its block of the array (the activations' row block; the whole transposed weight matrix;
   the bias row), and the body leaves in the three output windows the three column thirds of the product
   of the row block with the weights plus the bias row broadcast down the rows. -/
import proofs.«422964_j3899830305375_2_alg».proof.Proof.Gen.Kernel.Launch
import proofs.«422964_j3899830305375_2_alg».proof.Proof.Gen.Kernel.Skeleton
import proofs.«422964_j3899830305375_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's one access rectangle per buffer: the whole buffer. -/
abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S1x3072 := Rect.unit (s := S1x3072) ![0, 0] S1x3072.size inb_S1x3072_S1x3072_0_0

/-- What the body leaves in each output window's staging buffer, from the input blocks: its one store. -/
def out0_3 (x0 : Vec F S512x1024 .f32) (x1 : Vec F S1024x3072 .bf16) (x2 : Vec F S1x3072 .f32) : Vec F S512x1024 .bf16 :=
  View.canon [⟨r0_x, k0_pay2 (View.ld x0 r0_x) (View.ld x1 r0_w) (View.ld x2 r0_b)⟩]
def out0_4 (x0 : Vec F S512x1024 .f32) (x1 : Vec F S1024x3072 .bf16) (x2 : Vec F S1x3072 .f32) : Vec F S512x1024 .bf16 :=
  View.canon [⟨r0_x, k0_pay3 (View.ld x0 r0_x) (View.ld x1 r0_w) (View.ld x2 r0_b)⟩]
def out0_5 (x0 : Vec F S512x1024 .f32) (x1 : Vec F S1024x3072 .bf16) (x2 : Vec F S1x3072 .f32) : Vec F S512x1024 .bf16 :=
  View.canon [⟨r0_x, k0_pay4 (View.ld x0 r0_x) (View.ld x1 r0_w) (View.ld x2 r0_b)⟩]

/-- Each store is of the whole buffer, so it covers it. -/
theorem cover0_o (p0 : Vec F S512x1024 .bf16) (y : S512x1024.Idx) :
    ∃ pc ∈ ([⟨r0_x, p0⟩] : List (View.Piece (Elt F) S512x1024 .bf16)), y ∈ pc.1.set :=
  View.cover_of_tiled [⟨r0_x, p0⟩] S512x1024.size (by rfl) y

set_option maxHeartbeats 1000000 in
/-- The kernel body on whole staging memrefs, the inputs' at contents `xW` and the outputs' at anything, runs to the
    continuation holding the inputs' as they were and each output's at `out0_W` of the inputs'. -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0_kqv_linear_kernel i arg1 harg1 arg2 harg2 arg3 harg3 arg4 harg4 arg5 harg5 arg6 harg6) K := by
  simp only [cc0_kqv_linear_kernel_eq_skeleton]; unfold cc0_kqv_linear_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-- The proof data of pipeline 0 on core `c`: the arrays as the region finds them; after the body at point `t`
    each input's buffer at its block and each output's at `out0_W` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KB.Region1.lean ====
/- Region 1 of @main: masked softmax attention, one block of 512 queries of one batch entry per grid point,
   against all 2048 keys and values of that batch entry; the valid lengths are a table in scalar memory that
   the body reads one word of.
   At any contents `V` of the core's buffers when the region is entered and any admissible contents `a` of the
   table: every input window's staging buffer holds its block of the array, and the body leaves in the output
   window the transposed attention output of the query block. -/
import proofs.«422964_j3899830305375_2_alg».proof.Proof.Gen.Kernel.Launch
import proofs.«422964_j3899830305375_2_alg».proof.Proof.Gen.Kernel.Skeleton
import proofs.«422964_j3899830305375_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))
variable (a : (pcfg1 (F := F)).Adm)

/-- The current staging memref of each window at point `t`: which of its buffers it is on. -/
abbrev st1_0 (t : Fin (cfg1 a).N) := ((cfg1 a).win 0).stage ((cfg1 a).slots t 0)
abbrev st1_1 (t : Fin (cfg1 a).N) := ((cfg1 a).win 1).stage ((cfg1 a).slots t 1)
abbrev st1_2 (t : Fin (cfg1 a).N) := ((cfg1 a).win 2).stage ((cfg1 a).slots t 2)
abbrev st1_3 (t : Fin (cfg1 a).N) := ((cfg1 a).win 3).stage ((cfg1 a).slots t 3)

/-- The kernel body at point `t`, on what the pipeline calls it with. -/
abbrev bodyAt1 (t : Fin (cfg1 a).N) : Prog (TpuEff nD τ sig (Elt F) Λ₀ .tc) PUnit :=
  cc1_attn_kernel (grid1.coords t) (Memref.whole main_arg1) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))

/-- Window `w`'s block at point `t`, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- An input window's current staging buffer holds its block at every point, fetched there or not. -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ (cfg1 a) c) (hA : dat.A 1 = V c (Pipeline.arrRef spec1 1))
    (hafter : ∀ t, dat.after 1 t = iblk1 V a c 1 t) (t : Fin (cfg1 a).N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ (cfg1 a) c) (hA : dat.A 2 = V c (Pipeline.arrRef spec1 2))
    (hafter : ∀ t, dat.after 2 t = iblk1 V a c 2 t) (t : Fin (cfg1 a).N) (d) : dat.before 2 t d = iblk1 V a c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The table as the body is handed it: its whole buffer as a memref. -/
abbrev tbM1 : Memref sig .tc .smem S4 .i32 := Memref.whole main_arg1
abbrev htbM1 : tbM1.IsWhole := Memref.isWhole_whole _
/-- The table's buffer on core `c`: its contents type, and it held whole at `f`. -/
abbrev TbBuf1 (c : Dev nD) : Type := Buf (Elt F) (tbM1.view.loc (c : Thread nD τ))
abbrev tbPt1 (c : Dev nD) (f : TbBuf1 (F := F) c) : sProp 𝕄 :=
  tbM1.view.loc (c : Thread nD τ) ↦{fullShare} f

/-- The table held whole, as the region's invariant keeps it. -/
theorem prefHeld1_eq (c : Dev nD) (tb : pre1.Contents (Elt F)) :
    (Pipeline.prefHeld pre1 c (fun _ => fullShare) tb : sProp 𝕄) = tbPt1 c (tb 0) := by
  unfold Pipeline.prefHeld
  rw [show (Finset.univ : Finset (Fin 1)) = {(0 : Fin 1)} from by decide, bigSep_singleton]
  rfl

/-- The body's one access rectangle per buffer: the whole buffer. -/
abbrev r1_q : Rect S1x512x1024 := Rect.unit (s := S1x512x1024) ![0, 0, 0] S1x512x1024.size inb_S1x512x1024_S1x512x1024_0_0_0
abbrev r1_k : Rect S1x2048x1024 := Rect.unit (s := S1x2048x1024) ![0, 0, 0] S1x2048x1024.size inb_S1x2048x1024_S1x2048x1024_0_0_0
abbrev r1_o : Rect S1x1024x512 := Rect.unit (s := S1x1024x512) ![0, 0, 0] S1x1024x512.size inb_S1x1024x512_S1x1024x512_0_0_0

/-- The table's word the body reads at grid point `i`: the valid length of the point's batch entry. -/
def word1 (c : Dev nD) (i : grid1.Coords) (xt : TbBuf1 (F := F) c) : Elt F .i32 :=
  tbM1.view.readAt (Elt F) (Rect.unit (s := S4) (k1_off1 i) S1.size (k1_off1_inb i)).toLoadRect xt (Shape.Idx.first (numel1_S1.symm ▸ Nat.one_pos))

/-- What the body leaves in the output window's staging buffer, from the table and the input blocks: its one store. -/
def out1_3 (c : Dev nD) (i : grid1.Coords) (xt : TbBuf1 (F := F) c) (x0 : Vec F S1x512x1024 .bf16) (x1 x2 : Vec F S1x2048x1024 .bf16) : Vec F S1x1024x512 .bf16 :=
  View.canon [⟨r1_o, k1_pay1 (word1 c i xt) (View.ld x0 r1_q) (View.ld x1 r1_k) (View.ld x2 r1_k)⟩]

/-- The store is of the whole buffer, so it covers it. -/
theorem cover1_3 (p0 : Vec F S1x1024x512 .bf16) (y : S1x1024x512.Idx) :
    ∃ pc ∈ ([⟨r1_o, p0⟩] : List (View.Piece (Elt F) S1x1024x512 .bf16)), y ∈ pc.1.set :=
  View.cover_of_tiled [⟨r1_o, p0⟩] S1x1024x512.size (by rfl) y

set_option maxHeartbeats 1000000 in
/-- The kernel body on whole staging memrefs, the inputs' at contents `xW`, the table's at `xt` and the output's at
    anything, runs to the continuation holding the inputs' and the table's as they were and the output's at
    `out1_3` of them. -/
theorem sound_kernel1 (c : Dev nD) (E : Set ℕ) (i : grid1.Coords) (arg3 : Memref sig .tc .vmem S1x512x1024 .bf16) (harg3 : arg3.IsWhole)
    (arg4 : Memref sig .tc .vmem S1x2048x1024 .bf16) (harg4 : arg4.IsWhole) (arg5 : Memref sig .tc .vmem S1x2048x1024 .bf16) (harg5 : arg5.IsWhole)
    (arg6 : Memref sig .tc .vmem S1x1024x512 .bf16) (harg6 : arg6.IsWhole)
    (xt : TbBuf1 (F := F) c) (x0 : Vec F S1x512x1024 .bf16) (x1 x2 : Vec F S1x2048x1024 .bf16) (K : PUnit → sProp 𝕄) :
    iprop(tbPt1 c xt ∗ owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(tbPt1 c xt ∗ owns (c : Thread nD τ) arg3 fullShare x0 ∗ owns (c : Thread nD τ) arg4 fullShare x1 ∗ owns (c : Thread nD τ) arg5 fullShare x2
            ∗ owns (c : Thread nD τ) arg6 fullShare (out1_3 c i xt x0 x1 x2)) -∗ K ⟨⟩))
      ⊢ wp frame (wpE (defs₀ (F := F)) Variants.none c none) E (cc1_attn_kernel i tbM1 htbM1 arg3 harg3 arg4 harg4 arg5 harg5 arg6 harg6) K := by
  simp only [cc1_attn_kernel_eq_skeleton]; unfold cc1_attn_kernel_skel
  unfold owns
  iintro ⟨HT, ⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [HT]; · iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t`
    each input's buffer at its block and the output's at `out1_3` of the table and the input blocks; the invariant
    the scoped rest, the generator register and the table held whole, untouched; nothing owed; full shares. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => out1_3 c (grid1.coords t) (a.1 0) (iblk1 V a c 0 t) (iblk1 V a c 1 t) (iblk1 V a c 2 t)
  Φ _ := iprop(Pipeline.ΦA spec1 c ∗ Pipeline.prefHeld pre1 c (fun _ => fullShare) a.1)
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := by dsimp only [dat1]; try rfl
theorem after1_1 (c : Dev nD) (t : Fin (cfg1 a).N) : (dat1 V a c).after 1 t = iblk1 V a c 1 t := by dsimp only [dat1]; try rfl
theorem after1_2 (c : Dev nD) (t : Fin (cfg1 a).N) : (dat1 V a c).after 2 t = iblk1 V a c 2 t := by dsimp only [dat1]; try rfl
theorem after1_3 (c : Dev nD) (t : Fin (cfg1 a).N) : (dat1 V a c).after 3 t = out1_3 c (grid1.coords t) (a.1 0) (iblk1 V a c 0 t) (iblk1 V a c 1 t) (iblk1 V a c 2 t) := by dsimp only [dat1]; try rfl

theorem before1_0 (c : Dev nD) (t : Fin (cfg1 a).N) (d) : (dat1 V a c).before 0 t d = iblk1 V a c 0 t :=
  before1_0_of V a (dat1 V a c) (A_eq1 V a c 0) (after1_0 V a c) t d
theorem before1_1 (c : Dev nD) (t : Fin (cfg1 a).N) (d) : (dat1 V a c).before 1 t d = iblk1 V a c 1 t :=
  before1_1_of V a (dat1 V a c) (A_eq1 V a c 1) (after1_1 V a c) t d
theorem before1_2 (c : Dev nD) (t : Fin (cfg1 a).N) (d) : (dat1 V a c).before 2 t d = iblk1 V a c 2 t :=
  before1_2_of V a (dat1 V a c) (A_eq1 V a c 2) (after1_2 V a c) t d

/-- What the body is called with at point `t`, the windows one by one, -/
def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d))
    ∗ (∃ d, owns (c : Thread nD τ) (st1_1 a t) fullShare ((dat1 V a c).before 1 t d))
    ∗ (∃ d, owns (c : Thread nD τ) (st1_2 a t) fullShare ((dat1 V a c).before 2 t d))
    ∗ (∃ d, owns (c : Thread nD τ) (st1_3 a t) fullShare ((dat1 V a c).before 3 t d)))

/-- and what it returns. -/
def bodyPost1 (c : Dev nD) (t : Fin (cfg1 a).N) : sProp 𝕄 :=
  iprop((dat1 V a c).Φ t.succ ∗ (dat1 V a c).owesAt () t.succ
    ∗ owns (c : Thread nD τ) (st1_0 a t) fullShare ((dat1 V a c).after 0 t)
    ∗ owns (c : Thread nD τ) (st1_1 a t) fullShare ((dat1 V a c).after 1 t)
    ∗ owns (c : Thread nD τ) (st1_2 a t) fullShare ((dat1 V a c).after 2 t)
    ∗ owns (c : Thread nD τ) (st1_3 a t) fullShare ((dat1 V a c).after 3 t))

/-- The body at any point: the inputs' memrefs hold their blocks and the invariant the table, so `sound_kernel1`
    applies; the rest of the invariant and the core's dues pass through unread. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2]
  rw [show (dat1 V a c).Φ t.succ = (dat1 V a c).Φ t.castSucc from rfl,
    show (dat1 V a c).owesAt () t.succ = (dat1 V a c).owesAt () t.castSucc from rfl,
    after1_0, after1_1, after1_2, after1_3]
  rw [show (dat1 V a c).Φ t.castSucc = iprop(Pipeline.ΦA spec1 c ∗ Pipeline.prefHeld pre1 c (fun _ => fullShare) a.1) from rfl, prefHeld1_eq]
  iintro ⟨⟨HΦ, HT⟩, Ho, ⟨%d0, H0⟩, ⟨%d1, H1⟩, ⟨%d2, H2⟩, ⟨%d3, H3⟩⟩
  iapply (sound_kernel1 c Set.univ _ _ _ _ _ _ _ _ _ (a.1 0) (iblk1 V a c 0 t) (iblk1 V a c 1 t) (iblk1 V a c 2 t) _)
  isplitl [HT]; · iexact HT
  isplitl [H0]; · iexact H0
  isplitl [H1]; · iexact H1
  isplitl [H2]; · iexact H2
  isplitl [H3]; · iexists _; iexact H3
  iintro ⟨HT, H0, H1, H2, H3⟩
  isplitl [HΦ HT]
  · isplitl [HΦ]; · iexact HΦ
    iexact HT
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V a c) (defs₀ (F := F)) Variants.none () Set.univ := fun t => by
  rw [bigSep_W1, bigSep_W1]
  exact sound_body1 V a c t

end Region1

end Cert.Kernel.Hand

end
-- ==== Proof.KB.Region2.lean ====
/- Region 2 of @main: the final projection, one row block of 512 rows per grid point.
   At any contents `V` of the core's buffers when the region is entered: every input window's staging
   buffer holds its block of the array (the activations' row block; the whole weight matrix; the bias row),
   and the body leaves in the output window the product of the row block with the weights plus the
   bias row broadcast down the rows. -/
import proofs.«422964_j3899830305375_2_alg».proof.Proof.Gen.Kernel.Launch
import proofs.«422964_j3899830305375_2_alg».proof.Proof.Gen.Kernel.Skeleton
import proofs.«422964_j3899830305375_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's one access rectangle per buffer: the whole buffer. -/
abbrev r2_x : Rect S512x1024 := Rect.unit (s := S512x1024) ![0, 0] S512x1024.size inb_S512x1024_S512x1024_0_0
abbrev r2_w : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0

/-- What the body leaves in the output window's staging buffer, from the input blocks: its one store. -/
def out2_3 (x0 : Vec F S512x1024 .bf16) (x1 : Vec F S1024x1024 .bf16) (x2 : Vec F S1x1024 .f32) : Vec F S512x1024 .f32 :=
  View.canon [⟨r2_x, k2_pay1 (View.ld x0 r2_x) (View.ld x1 r2_w) (View.ld x2 r2_b)⟩]

/-- The store is of the whole buffer, so it covers it. -/
theorem cover2_3 (p0 : Vec F S512x1024 .f32) (y : S512x1024.Idx) :
    ∃ pc ∈ ([⟨r2_x, p0⟩] : List (View.Piece (Elt F) S512x1024 .f32)), y ∈ pc.1.set :=
  View.cover_of_tiled [⟨r2_x, p0⟩] S512x1024.size (by rfl) y

set_option maxHeartbeats 1000000 in
/-- The kernel body on whole staging memrefs, the inputs' at contents `xW` and the output's at anything, runs to the
    continuation holding the inputs' as they were and the output's at `out2_3` of the inputs'. -/
theorem sound_kernel2 (c : Dev nD) (E : Set ℕ) (i : grid2.Coords) (arg1 : Memref sig .tc .vmem S512x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2_linear_kernel i arg1 harg1 arg2 harg2 arg3 harg3 arg4 harg4) K := by
  simp only [cc2_linear_kernel_eq_skeleton]; unfold cc2_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t`
    each input's buffer at its block and the output's at `out2_3` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.KB.Run.lean ====
/- The three regions as segments of @main, and the run.

   Between items a core holds every unscoped buffer at a valuation, its generator register at some state, and owes
   nothing.  A region takes its windows' arrays out of the unscoped buffers at entry and puts them back at exit at
   what the pipeline leaves in them: the inputs as entered, each output's written-back blocks.  Region 1 also takes
   the table of valid lengths, which nothing in @main writes, and gives it back unchanged. -/
import proofs.«422964_j3899830305375_2_alg».proof.Proof.KB.RunCond
import proofs.«422964_j3899830305375_2_alg».proof.Proof.KB.Region0
import proofs.«422964_j3899830305375_2_alg».proof.Proof.KB.Region1
import proofs.«422964_j3899830305375_2_alg».proof.Proof.KB.Region2
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation read at the TensorCore's references. -/
abbrev rV (W : Dev nD → Valuation τ sig (Elt F)) : (c : Dev nD) → (b : Ref sig .tc) → Buf (Elt F) ((c : Thread nD τ).loc b) :=
  fun c b => W c b

/-! ## The table of valid lengths -/

/-- The table's contents: as launched (there is one device). -/
def tbl : pre1.Contents (Elt F) := fun j => m (((0 : Dev nD) : Thread nD τ).loc (pre1.ref j))
/-- They are admissible: no index map reads the table. -/
abbrev adm1 : (pcfg1 (F := F)).Adm := ⟨tbl m, (ok1.eq_1 (tbl m)).mpr trivial⟩
/-- Every pipeline's tables: only pipeline 1 has one. -/
abbrev adm : (p : Fin 3) → (pcfgs (F := F) p).Adm := fun
  | ⟨0, _⟩ => cfg0.toPCfg_adm
  | ⟨1, _⟩ => adm1 m
  | ⟨2, _⟩ => cfg2.toPCfg_adm
  | ⟨_ + 3, h⟩ => absurd h (Nat.not_lt.2 (Nat.le_add_left _ _))

/-! ## What the regions leave, stage by stage -/

/-- After region 0: its arrays at what the pipeline leaves. -/
def outsA : Outs (F := F) := fun _ r c =>
  Pipeline.withArrays spec0 c (V1 m c) (fun w => (dat0 (rV (V1 m)) c).arrAt w cfg0.N) (Proc.devRef .tc r)
/-- After region 1 as well. -/
def outsB : Outs (F := F) := fun J r c => if J = 2 then outsA m J r c else
  Pipeline.withArrays spec1 c (V3 m (outsA m) c) (fun w => (dat1 (rV (V3 m (outsA m))) (adm1 m) c).arrAt w (cfg1 (adm1 m)).N) (Proc.devRef .tc r)
/-- After region 2 as well. -/
def outs : Outs (F := F) := fun J r c => if J = 2 ∨ J = 4 then outsB m J r c else
  Pipeline.withArrays spec2 c (V5 m (outsB m) c) (fun w => (dat2 (rV (V5 m (outsB m))) c).arrAt w cfg2.N) (Proc.devRef .tc r)

theorem outsB_2 : outsB m 2 = outsA m 2 := by funext r c; unfold outsB; rw [if_pos rfl]
theorem outs_2 : outs m 2 = outsA m 2 := by funext r c; unfold outs; rw [if_pos (Or.inl rfl)]; exact congrFun (congrFun (outsB_2 m) r) c
theorem outs_4 : outs m 4 = outsB m 4 := by funext r c; unfold outs; rw [if_pos (Or.inr rfl)]

theorem V2_congr (o o' : Outs (F := F)) (h2 : o 2 = o' 2) (c : Dev nD) : V2 m o c = V2 m o' c := by
  simp only [V2, h2]
theorem V3_congr (o o' : Outs (F := F)) (h2 : o 2 = o' 2) (c : Dev nD) : V3 m o c = V3 m o' c := by
  simp only [V3, V2_congr m o o' h2]
theorem V4_congr (o o' : Outs (F := F)) (h2 : o 2 = o' 2) (h4 : o 4 = o' 4) (c : Dev nD) : V4 m o c = V4 m o' c := by
  simp only [V4, V3_congr m o o' h2, h4]
theorem V5_congr (o o' : Outs (F := F)) (h2 : o 2 = o' 2) (h4 : o 4 = o' 4) (c : Dev nD) : V5 m o c = V5 m o' c := by
  simp only [V5, V4_congr m o o' h2 h4]

/-! ## The proof data family and the thread state -/

/-- Every pipeline's proof data, each at its region's entry contents. -/
def pdats : (p : Fin 3) → (c : Dev nD) → Dat τ (Elt F) Unit ℕ (UR sig nD τ) ℕ (Pipeline.pin (pcfgs (F := F)) (adm m) p) c
  | ⟨0, _⟩ => fun c => dat0 (rV (V1 m)) c
  | ⟨1, _⟩ => fun c => dat1 (rV (V3 m (outsA m))) (adm1 m) c
  | ⟨2, _⟩ => fun c => dat2 (rV (V5 m (outsB m))) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-! ## Region 0: what its arrays hold at its exit -/

theorem V2_v6_0 (c : Dev nD) : V2 m (outsA m) c main_v6_0 = (dat0 (rV (V1 m)) c).arrAt 3 cfg0.N := by
  simp only [V2, Function.update_of_ne (StableHlo.devRef_ne_of_ne (by decide) : (Proc.devRef .tc main_v6_0 : DevRef τ sig) ≠ Proc.devRef .tc main_v6_2),
    Function.update_of_ne (StableHlo.devRef_ne_of_ne (by decide) : (Proc.devRef .tc main_v6_0 : DevRef τ sig) ≠ Proc.devRef .tc main_v6_1), Function.update_self]
  exact Pipeline.withArrays_arr spec0 (launch0 (F := F)).win.arr_inj c _ _ 3
theorem V2_v6_1 (c : Dev nD) : V2 m (outsA m) c main_v6_1 = (dat0 (rV (V1 m)) c).arrAt 4 cfg0.N := by
  simp only [V2, Function.update_of_ne (StableHlo.devRef_ne_of_ne (by decide) : (Proc.devRef .tc main_v6_1 : DevRef τ sig) ≠ Proc.devRef .tc main_v6_2), Function.update_self]
  exact Pipeline.withArrays_arr spec0 (launch0 (F := F)).win.arr_inj c _ _ 4
theorem V2_v6_2 (c : Dev nD) : V2 m (outsA m) c main_v6_2 = (dat0 (rV (V1 m)) c).arrAt 5 cfg0.N := by
  simp only [V2, Function.update_self]
  exact Pipeline.withArrays_arr spec0 (launch0 (F := F)).win.arr_inj c _ _ 5

theorem hF0 (c : Dev nD) : ∀ w : Fin cfg0.W, (dat0 (rV (V1 m)) c).arrAt w cfg0.N = rV (V2 m (outsA m)) c (Pipeline.arrRef spec0 w)
  | ⟨0, _⟩ => ((dat0 (rV (V1 m)) c).arrAt_in 0 rfl _).trans ((A_eq0 (rV (V1 m)) c 0).trans (V2_of m (outsA m) c main_v0 (by decide)).symm)
  | ⟨1, _⟩ => ((dat0 (rV (V1 m)) c).arrAt_in 1 rfl _).trans ((A_eq0 (rV (V1 m)) c 1).trans (V2_of m (outsA m) c main_v2 (by decide)).symm)
  | ⟨2, _⟩ => ((dat0 (rV (V1 m)) c).arrAt_in 2 rfl _).trans ((A_eq0 (rV (V1 m)) c 2).trans (V2_of m (outsA m) c main_v5 (by decide)).symm)
  | ⟨3, _⟩ => (V2_v6_0 m c).symm
  | ⟨4, _⟩ => (V2_v6_1 m c).symm
  | ⟨5, _⟩ => (V2_v6_2 m c).symm
theorem hrest0 (c : Dev nD) : ∀ b, b ∉ Finset.univ.image (Pipeline.arrRef spec0) → rV (V2 m (outsA m)) c b = rV (V1 m) c b :=
  fun b hb => V2_of m (outsA m) c b fun hmem => hb (by
    rcases List.mem_cons.mp hmem with rfl | hmem
    · exact Finset.mem_image.mpr ⟨3, Finset.mem_univ _, rfl⟩
    rcases List.mem_cons.mp hmem with rfl | hmem
    · exact Finset.mem_image.mpr ⟨4, Finset.mem_univ _, rfl⟩
    rcases List.mem_cons.mp hmem with rfl | hmem
    · exact Finset.mem_image.mpr ⟨5, Finset.mem_univ _, rfl⟩
    exact absurd hmem (List.not_mem_nil))

set_option backward.isDefEq.respectTransparency.types false in
/-- REGION 0 over the thread state: entered from every unscoped buffer at `V1`, left at `V2`. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (rV (V1 m)) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outsA m) c) ∗ R c)
  X c := iprop(∃ r, prngReg c r)
  Y c := iprop(∃ r, prngReg c r)
  Z c := Pipeline.unscopedRest (Ix := Unit) (Name := ℕ) (U := UR sig nD τ) (Lvl := ℕ) spec0 c (rV (V1 m) c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (rV (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (rV (V1 m) c) (rV (V2 m (outsA m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: the table, and what its arrays hold at its exit -/

/-- Nothing before region 1 writes the table: it holds its launch contents. -/
theorem tbl_eq (c : Dev nD) : (fun k => rV (V3 m (outsA m)) c (pre1.ref k)) = tbl m := by
  obtain rfl : c = 0 := Subsingleton.elim _ _
  funext k
  match k with
  | ⟨0, _⟩ =>
    exact (V3_of m (outsA m) 0 main_arg1 (by decide)).trans ((V2_of m (outsA m) 0 main_arg1 (by decide)).trans ((V1_of m 0 main_arg1 (by decide)).trans rfl))

theorem V4_v10 (c : Dev nD) : V4 m (outsB m) c main_v10 = (dat1 (rV (V3 m (outsA m))) (adm1 m) c).arrAt 3 (cfg1 (adm1 m)).N := by
  simp only [V4, Function.update_self]
  unfold outsB; rw [if_neg (by decide)]
  exact Pipeline.withArrays_arr spec1 (launch1 (F := F)).win.arr_inj c _ _ 3

theorem V4_in (c : Dev nD) (b : Ref sig .tc) (hb : b ∉ ([main_v10] : List (Ref sig .tc))) : V4 m (outsB m) c b = V3 m (outsA m) c b :=
  (V4_of m (outsB m) c b hb).trans (congrFun (V3_congr m (outsB m) (outsA m) (outsB_2 m) c) _)

theorem hF1 (c : Dev nD) : ∀ w : Fin (cfg1 (adm1 m)).W, (dat1 (rV (V3 m (outsA m))) (adm1 m) c).arrAt w (cfg1 (adm1 m)).N = rV (V4 m (outsB m)) c (Pipeline.arrRef spec1 w)
  | ⟨0, _⟩ => ((dat1 (rV (V3 m (outsA m))) (adm1 m) c).arrAt_in 0 rfl _).trans ((A_eq1 (rV (V3 m (outsA m))) (adm1 m) c 0).trans (V4_in m c main_v8 (by decide)).symm)
  | ⟨1, _⟩ => ((dat1 (rV (V3 m (outsA m))) (adm1 m) c).arrAt_in 1 rfl _).trans ((A_eq1 (rV (V3 m (outsA m))) (adm1 m) c 1).trans (V4_in m c main_v7 (by decide)).symm)
  | ⟨2, _⟩ => ((dat1 (rV (V3 m (outsA m))) (adm1 m) c).arrAt_in 2 rfl _).trans ((A_eq1 (rV (V3 m (outsA m))) (adm1 m) c 2).trans (V4_in m c main_v9 (by decide)).symm)
  | ⟨3, _⟩ => (V4_v10 m c).symm
theorem hrest1 (c : Dev nD) : ∀ b, b ∉ Finset.univ.image (Pipeline.arrRef spec1) → rV (V4 m (outsB m)) c b = rV (V3 m (outsA m)) c b :=
  fun b hb => V4_in m c b fun hmem => hb (by
    rcases List.mem_cons.mp hmem with rfl | hmem
    · exact Finset.mem_image.mpr ⟨3, Finset.mem_univ _, rfl⟩
    exact absurd hmem (List.not_mem_nil))

set_option backward.isDefEq.respectTransparency.types false in
/-- REGION 1 over the thread state: entered from every unscoped buffer at `V3`, left at `V4`; the table goes into the
    region's invariant whole and comes back unchanged. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (rV (V3 m (outsA m))) (adm1 m) c).loose
  hwaits := Pipeline.hwaits_of_owed_zero _ _ _ _ L lv 1 fun _ _ => rfl
  pre c := iprop(StableHlo.held (c : Thread nD τ) (Pipeline.ucRefs τ sig) (V3 m (outsA m) c) ∗ R c)
  post c := iprop(StableHlo.held (c : Thread nD τ) (Pipeline.ucRefs τ sig) (V4 m (outsB m) c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (tbl m))
  Z c := Pipeline.unscopedRestP (Ix := Unit) (Name := ℕ) (U := UR sig nD τ) (Lvl := ℕ) pre1 spec1 c (rV (V3 m (outsA m)) c)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (rV (V3 m (outsA m)) c) fun _ => rfl
    have hs : (Pipeline.unscopedRest (Ix := Unit) (Name := ℕ) (U := UR sig nD τ) (Lvl := ℕ) (Pipeline.pin (pcfgs (F := F)) (adm m) 1).spec c (rV (V3 m (outsA m)) c) : sProp 𝕄)
        = iprop(Pipeline.prefHeld pre1 c (fun _ => fullShare) (tbl m) ∗ Pipeline.unscopedRestP pre1 spec1 c (rV (V3 m (outsA m)) c)) := by
      rw [← tbl_eq m c]; exact Pipeline.unscopedRest_split preFacts1 c (rV (V3 m (outsA m)) c)
    rw [Pipeline.unscopedBufs_held, hs] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = iprop(Pipeline.ΦA spec1 c ∗ Pipeline.prefHeld pre1 c (fun _ => fullShare) (tbl m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m 1 c).Φ (Fin.last _) = iprop(Pipeline.ΦA spec1 c ∗ Pipeline.prefHeld pre1 c (fun _ => fullShare) (tbl m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m) ((pdats m 1 c).share_full fun _ => rfl)
      (rV (V3 m (outsA m)) c) (rV (V4 m (outsB m)) c) ((pdats m 1 c).arrAt · (cfg1 (adm1 m)).N) (hF1 m c) (hrest1 m c)
    have hs : (Pipeline.unscopedRest (Ix := Unit) (Name := ℕ) (U := UR sig nD τ) (Lvl := ℕ) (Pipeline.pin (pcfgs (F := F)) (adm m) 1).spec c (rV (V3 m (outsA m)) c) : sProp 𝕄)
        = iprop(Pipeline.prefHeld pre1 c (fun _ => fullShare) (tbl m) ∗ Pipeline.unscopedRestP pre1 spec1 c (rV (V3 m (outsA m)) c)) := by
      rw [← tbl_eq m c]; exact Pipeline.unscopedRest_split preFacts1 c (rV (V3 m (outsA m)) c)
    rw [Pipeline.unscopedBufs_held, hs] at hjoin
    iintro ⟨Ha, HO, ⟨HY, Hpf⟩, Hrest⟩
    imodintro
    isplitl [Ha Hrest Hpf]
    · iapply hjoin; isplitl [Ha]; · iexact Ha
      isplitl [Hpf]; · iexact Hpf
      iexact Hrest
    isplitl [HY]; · iexact HY
    unfold Pipeline.Dat.owesAt Pipeline.owesWithin
    icases HO with ⟨%W, -, HO⟩; iexists W; iexact HO

/-! ## Region 2: what its arrays hold at its exit -/

theorem outs_6 (r : Ref sig .tc) (c : Dev nD) : outs m 6 r c
    = Pipeline.withArrays spec2 c (V5 m (outsB m) c) (fun w => (dat2 (rV (V5 m (outsB m))) c).arrAt w cfg2.N) (Proc.devRef .tc r) := by
  unfold outs; rw [if_neg (by decide)]

theorem V5_outs (c : Dev nD) : V5 m (outs m) c = V5 m (outsB m) c :=
  V5_congr m (outs m) (outsB m) ((outs_2 m).trans (outsB_2 m).symm) (outs_4 m) c

theorem V6_v14 (c : Dev nD) : V6 m (outs m) c main_v14 = (dat2 (rV (V5 m (outsB m))) c).arrAt 3 cfg2.N := by
  simp only [V6, Function.update_self]
  rw [outs_6]
  exact Pipeline.withArrays_arr spec2 (launch2 (F := F)).win.arr_inj c _ _ 3

theorem V6_in (c : Dev nD) (b : Ref sig .tc) (hb : b ∉ ([main_v14] : List (Ref sig .tc))) : V6 m (outs m) c b = V5 m (outsB m) c b :=
  (V6_of m (outs m) c b hb).trans (congrFun (V5_outs m c) _)

theorem hF2 (c : Dev nD) : ∀ w : Fin cfg2.W, (dat2 (rV (V5 m (outsB m))) c).arrAt w cfg2.N = rV (V6 m (outs m)) c (Pipeline.arrRef spec2 w)
  | ⟨0, _⟩ => ((dat2 (rV (V5 m (outsB m))) c).arrAt_in 0 rfl _).trans ((A_eq2 (rV (V5 m (outsB m))) c 0).trans (V6_in m c main_v12 (by decide)).symm)
  | ⟨1, _⟩ => ((dat2 (rV (V5 m (outsB m))) c).arrAt_in 1 rfl _).trans ((A_eq2 (rV (V5 m (outsB m))) c 1).trans (V6_in m c main_v4 (by decide)).symm)
  | ⟨2, _⟩ => ((dat2 (rV (V5 m (outsB m))) c).arrAt_in 2 rfl _).trans ((A_eq2 (rV (V5 m (outsB m))) c 2).trans (V6_in m c main_v13 (by decide)).symm)
  | ⟨3, _⟩ => (V6_v14 m c).symm
theorem hrest2 (c : Dev nD) : ∀ b, b ∉ Finset.univ.image (Pipeline.arrRef spec2) → rV (V6 m (outs m)) c b = rV (V5 m (outsB m)) c b :=
  fun b hb => V6_in m c b fun hmem => hb (by
    rcases List.mem_cons.mp hmem with rfl | hmem
    · exact Finset.mem_image.mpr ⟨3, Finset.mem_univ _, rfl⟩
    exact absurd hmem (List.not_mem_nil))

set_option backward.isDefEq.respectTransparency.types false in
/-- REGION 2 over the thread state: entered from every unscoped buffer at `V5`, left at `V6`. -/
def reg2 : Pipeline.RegionSeg (pcfgs (F := F)) (adm m) (pdats m) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (rV (V5 m (outsB m))) c).loose
  hwaits := Pipeline.hwaits_of_owed_zero _ _ _ _ L lv 2 fun _ _ => rfl
  pre c := iprop(StableHlo.held (c : Thread nD τ) (Pipeline.ucRefs τ sig) (V5 m (outsB m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (rV (V5 m (outsB m)) c)
  hentry c := by
    rw [Pipeline.ownSems0_none]
    have hsplit := Pipeline.arrays_of_unscopedBufs (p := 2) (pcfgs (F := F)) (adm m) (pdats m) (launch2 (F := F)).win (launch2 (F := F)).arr_whole c
      ((pdats m 2 c).share_full fun _ => rfl) (rV (V5 m (outsB m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m) (Ix := Unit) (Name := ℕ) (U := UR sig nD τ) (Lvl := ℕ)
      (launch2 (F := F)).win (launch2 (F := F)).arr_whole c (pdats m) ((pdats m 2 c).share_full fun _ => rfl)
      (rV (V5 m (outsB m)) c) (rV (V6 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- What the launch hands a core beside its buffers makes the rest state: the generator register, nothing owed. -/
theorem launch_R (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄)
      ⊢ R (F := F) c := by
  iintro ⟨-, HO, -, Hp, -⟩
  isplitl [Hp]; · iexists _; iexact Hp
  iexists ∅; iexact HO

/-- THE RUN: at the compiled mesh, from any memory with zero counters, every weakly fair execution of @main on the
    TensorCores terminates, nothing faulting, and every final state has every unscoped buffer at the last valuation. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V7 m (outs m) c b) :=
  run_cond m (Ix := Unit) (U := UR sig nD τ) (Lvl := ℕ) emb₁ () 𝒱₀ L lv (fun _ _ => rfl) ρ (outs m) (adm m) (pdats m)
    (O₀ := 0) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
          ⊢ (bigSep Finset.univ (fun c : Dev nD => R (F := F) c) : sProp 𝕄) :=
        bigSep_mono fun c _ => launch_R ρ c
      iintro ⟨H, -⟩
      imodintro
      iapply hmono
      iexact H)
    (hE3 := fun c => by iintro ⟨-, HO⟩; iexact HO)
    (R0 := reg0 m) (hpre0 := fun c => .rfl)
    (hpost0 := fun c => by rw [V2_congr m (outs m) (outsA m) (outs_2 m) c]; exact .rfl)
    (R1 := reg1 m) (hpre1 := fun c => by rw [V3_congr m (outs m) (outsA m) (outs_2 m) c]; exact .rfl)
    (hpost1 := fun c => by rw [V4_congr m (outs m) (outsB m) ((outs_2 m).trans (outsB_2 m).symm) (outs_4 m) c]; exact .rfl)
    (R2 := reg2 m) (hpre2 := fun c => by rw [V5_outs m c]; exact .rfl)
    (hpost2 := fun c => .rfl)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (V7_main_arg0 m (outs m) c),
     (h c _ (mem_uc main_arg1 (by decide))).trans (V7_main_arg1 m (outs m) c),
     (h c _ (mem_uc main_arg2 (by decide))).trans (V7_main_arg2 m (outs m) c),
     (h c _ (mem_uc main_arg3 (by decide))).trans (V7_main_arg3 m (outs m) c),
     (h c _ (mem_uc main_arg4 (by decide))).trans (V7_main_arg4 m (outs m) c),
     (h c _ (mem_uc main_arg5 (by decide))).trans (V7_main_arg5 m (outs m) c)⟩) (run_all m ρ)

end Cert.Kernel.Hand

end
-- ==== Proof.KI.Region0.lean ====
/- Region 0 of @main: the key / query / value projection, one row block of 512 rows per grid point.
   At any contents `V` of the core's buffers when the region is entered: every input window's staging
   buffer holds its block of the array (the activations' row block; the whole transposed weight matrix;
   the bias row), and the body leaves in the three output windows the three column thirds of the product
   of the row block with the weights plus the bias row broadcast down the rows. -/
import proofs.«422964_j3899830305375_2_alg».proof.Proof.Gen.KernelIdeal.Launch
import proofs.«422964_j3899830305375_2_alg».proof.Proof.Gen.KernelIdeal.Skeleton
import proofs.«422964_j3899830305375_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's one access rectangle per buffer: the whole buffer. -/
abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S1x3072 := Rect.unit (s := S1x3072) ![0, 0] S1x3072.size inb_S1x3072_S1x3072_0_0

/-- What the body leaves in each output window's staging buffer, from the input blocks: its one store. -/
def out0_3 (x0 : Vec F S512x1024 .f32) (x1 : Vec F S1024x3072 .bf16) (x2 : Vec F S1x3072 .f32) : Vec F S512x1024 .bf16 :=
  View.canon [⟨r0_x, k0_pay2 (View.ld x0 r0_x) (View.ld x1 r0_w) (View.ld x2 r0_b)⟩]
def out0_4 (x0 : Vec F S512x1024 .f32) (x1 : Vec F S1024x3072 .bf16) (x2 : Vec F S1x3072 .f32) : Vec F S512x1024 .bf16 :=
  View.canon [⟨r0_x, k0_pay3 (View.ld x0 r0_x) (View.ld x1 r0_w) (View.ld x2 r0_b)⟩]
def out0_5 (x0 : Vec F S512x1024 .f32) (x1 : Vec F S1024x3072 .bf16) (x2 : Vec F S1x3072 .f32) : Vec F S512x1024 .bf16 :=
  View.canon [⟨r0_x, k0_pay4 (View.ld x0 r0_x) (View.ld x1 r0_w) (View.ld x2 r0_b)⟩]

/-- Each store is of the whole buffer, so it covers it. -/
theorem cover0_o (p0 : Vec F S512x1024 .bf16) (y : S512x1024.Idx) :
    ∃ pc ∈ ([⟨r0_x, p0⟩] : List (View.Piece (Elt F) S512x1024 .bf16)), y ∈ pc.1.set :=
  View.cover_of_tiled [⟨r0_x, p0⟩] S512x1024.size (by rfl) y

set_option maxHeartbeats 1000000 in
/-- The kernel body on whole staging memrefs, the inputs' at contents `xW` and the outputs' at anything, runs to the
    continuation holding the inputs' as they were and each output's at `out0_W` of the inputs'. -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0_kqv_linear_kernel i arg1 harg1 arg2 harg2 arg3 harg3 arg4 harg4 arg5 harg5 arg6 harg6) K := by
  simp only [cc0_kqv_linear_kernel_eq_skeleton]; unfold cc0_kqv_linear_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-- The proof data of pipeline 0 on core `c`: the arrays as the region finds them; after the body at point `t`
    each input's buffer at its block and each output's at `out0_W` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region1.lean ====
/- Region 1 of @main: masked softmax attention, one block of 512 queries of one batch entry per grid point,
   against all 2048 keys and values of that batch entry; the valid lengths are a table in scalar memory that
   the body reads one word of.
   At any contents `V` of the core's buffers when the region is entered and any admissible contents `a` of the
   table: every input window's staging buffer holds its block of the array, and the body leaves in the output
   window the transposed attention output of the query block. -/
import proofs.«422964_j3899830305375_2_alg».proof.Proof.Gen.KernelIdeal.Launch
import proofs.«422964_j3899830305375_2_alg».proof.Proof.Gen.KernelIdeal.Skeleton
import proofs.«422964_j3899830305375_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))
variable (a : (pcfg1 (F := F)).Adm)

/-- The current staging memref of each window at point `t`: which of its buffers it is on. -/
abbrev st1_0 (t : Fin (cfg1 a).N) := ((cfg1 a).win 0).stage ((cfg1 a).slots t 0)
abbrev st1_1 (t : Fin (cfg1 a).N) := ((cfg1 a).win 1).stage ((cfg1 a).slots t 1)
abbrev st1_2 (t : Fin (cfg1 a).N) := ((cfg1 a).win 2).stage ((cfg1 a).slots t 2)
abbrev st1_3 (t : Fin (cfg1 a).N) := ((cfg1 a).win 3).stage ((cfg1 a).slots t 3)

/-- The kernel body at point `t`, on what the pipeline calls it with. -/
abbrev bodyAt1 (t : Fin (cfg1 a).N) : Prog (TpuEff nD τ sig (Elt F) Λ₀ .tc) PUnit :=
  cc1_attn_kernel (grid1.coords t) (Memref.whole main_arg1) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))

/-- Window `w`'s block at point `t`, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- An input window's current staging buffer holds its block at every point, fetched there or not. -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ (cfg1 a) c) (hA : dat.A 1 = V c (Pipeline.arrRef spec1 1))
    (hafter : ∀ t, dat.after 1 t = iblk1 V a c 1 t) (t : Fin (cfg1 a).N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ (cfg1 a) c) (hA : dat.A 2 = V c (Pipeline.arrRef spec1 2))
    (hafter : ∀ t, dat.after 2 t = iblk1 V a c 2 t) (t : Fin (cfg1 a).N) (d) : dat.before 2 t d = iblk1 V a c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The table as the body is handed it: its whole buffer as a memref. -/
abbrev tbM1 : Memref sig .tc .smem S4 .i32 := Memref.whole main_arg1
abbrev htbM1 : tbM1.IsWhole := Memref.isWhole_whole _
/-- The table's buffer on core `c`: its contents type, and it held whole at `f`. -/
abbrev TbBuf1 (c : Dev nD) : Type := Buf (Elt F) (tbM1.view.loc (c : Thread nD τ))
abbrev tbPt1 (c : Dev nD) (f : TbBuf1 (F := F) c) : sProp 𝕄 :=
  tbM1.view.loc (c : Thread nD τ) ↦{fullShare} f

/-- The table held whole, as the region's invariant keeps it. -/
theorem prefHeld1_eq (c : Dev nD) (tb : pre1.Contents (Elt F)) :
    (Pipeline.prefHeld pre1 c (fun _ => fullShare) tb : sProp 𝕄) = tbPt1 c (tb 0) := by
  unfold Pipeline.prefHeld
  rw [show (Finset.univ : Finset (Fin 1)) = {(0 : Fin 1)} from by decide, bigSep_singleton]
  rfl

/-- The body's one access rectangle per buffer: the whole buffer. -/
abbrev r1_q : Rect S1x512x1024 := Rect.unit (s := S1x512x1024) ![0, 0, 0] S1x512x1024.size inb_S1x512x1024_S1x512x1024_0_0_0
abbrev r1_k : Rect S1x2048x1024 := Rect.unit (s := S1x2048x1024) ![0, 0, 0] S1x2048x1024.size inb_S1x2048x1024_S1x2048x1024_0_0_0
abbrev r1_o : Rect S1x1024x512 := Rect.unit (s := S1x1024x512) ![0, 0, 0] S1x1024x512.size inb_S1x1024x512_S1x1024x512_0_0_0

/-- The table's word the body reads at grid point `i`: the valid length of the point's batch entry. -/
def word1 (c : Dev nD) (i : grid1.Coords) (xt : TbBuf1 (F := F) c) : Elt F .i32 :=
  tbM1.view.readAt (Elt F) (Rect.unit (s := S4) (k1_off1 i) S1.size (k1_off1_inb i)).toLoadRect xt (Shape.Idx.first (numel1_S1.symm ▸ Nat.one_pos))

/-- What the body leaves in the output window's staging buffer, from the table and the input blocks: its one store. -/
def out1_3 (c : Dev nD) (i : grid1.Coords) (xt : TbBuf1 (F := F) c) (x0 : Vec F S1x512x1024 .bf16) (x1 x2 : Vec F S1x2048x1024 .bf16) : Vec F S1x1024x512 .bf16 :=
  View.canon [⟨r1_o, k1_pay1 (word1 c i xt) (View.ld x0 r1_q) (View.ld x1 r1_k) (View.ld x2 r1_k)⟩]

/-- The store is of the whole buffer, so it covers it. -/
theorem cover1_3 (p0 : Vec F S1x1024x512 .bf16) (y : S1x1024x512.Idx) :
    ∃ pc ∈ ([⟨r1_o, p0⟩] : List (View.Piece (Elt F) S1x1024x512 .bf16)), y ∈ pc.1.set :=
  View.cover_of_tiled [⟨r1_o, p0⟩] S1x1024x512.size (by rfl) y

set_option maxHeartbeats 1000000 in
/-- The kernel body on whole staging memrefs, the inputs' at contents `xW`, the table's at `xt` and the output's at
    anything, runs to the continuation holding the inputs' and the table's as they were and the output's at
    `out1_3` of them. -/
theorem sound_kernel1 (c : Dev nD) (E : Set ℕ) (i : grid1.Coords) (arg3 : Memref sig .tc .vmem S1x512x1024 .bf16) (harg3 : arg3.IsWhole)
    (arg4 : Memref sig .tc .vmem S1x2048x1024 .bf16) (harg4 : arg4.IsWhole) (arg5 : Memref sig .tc .vmem S1x2048x1024 .bf16) (harg5 : arg5.IsWhole)
    (arg6 : Memref sig .tc .vmem S1x1024x512 .bf16) (harg6 : arg6.IsWhole)
    (xt : TbBuf1 (F := F) c) (x0 : Vec F S1x512x1024 .bf16) (x1 x2 : Vec F S1x2048x1024 .bf16) (K : PUnit → sProp 𝕄) :
    iprop(tbPt1 c xt ∗ owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(tbPt1 c xt ∗ owns (c : Thread nD τ) arg3 fullShare x0 ∗ owns (c : Thread nD τ) arg4 fullShare x1 ∗ owns (c : Thread nD τ) arg5 fullShare x2
            ∗ owns (c : Thread nD τ) arg6 fullShare (out1_3 c i xt x0 x1 x2)) -∗ K ⟨⟩))
      ⊢ wp frame (wpE (defs₀ (F := F)) Variants.none c none) E (cc1_attn_kernel i tbM1 htbM1 arg3 harg3 arg4 harg4 arg5 harg5 arg6 harg6) K := by
  simp only [cc1_attn_kernel_eq_skeleton]; unfold cc1_attn_kernel_skel
  unfold owns
  iintro ⟨HT, ⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [HT]; · iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t`
    each input's buffer at its block and the output's at `out1_3` of the table and the input blocks; the invariant
    the scoped rest, the generator register and the table held whole, untouched; nothing owed; full shares. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => out1_3 c (grid1.coords t) (a.1 0) (iblk1 V a c 0 t) (iblk1 V a c 1 t) (iblk1 V a c 2 t)
  Φ _ := iprop(Pipeline.ΦA spec1 c ∗ Pipeline.prefHeld pre1 c (fun _ => fullShare) a.1)
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := by dsimp only [dat1]; try rfl
theorem after1_1 (c : Dev nD) (t : Fin (cfg1 a).N) : (dat1 V a c).after 1 t = iblk1 V a c 1 t := by dsimp only [dat1]; try rfl
theorem after1_2 (c : Dev nD) (t : Fin (cfg1 a).N) : (dat1 V a c).after 2 t = iblk1 V a c 2 t := by dsimp only [dat1]; try rfl
theorem after1_3 (c : Dev nD) (t : Fin (cfg1 a).N) : (dat1 V a c).after 3 t = out1_3 c (grid1.coords t) (a.1 0) (iblk1 V a c 0 t) (iblk1 V a c 1 t) (iblk1 V a c 2 t) := by dsimp only [dat1]; try rfl

theorem before1_0 (c : Dev nD) (t : Fin (cfg1 a).N) (d) : (dat1 V a c).before 0 t d = iblk1 V a c 0 t :=
  before1_0_of V a (dat1 V a c) (A_eq1 V a c 0) (after1_0 V a c) t d
theorem before1_1 (c : Dev nD) (t : Fin (cfg1 a).N) (d) : (dat1 V a c).before 1 t d = iblk1 V a c 1 t :=
  before1_1_of V a (dat1 V a c) (A_eq1 V a c 1) (after1_1 V a c) t d
theorem before1_2 (c : Dev nD) (t : Fin (cfg1 a).N) (d) : (dat1 V a c).before 2 t d = iblk1 V a c 2 t :=
  before1_2_of V a (dat1 V a c) (A_eq1 V a c 2) (after1_2 V a c) t d

/-- What the body is called with at point `t`, the windows one by one, -/
def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d))
    ∗ (∃ d, owns (c : Thread nD τ) (st1_1 a t) fullShare ((dat1 V a c).before 1 t d))
    ∗ (∃ d, owns (c : Thread nD τ) (st1_2 a t) fullShare ((dat1 V a c).before 2 t d))
    ∗ (∃ d, owns (c : Thread nD τ) (st1_3 a t) fullShare ((dat1 V a c).before 3 t d)))

/-- and what it returns. -/
def bodyPost1 (c : Dev nD) (t : Fin (cfg1 a).N) : sProp 𝕄 :=
  iprop((dat1 V a c).Φ t.succ ∗ (dat1 V a c).owesAt () t.succ
    ∗ owns (c : Thread nD τ) (st1_0 a t) fullShare ((dat1 V a c).after 0 t)
    ∗ owns (c : Thread nD τ) (st1_1 a t) fullShare ((dat1 V a c).after 1 t)
    ∗ owns (c : Thread nD τ) (st1_2 a t) fullShare ((dat1 V a c).after 2 t)
    ∗ owns (c : Thread nD τ) (st1_3 a t) fullShare ((dat1 V a c).after 3 t))

/-- The body at any point: the inputs' memrefs hold their blocks and the invariant the table, so `sound_kernel1`
    applies; the rest of the invariant and the core's dues pass through unread. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2]
  rw [show (dat1 V a c).Φ t.succ = (dat1 V a c).Φ t.castSucc from rfl,
    show (dat1 V a c).owesAt () t.succ = (dat1 V a c).owesAt () t.castSucc from rfl,
    after1_0, after1_1, after1_2, after1_3]
  rw [show (dat1 V a c).Φ t.castSucc = iprop(Pipeline.ΦA spec1 c ∗ Pipeline.prefHeld pre1 c (fun _ => fullShare) a.1) from rfl, prefHeld1_eq]
  iintro ⟨⟨HΦ, HT⟩, Ho, ⟨%d0, H0⟩, ⟨%d1, H1⟩, ⟨%d2, H2⟩, ⟨%d3, H3⟩⟩
  iapply (sound_kernel1 c Set.univ _ _ _ _ _ _ _ _ _ (a.1 0) (iblk1 V a c 0 t) (iblk1 V a c 1 t) (iblk1 V a c 2 t) _)
  isplitl [HT]; · iexact HT
  isplitl [H0]; · iexact H0
  isplitl [H1]; · iexact H1
  isplitl [H2]; · iexact H2
  isplitl [H3]; · iexists _; iexact H3
  iintro ⟨HT, H0, H1, H2, H3⟩
  isplitl [HΦ HT]
  · isplitl [HΦ]; · iexact HΦ
    iexact HT
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V a c) (defs₀ (F := F)) Variants.none () Set.univ := fun t => by
  rw [bigSep_W1, bigSep_W1]
  exact sound_body1 V a c t

end Region1

end Cert.KernelIdeal.Hand

end
-- ==== Proof.KI.Region2.lean ====
/- Region 2 of @main: the final projection, one row block of 512 rows per grid point.
   At any contents `V` of the core's buffers when the region is entered: every input window's staging
   buffer holds its block of the array (the activations' row block; the whole weight matrix; the bias row),
   and the body leaves in the output window the product of the row block with the weights plus the
   bias row broadcast down the rows. -/
import proofs.«422964_j3899830305375_2_alg».proof.Proof.Gen.KernelIdeal.Launch
import proofs.«422964_j3899830305375_2_alg».proof.Proof.Gen.KernelIdeal.Skeleton
import proofs.«422964_j3899830305375_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's one access rectangle per buffer: the whole buffer. -/
abbrev r2_x : Rect S512x1024 := Rect.unit (s := S512x1024) ![0, 0] S512x1024.size inb_S512x1024_S512x1024_0_0
abbrev r2_w : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0

/-- What the body leaves in the output window's staging buffer, from the input blocks: its one store. -/
def out2_3 (x0 : Vec F S512x1024 .bf16) (x1 : Vec F S1024x1024 .bf16) (x2 : Vec F S1x1024 .f32) : Vec F S512x1024 .f32 :=
  View.canon [⟨r2_x, k2_pay1 (View.ld x0 r2_x) (View.ld x1 r2_w) (View.ld x2 r2_b)⟩]

/-- The store is of the whole buffer, so it covers it. -/
theorem cover2_3 (p0 : Vec F S512x1024 .f32) (y : S512x1024.Idx) :
    ∃ pc ∈ ([⟨r2_x, p0⟩] : List (View.Piece (Elt F) S512x1024 .f32)), y ∈ pc.1.set :=
  View.cover_of_tiled [⟨r2_x, p0⟩] S512x1024.size (by rfl) y

set_option maxHeartbeats 1000000 in
/-- The kernel body on whole staging memrefs, the inputs' at contents `xW` and the output's at anything, runs to the
    continuation holding the inputs' as they were and the output's at `out2_3` of the inputs'. -/
theorem sound_kernel2 (c : Dev nD) (E : Set ℕ) (i : grid2.Coords) (arg1 : Memref sig .tc .vmem S512x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2_linear_kernel i arg1 harg1 arg2 harg2 arg3 harg3 arg4 harg4) K := by
  simp only [cc2_linear_kernel_eq_skeleton]; unfold cc2_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t`
    each input's buffer at its block and the output's at `out2_3` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Run.lean ====
/- The three regions as segments of @main, and the run.

   Between items a core holds every unscoped buffer at a valuation, its generator register at some state, and owes
   nothing.  A region takes its windows' arrays out of the unscoped buffers at entry and puts them back at exit at
   what the pipeline leaves in them: the inputs as entered, each output's written-back blocks.  Region 1 also takes
   the table of valid lengths, which nothing in @main writes, and gives it back unchanged. -/
import proofs.«422964_j3899830305375_2_alg».proof.Proof.KI.RunCond
import proofs.«422964_j3899830305375_2_alg».proof.Proof.KI.Region0
import proofs.«422964_j3899830305375_2_alg».proof.Proof.KI.Region1
import proofs.«422964_j3899830305375_2_alg».proof.Proof.KI.Region2
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation read at the TensorCore's references. -/
abbrev rV (W : Dev nD → Valuation τ sig (Elt F)) : (c : Dev nD) → (b : Ref sig .tc) → Buf (Elt F) ((c : Thread nD τ).loc b) :=
  fun c b => W c b

/-! ## The table of valid lengths -/

/-- The table's contents: as launched (there is one device). -/
def tbl : pre1.Contents (Elt F) := fun j => m (((0 : Dev nD) : Thread nD τ).loc (pre1.ref j))
/-- They are admissible: no index map reads the table. -/
abbrev adm1 : (pcfg1 (F := F)).Adm := ⟨tbl m, (ok1.eq_1 (tbl m)).mpr trivial⟩
/-- Every pipeline's tables: only pipeline 1 has one. -/
abbrev adm : (p : Fin 3) → (pcfgs (F := F) p).Adm := fun
  | ⟨0, _⟩ => cfg0.toPCfg_adm
  | ⟨1, _⟩ => adm1 m
  | ⟨2, _⟩ => cfg2.toPCfg_adm
  | ⟨_ + 3, h⟩ => absurd h (Nat.not_lt.2 (Nat.le_add_left _ _))

/-! ## What the regions leave, stage by stage -/

/-- After region 0: its arrays at what the pipeline leaves. -/
def outsA : Outs (F := F) := fun _ r c =>
  Pipeline.withArrays spec0 c (V1 m c) (fun w => (dat0 (rV (V1 m)) c).arrAt w cfg0.N) (Proc.devRef .tc r)
/-- After region 1 as well. -/
def outsB : Outs (F := F) := fun J r c => if J = 2 then outsA m J r c else
  Pipeline.withArrays spec1 c (V3 m (outsA m) c) (fun w => (dat1 (rV (V3 m (outsA m))) (adm1 m) c).arrAt w (cfg1 (adm1 m)).N) (Proc.devRef .tc r)
/-- After region 2 as well. -/
def outs : Outs (F := F) := fun J r c => if J = 2 ∨ J = 4 then outsB m J r c else
  Pipeline.withArrays spec2 c (V5 m (outsB m) c) (fun w => (dat2 (rV (V5 m (outsB m))) c).arrAt w cfg2.N) (Proc.devRef .tc r)

theorem outsB_2 : outsB m 2 = outsA m 2 := by funext r c; unfold outsB; rw [if_pos rfl]
theorem outs_2 : outs m 2 = outsA m 2 := by funext r c; unfold outs; rw [if_pos (Or.inl rfl)]; exact congrFun (congrFun (outsB_2 m) r) c
theorem outs_4 : outs m 4 = outsB m 4 := by funext r c; unfold outs; rw [if_pos (Or.inr rfl)]

theorem V2_congr (o o' : Outs (F := F)) (h2 : o 2 = o' 2) (c : Dev nD) : V2 m o c = V2 m o' c := by
  simp only [V2, h2]
theorem V3_congr (o o' : Outs (F := F)) (h2 : o 2 = o' 2) (c : Dev nD) : V3 m o c = V3 m o' c := by
  simp only [V3, V2_congr m o o' h2]
theorem V4_congr (o o' : Outs (F := F)) (h2 : o 2 = o' 2) (h4 : o 4 = o' 4) (c : Dev nD) : V4 m o c = V4 m o' c := by
  simp only [V4, V3_congr m o o' h2, h4]
theorem V5_congr (o o' : Outs (F := F)) (h2 : o 2 = o' 2) (h4 : o 4 = o' 4) (c : Dev nD) : V5 m o c = V5 m o' c := by
  simp only [V5, V4_congr m o o' h2 h4]

/-! ## The proof data family and the thread state -/

/-- Every pipeline's proof data, each at its region's entry contents. -/
def pdats : (p : Fin 3) → (c : Dev nD) → Dat τ (Elt F) Unit ℕ (UR sig nD τ) ℕ (Pipeline.pin (pcfgs (F := F)) (adm m) p) c
  | ⟨0, _⟩ => fun c => dat0 (rV (V1 m)) c
  | ⟨1, _⟩ => fun c => dat1 (rV (V3 m (outsA m))) (adm1 m) c
  | ⟨2, _⟩ => fun c => dat2 (rV (V5 m (outsB m))) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-! ## Region 0: what its arrays hold at its exit -/

theorem V2_v6_0 (c : Dev nD) : V2 m (outsA m) c main_v6_0 = (dat0 (rV (V1 m)) c).arrAt 3 cfg0.N := by
  simp only [V2, Function.update_of_ne (StableHlo.devRef_ne_of_ne (by decide) : (Proc.devRef .tc main_v6_0 : DevRef τ sig) ≠ Proc.devRef .tc main_v6_2),
    Function.update_of_ne (StableHlo.devRef_ne_of_ne (by decide) : (Proc.devRef .tc main_v6_0 : DevRef τ sig) ≠ Proc.devRef .tc main_v6_1), Function.update_self]
  exact Pipeline.withArrays_arr spec0 (launch0 (F := F)).win.arr_inj c _ _ 3
theorem V2_v6_1 (c : Dev nD) : V2 m (outsA m) c main_v6_1 = (dat0 (rV (V1 m)) c).arrAt 4 cfg0.N := by
  simp only [V2, Function.update_of_ne (StableHlo.devRef_ne_of_ne (by decide) : (Proc.devRef .tc main_v6_1 : DevRef τ sig) ≠ Proc.devRef .tc main_v6_2), Function.update_self]
  exact Pipeline.withArrays_arr spec0 (launch0 (F := F)).win.arr_inj c _ _ 4
theorem V2_v6_2 (c : Dev nD) : V2 m (outsA m) c main_v6_2 = (dat0 (rV (V1 m)) c).arrAt 5 cfg0.N := by
  simp only [V2, Function.update_self]
  exact Pipeline.withArrays_arr spec0 (launch0 (F := F)).win.arr_inj c _ _ 5

theorem hF0 (c : Dev nD) : ∀ w : Fin cfg0.W, (dat0 (rV (V1 m)) c).arrAt w cfg0.N = rV (V2 m (outsA m)) c (Pipeline.arrRef spec0 w)
  | ⟨0, _⟩ => ((dat0 (rV (V1 m)) c).arrAt_in 0 rfl _).trans ((A_eq0 (rV (V1 m)) c 0).trans (V2_of m (outsA m) c main_v0 (by decide)).symm)
  | ⟨1, _⟩ => ((dat0 (rV (V1 m)) c).arrAt_in 1 rfl _).trans ((A_eq0 (rV (V1 m)) c 1).trans (V2_of m (outsA m) c main_v2 (by decide)).symm)
  | ⟨2, _⟩ => ((dat0 (rV (V1 m)) c).arrAt_in 2 rfl _).trans ((A_eq0 (rV (V1 m)) c 2).trans (V2_of m (outsA m) c main_v5 (by decide)).symm)
  | ⟨3, _⟩ => (V2_v6_0 m c).symm
  | ⟨4, _⟩ => (V2_v6_1 m c).symm
  | ⟨5, _⟩ => (V2_v6_2 m c).symm
theorem hrest0 (c : Dev nD) : ∀ b, b ∉ Finset.univ.image (Pipeline.arrRef spec0) → rV (V2 m (outsA m)) c b = rV (V1 m) c b :=
  fun b hb => V2_of m (outsA m) c b fun hmem => hb (by
    rcases List.mem_cons.mp hmem with rfl | hmem
    · exact Finset.mem_image.mpr ⟨3, Finset.mem_univ _, rfl⟩
    rcases List.mem_cons.mp hmem with rfl | hmem
    · exact Finset.mem_image.mpr ⟨4, Finset.mem_univ _, rfl⟩
    rcases List.mem_cons.mp hmem with rfl | hmem
    · exact Finset.mem_image.mpr ⟨5, Finset.mem_univ _, rfl⟩
    exact absurd hmem (List.not_mem_nil))

set_option backward.isDefEq.respectTransparency.types false in
/-- REGION 0 over the thread state: entered from every unscoped buffer at `V1`, left at `V2`. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (rV (V1 m)) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outsA m) c) ∗ R c)
  X c := iprop(∃ r, prngReg c r)
  Y c := iprop(∃ r, prngReg c r)
  Z c := Pipeline.unscopedRest (Ix := Unit) (Name := ℕ) (U := UR sig nD τ) (Lvl := ℕ) spec0 c (rV (V1 m) c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (rV (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (rV (V1 m) c) (rV (V2 m (outsA m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: the table, and what its arrays hold at its exit -/

/-- Nothing before region 1 writes the table: it holds its launch contents. -/
theorem tbl_eq (c : Dev nD) : (fun k => rV (V3 m (outsA m)) c (pre1.ref k)) = tbl m := by
  obtain rfl : c = 0 := Subsingleton.elim _ _
  funext k
  match k with
  | ⟨0, _⟩ =>
    exact (V3_of m (outsA m) 0 main_arg1 (by decide)).trans ((V2_of m (outsA m) 0 main_arg1 (by decide)).trans ((V1_of m 0 main_arg1 (by decide)).trans rfl))

theorem V4_v10 (c : Dev nD) : V4 m (outsB m) c main_v10 = (dat1 (rV (V3 m (outsA m))) (adm1 m) c).arrAt 3 (cfg1 (adm1 m)).N := by
  simp only [V4, Function.update_self]
  unfold outsB; rw [if_neg (by decide)]
  exact Pipeline.withArrays_arr spec1 (launch1 (F := F)).win.arr_inj c _ _ 3

theorem V4_in (c : Dev nD) (b : Ref sig .tc) (hb : b ∉ ([main_v10] : List (Ref sig .tc))) : V4 m (outsB m) c b = V3 m (outsA m) c b :=
  (V4_of m (outsB m) c b hb).trans (congrFun (V3_congr m (outsB m) (outsA m) (outsB_2 m) c) _)

theorem hF1 (c : Dev nD) : ∀ w : Fin (cfg1 (adm1 m)).W, (dat1 (rV (V3 m (outsA m))) (adm1 m) c).arrAt w (cfg1 (adm1 m)).N = rV (V4 m (outsB m)) c (Pipeline.arrRef spec1 w)
  | ⟨0, _⟩ => ((dat1 (rV (V3 m (outsA m))) (adm1 m) c).arrAt_in 0 rfl _).trans ((A_eq1 (rV (V3 m (outsA m))) (adm1 m) c 0).trans (V4_in m c main_v8 (by decide)).symm)
  | ⟨1, _⟩ => ((dat1 (rV (V3 m (outsA m))) (adm1 m) c).arrAt_in 1 rfl _).trans ((A_eq1 (rV (V3 m (outsA m))) (adm1 m) c 1).trans (V4_in m c main_v7 (by decide)).symm)
  | ⟨2, _⟩ => ((dat1 (rV (V3 m (outsA m))) (adm1 m) c).arrAt_in 2 rfl _).trans ((A_eq1 (rV (V3 m (outsA m))) (adm1 m) c 2).trans (V4_in m c main_v9 (by decide)).symm)
  | ⟨3, _⟩ => (V4_v10 m c).symm
theorem hrest1 (c : Dev nD) : ∀ b, b ∉ Finset.univ.image (Pipeline.arrRef spec1) → rV (V4 m (outsB m)) c b = rV (V3 m (outsA m)) c b :=
  fun b hb => V4_in m c b fun hmem => hb (by
    rcases List.mem_cons.mp hmem with rfl | hmem
    · exact Finset.mem_image.mpr ⟨3, Finset.mem_univ _, rfl⟩
    exact absurd hmem (List.not_mem_nil))

set_option backward.isDefEq.respectTransparency.types false in
/-- REGION 1 over the thread state: entered from every unscoped buffer at `V3`, left at `V4`; the table goes into the
    region's invariant whole and comes back unchanged. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (rV (V3 m (outsA m))) (adm1 m) c).loose
  hwaits := Pipeline.hwaits_of_owed_zero _ _ _ _ L lv 1 fun _ _ => rfl
  pre c := iprop(StableHlo.held (c : Thread nD τ) (Pipeline.ucRefs τ sig) (V3 m (outsA m) c) ∗ R c)
  post c := iprop(StableHlo.held (c : Thread nD τ) (Pipeline.ucRefs τ sig) (V4 m (outsB m) c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (tbl m))
  Z c := Pipeline.unscopedRestP (Ix := Unit) (Name := ℕ) (U := UR sig nD τ) (Lvl := ℕ) pre1 spec1 c (rV (V3 m (outsA m)) c)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (rV (V3 m (outsA m)) c) fun _ => rfl
    have hs : (Pipeline.unscopedRest (Ix := Unit) (Name := ℕ) (U := UR sig nD τ) (Lvl := ℕ) (Pipeline.pin (pcfgs (F := F)) (adm m) 1).spec c (rV (V3 m (outsA m)) c) : sProp 𝕄)
        = iprop(Pipeline.prefHeld pre1 c (fun _ => fullShare) (tbl m) ∗ Pipeline.unscopedRestP pre1 spec1 c (rV (V3 m (outsA m)) c)) := by
      rw [← tbl_eq m c]; exact Pipeline.unscopedRest_split preFacts1 c (rV (V3 m (outsA m)) c)
    rw [Pipeline.unscopedBufs_held, hs] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = iprop(Pipeline.ΦA spec1 c ∗ Pipeline.prefHeld pre1 c (fun _ => fullShare) (tbl m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m 1 c).Φ (Fin.last _) = iprop(Pipeline.ΦA spec1 c ∗ Pipeline.prefHeld pre1 c (fun _ => fullShare) (tbl m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m) ((pdats m 1 c).share_full fun _ => rfl)
      (rV (V3 m (outsA m)) c) (rV (V4 m (outsB m)) c) ((pdats m 1 c).arrAt · (cfg1 (adm1 m)).N) (hF1 m c) (hrest1 m c)
    have hs : (Pipeline.unscopedRest (Ix := Unit) (Name := ℕ) (U := UR sig nD τ) (Lvl := ℕ) (Pipeline.pin (pcfgs (F := F)) (adm m) 1).spec c (rV (V3 m (outsA m)) c) : sProp 𝕄)
        = iprop(Pipeline.prefHeld pre1 c (fun _ => fullShare) (tbl m) ∗ Pipeline.unscopedRestP pre1 spec1 c (rV (V3 m (outsA m)) c)) := by
      rw [← tbl_eq m c]; exact Pipeline.unscopedRest_split preFacts1 c (rV (V3 m (outsA m)) c)
    rw [Pipeline.unscopedBufs_held, hs] at hjoin
    iintro ⟨Ha, HO, ⟨HY, Hpf⟩, Hrest⟩
    imodintro
    isplitl [Ha Hrest Hpf]
    · iapply hjoin; isplitl [Ha]; · iexact Ha
      isplitl [Hpf]; · iexact Hpf
      iexact Hrest
    isplitl [HY]; · iexact HY
    unfold Pipeline.Dat.owesAt Pipeline.owesWithin
    icases HO with ⟨%W, -, HO⟩; iexists W; iexact HO

/-! ## Region 2: what its arrays hold at its exit -/

theorem outs_6 (r : Ref sig .tc) (c : Dev nD) : outs m 6 r c
    = Pipeline.withArrays spec2 c (V5 m (outsB m) c) (fun w => (dat2 (rV (V5 m (outsB m))) c).arrAt w cfg2.N) (Proc.devRef .tc r) := by
  unfold outs; rw [if_neg (by decide)]

theorem V5_outs (c : Dev nD) : V5 m (outs m) c = V5 m (outsB m) c :=
  V5_congr m (outs m) (outsB m) ((outs_2 m).trans (outsB_2 m).symm) (outs_4 m) c

theorem V6_v14 (c : Dev nD) : V6 m (outs m) c main_v14 = (dat2 (rV (V5 m (outsB m))) c).arrAt 3 cfg2.N := by
  simp only [V6, Function.update_self]
  rw [outs_6]
  exact Pipeline.withArrays_arr spec2 (launch2 (F := F)).win.arr_inj c _ _ 3

theorem V6_in (c : Dev nD) (b : Ref sig .tc) (hb : b ∉ ([main_v14] : List (Ref sig .tc))) : V6 m (outs m) c b = V5 m (outsB m) c b :=
  (V6_of m (outs m) c b hb).trans (congrFun (V5_outs m c) _)

theorem hF2 (c : Dev nD) : ∀ w : Fin cfg2.W, (dat2 (rV (V5 m (outsB m))) c).arrAt w cfg2.N = rV (V6 m (outs m)) c (Pipeline.arrRef spec2 w)
  | ⟨0, _⟩ => ((dat2 (rV (V5 m (outsB m))) c).arrAt_in 0 rfl _).trans ((A_eq2 (rV (V5 m (outsB m))) c 0).trans (V6_in m c main_v12 (by decide)).symm)
  | ⟨1, _⟩ => ((dat2 (rV (V5 m (outsB m))) c).arrAt_in 1 rfl _).trans ((A_eq2 (rV (V5 m (outsB m))) c 1).trans (V6_in m c main_v4 (by decide)).symm)
  | ⟨2, _⟩ => ((dat2 (rV (V5 m (outsB m))) c).arrAt_in 2 rfl _).trans ((A_eq2 (rV (V5 m (outsB m))) c 2).trans (V6_in m c main_v13 (by decide)).symm)
  | ⟨3, _⟩ => (V6_v14 m c).symm
theorem hrest2 (c : Dev nD) : ∀ b, b ∉ Finset.univ.image (Pipeline.arrRef spec2) → rV (V6 m (outs m)) c b = rV (V5 m (outsB m)) c b :=
  fun b hb => V6_in m c b fun hmem => hb (by
    rcases List.mem_cons.mp hmem with rfl | hmem
    · exact Finset.mem_image.mpr ⟨3, Finset.mem_univ _, rfl⟩
    exact absurd hmem (List.not_mem_nil))

set_option backward.isDefEq.respectTransparency.types false in
/-- REGION 2 over the thread state: entered from every unscoped buffer at `V5`, left at `V6`. -/
def reg2 : Pipeline.RegionSeg (pcfgs (F := F)) (adm m) (pdats m) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (rV (V5 m (outsB m))) c).loose
  hwaits := Pipeline.hwaits_of_owed_zero _ _ _ _ L lv 2 fun _ _ => rfl
  pre c := iprop(StableHlo.held (c : Thread nD τ) (Pipeline.ucRefs τ sig) (V5 m (outsB m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (rV (V5 m (outsB m)) c)
  hentry c := by
    rw [Pipeline.ownSems0_none]
    have hsplit := Pipeline.arrays_of_unscopedBufs (p := 2) (pcfgs (F := F)) (adm m) (pdats m) (launch2 (F := F)).win (launch2 (F := F)).arr_whole c
      ((pdats m 2 c).share_full fun _ => rfl) (rV (V5 m (outsB m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m) (Ix := Unit) (Name := ℕ) (U := UR sig nD τ) (Lvl := ℕ)
      (launch2 (F := F)).win (launch2 (F := F)).arr_whole c (pdats m) ((pdats m 2 c).share_full fun _ => rfl)
      (rV (V5 m (outsB m)) c) (rV (V6 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- What the launch hands a core beside its buffers makes the rest state: the generator register, nothing owed. -/
theorem launch_R (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄)
      ⊢ R (F := F) c := by
  iintro ⟨-, HO, -, Hp, -⟩
  isplitl [Hp]; · iexists _; iexact Hp
  iexists ∅; iexact HO

/-- THE RUN: at the compiled mesh, from any memory with zero counters, every weakly fair execution of @main on the
    TensorCores terminates, nothing faulting, and every final state has every unscoped buffer at the last valuation. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V7 m (outs m) c b) :=
  run_cond m (Ix := Unit) (U := UR sig nD τ) (Lvl := ℕ) emb₁ () 𝒱₀ L lv (fun _ _ => rfl) ρ (outs m) (adm m) (pdats m)
    (O₀ := 0) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
          ⊢ (bigSep Finset.univ (fun c : Dev nD => R (F := F) c) : sProp 𝕄) :=
        bigSep_mono fun c _ => launch_R ρ c
      iintro ⟨H, -⟩
      imodintro
      iapply hmono
      iexact H)
    (hE3 := fun c => by iintro ⟨-, HO⟩; iexact HO)
    (R0 := reg0 m) (hpre0 := fun c => .rfl)
    (hpost0 := fun c => by rw [V2_congr m (outs m) (outsA m) (outs_2 m) c]; exact .rfl)
    (R1 := reg1 m) (hpre1 := fun c => by rw [V3_congr m (outs m) (outsA m) (outs_2 m) c]; exact .rfl)
    (hpost1 := fun c => by rw [V4_congr m (outs m) (outsB m) ((outs_2 m).trans (outsB_2 m).symm) (outs_4 m) c]; exact .rfl)
    (R2 := reg2 m) (hpre2 := fun c => by rw [V5_outs m c]; exact .rfl)
    (hpost2 := fun c => .rfl)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (V7_main_arg0 m (outs m) c),
     (h c _ (mem_uc main_arg1 (by decide))).trans (V7_main_arg1 m (outs m) c),
     (h c _ (mem_uc main_arg2 (by decide))).trans (V7_main_arg2 m (outs m) c),
     (h c _ (mem_uc main_arg3 (by decide))).trans (V7_main_arg3 m (outs m) c),
     (h c _ (mem_uc main_arg4 (by decide))).trans (V7_main_arg4 m (outs m) c),
     (h c _ (mem_uc main_arg5 (by decide))).trans (V7_main_arg5 m (outs m) c)⟩) (run_all m ρ)

end Cert.KernelIdeal.Hand

end
-- ==== Proof.Spec.lean ====
/- The mathematics both programs compute, over the extended reals, on plain index tuples.

   A linear layer's output feature is a dot product plus a bias.  Attention over one batch entry: the score of a
   query row against key row `j` is their dot product times 1/32, replaced by -10^6 where `j` is not below the
   batch entry's valid length; a row of scores is turned into weights by subtracting the row maximum,
   exponentiating, and normalising by the row's sum; the output row is the weighted sum of the value rows.
   The kernel normalises by multiplying with the reciprocal of the sum, the reference by dividing by the sum:
   the two agree whenever the sum is not zero, which holds when every score is a real number. -/
import Idealize.ShloMosaic.PureOps.Ideal
import Idealize.ShloMosaic.PureOps.Ideal.Laws
import Idealize.ShloMosaic.Lib.ValueIdx
import Mathlib.Algebra.BigOperators.Group.Finset.Basic
import Mathlib.Data.EReal.Operations

noncomputable section

namespace Cert.Spec

open Idealize.ShloMosaic

/-- One output feature of a linear layer: the dot product of an input row with a weight row, plus the bias. -/
def lin (x w : Fin 1024 → EReal) (b : EReal) : EReal := (∑ d : Fin 1024, x d * w d) + b

/-- The masked, scaled score of query row `q` against key row `j` of `k`, for valid length `vl`. -/
def score (vl : BitVec 32) (q : Fin 1024 → EReal) (k : Fin 2048 → Fin 1024 → EReal) (j : Fin 2048) : EReal :=
  Scalar.select (IntOp.cmpi .slt (BitVec.ofNat 32 j.val) vl)
    ((∑ d : Fin 1024, q d * k j d) * Ideal.ofBits .f32 0x3D000000#32) (Ideal.ofBits .f32 0xC9742400#32)

/-- The maximum of a row of scores (folded from -∞). -/
def rowMax (s : Fin 2048 → EReal) : EReal :=
  (Finset.univ : Finset (Fin 2048)).fold max (Ideal.ofBits .f32 0xFF800000#32) s

/-- The exponential of a score less the row maximum. -/
def ex (s : Fin 2048 → EReal) (j : Fin 2048) : EReal := Ideal.exp (s j - rowMax s)

/-- The row's normaliser. -/
def den (s : Fin 2048 → EReal) : EReal := ∑ j : Fin 2048, ex s j

/-- The softmax weight as the kernel forms it: times the reciprocal of the normaliser. -/
def wK (s : Fin 2048 → EReal) (j : Fin 2048) : EReal := ex s j * Ideal.div (Ideal.ofBits .f32 0x3F800000#32) (den s)

/-- The softmax weight as the reference forms it: divided by the normaliser. -/
def wR (s : Fin 2048 → EReal) (j : Fin 2048) : EReal := Ideal.div (ex s j) (den s)

/-- One feature of the attention output row of a query, kernel's normalisation. -/
def attnK (vl : BitVec 32) (q : Fin 1024 → EReal) (k v : Fin 2048 → Fin 1024 → EReal) (e : Fin 1024) : EReal :=
  ∑ j : Fin 2048, wK (score vl q k) j * v j e

/-- One feature of the attention output row of a query, reference's normalisation. -/
def attnR (vl : BitVec 32) (q : Fin 1024 → EReal) (k v : Fin 2048 → Fin 1024 → EReal) (e : Fin 1024) : EReal :=
  ∑ j : Fin 2048, wR (score vl q k) j * v j e

/-- An extended real that is a real number. -/
def IsReal (x : EReal) : Prop := ∃ r : ℝ, x = (r : EReal)

/-! ## Arrays as functions of index tuples -/

/-- A rank-1, rank-2, rank-3 array read at a tuple of coordinates. -/
def arr1 {α : Type} {n0 : Nat} (f : (⟨1, ![n0]⟩ : Shape).Idx → α) : Fin n0 → α := fun a => f (ValueIdx.ix1 a)
def arr2 {α : Type} {n0 n1 : Nat} (f : (⟨2, ![n0, n1]⟩ : Shape).Idx → α) : Fin n0 → Fin n1 → α := fun a b => f (ValueIdx.ix2 a b)
def arr3 {α : Type} {n0 n1 n2 : Nat} (f : (⟨3, ![n0, n1, n2]⟩ : Shape).Idx → α) : Fin n0 → Fin n1 → Fin n2 → α :=
  fun a b c => f (ValueIdx.ix3 a b c)

/-! ## The whole computation, from the six arguments -/

section Whole

variable (x : Fin 4 → Fin 2048 → Fin 1024 → EReal) (W : Fin 3072 → Fin 1024 → EReal) (bk : Fin 3072 → EReal)
  (vl : Fin 4 → BitVec 32) (Wp : Fin 1024 → Fin 1024 → EReal) (bp : Fin 1024 → EReal)

/-- Feature `e` of third `o` (0: keys, 1: queries, 2: values) of the 3072 projected features. -/
def third (o : Fin 3) (e : Fin 1024) : Fin 3072 := ⟨o.val * 1024 + e.val, by have := o.isLt; have := e.isLt; omega⟩

/-- The projected keys (`o = 0`), queries (`o = 1`) and values (`o = 2`). -/
def kqv (o : Fin 3) (b : Fin 4) (l : Fin 2048) (e : Fin 1024) : EReal := lin (x b l) (W (third o e)) (bk (third o e))

/-- The attention output, feature `e` of query `l` of batch entry `b`; kernel's and reference's normalisation. -/
def attK (b : Fin 4) (l : Fin 2048) (e : Fin 1024) : EReal :=
  attnK (vl b) (kqv x W bk 1 b l) (kqv x W bk 0 b) (kqv x W bk 2 b) e
def attR (b : Fin 4) (l : Fin 2048) (e : Fin 1024) : EReal :=
  attnR (vl b) (kqv x W bk 1 b l) (kqv x W bk 0 b) (kqv x W bk 2 b) e

/-- The query a position of the re-read array comes from: the attention output is laid out feature-major
    ([1024, 2048] per batch entry) and re-read as [2048, 1024], so position (l', e') is flat index
    l' * 1024 + e' = feature * 2048 + query. -/
def mixQ (l' : Fin 2048) (e' : Fin 1024) : Fin 2048 := ⟨(l'.val * 1024 + e'.val) % 2048, Nat.mod_lt _ (by decide)⟩
/-- The feature that position comes from. -/
def mixF (l' : Fin 2048) (e' : Fin 1024) : Fin 1024 :=
  ⟨(l'.val * 1024 + e'.val) / 2048, by have := l'.isLt; have := e'.isLt; omega⟩

/-- The final projection of the re-read attention output. -/
def outK (b : Fin 4) (l : Fin 2048) (e : Fin 1024) : EReal :=
  lin (fun d => attK x W bk vl b (mixQ l d) (mixF l d)) (Wp e) (bp e)
def outR (b : Fin 4) (l : Fin 2048) (e : Fin 1024) : EReal :=
  lin (fun d => attR x W bk vl b (mixQ l d) (mixF l d)) (Wp e) (bp e)

end Whole

end Cert.Spec

end
-- ==== Proof.KI.Val0.lean ====
/- What region 0 (the key / query / value projection) leaves in its three output arrays, element by element: each output row block is a column third of the row block of the activations times the transposed weight matrix plus the bias row, and the sixteen row blocks tile each array. -/
import proofs.«422964_j3899830305375_2_alg».proof.Proof.KI.Region0
import Idealize.ShloMosaic.Lib.ValueIdx
import Idealize.ShloMosaic.Lib.ValueLayout
import Idealize.ShloMosaic.Lib.Pipeline.Value
import Idealize.ShloMosaic.PureOps.Ideal.Laws
import proofs.«422964_j3899830305375_2_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## The projection's value at an index -/

theorem kqv_hz : (![0, 0] : Fin 2 → Nat) = fun _ => 0 := funext fun a => by
  match a with
  | ⟨0, _⟩ => rfl
  | ⟨1, _⟩ => rfl

/-- The operand indices of the product at output index `i` and contraction index `q`: the left operand is read at
    (row of `i`, `q`), the right at (`q`, column of `i`). -/
theorem kqv_lhs_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem kqv_lhs_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem kqv_rhs_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
theorem kqv_rhs_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The full-width projection of a row block at row `p`, column `q`: the dot product of row `p` of the block with
    column `q` of the weights, plus entry `q` of the bias row (the change of float format is the identity on the
    extended reals, and the product accumulates from zero). -/
theorem kqv_proj_apply (x0 : Vec Ideal S512x1024 .f32) (x1 : Vec Ideal S1024x3072 .bf16) (x2 : Vec Ideal S1x3072 .f32) (p : Fin 512) (q : Fin 3072) :
    (k0_pay1 (F := Ideal) x0 x1 x2 : S512x3072.Idx → EReal) (ix2 p q)
      = (∑ d : Fin 1024, (x0 : S512x1024.Idx → EReal) (ix2 p d) * (x1 : S1024x3072.Idx → EReal) (ix2 d q)) + (x2 : S1x3072.Idx → EReal) (ix2 0 q) := by
  unfold k0_pay1
  refine (addf_apply _ _ _).trans ?_
  refine congrArg₂ (· + ·) ?_ ?_
  · refine (Ideal.matmul_constant_zero_apply _ none _ _ _).trans ?_
    rw [← Equiv.sum_comp (contrEquiv1 dot_S512x1024_S1024x3072_S512x3072_1_0_0_1_n_n 1024 rfl rfl).symm]
    refine Finset.sum_congr rfl fun k _ => ?_
    have hk := contrEquiv1_symm_val dot_S512x1024_S1024x3072_S512x3072_1_0_0_1_n_n 1024 rfl rfl k
    have el : dot_S512x1024_S1024x3072_S512x3072_1_0_0_1_n_n.lhsIdx (ix2 p q) ((contrEquiv1 dot_S512x1024_S1024x3072_S512x3072_1_0_0_1_n_n 1024 rfl rfl).symm k) = ix2 p k := funext fun a => Fin.ext (by
      match a with
      | ⟨0, _⟩ => exact kqv_lhs_0 _ _
      | ⟨1, _⟩ => exact (kqv_lhs_1 _ _).trans hk)
    have er : dot_S512x1024_S1024x3072_S512x3072_1_0_0_1_n_n.rhsIdx (ix2 p q) ((contrEquiv1 dot_S512x1024_S1024x3072_S512x3072_1_0_0_1_n_n 1024 rfl rfl).symm k) = ix2 k q := funext fun a => Fin.ext (by
      match a with
      | ⟨0, _⟩ => exact (kqv_rhs_0 _ _).trans hk
      | ⟨1, _⟩ => exact kqv_rhs_1 _ _)
    rw [el, er, shapeCast_self, shapeCast_self]
    rfl
  · refine (broadcastTo_1b_ab_apply _ _ p q).trans ?_
    rw [shapeCast_self]

/-! ## A column third of the projection -/

/-- Columns `o … o + 1023` of a [512,3072] array, truncated: entry (p, e) is the array's entry (p, o + e). -/
theorem kqv_third_apply (o : Nat) (h : S512x3072.Slices ![0, o] S512x1024) (y : FVec Ideal S512x3072 .f32) (p : Fin 512) (e : Fin 1024) (q : Fin 3072)
    (hq : q.val = o + e.val) :
    (truncf .bf16 (extractStridedSlice S512x1024 ![0, o] y h) bitsLt_bf16_f32 : S512x1024.Idx → EReal) (ix2 p e) = y (ix2 p q) := by
  refine (truncf_apply (ψ := .bf16) (extractStridedSlice S512x1024 ![0, o] y h) bitsLt_bf16_f32 (ix2 p e)).trans ?_
  refine extractStridedSlice_apply _ y h (ix2 p e) (ix2 p q) fun a => ?_
  match a with
  | ⟨0, _⟩ => show p.val = 0 + p.val; omega
  | ⟨1, _⟩ => show q.val = o + e.val; exact hq

/-- What the body stores to each output window, at row `p` and feature `e` of the block: the linear layer's output
    feature `o * 1024 + e` of row `p` of the activations' block. -/
theorem kqv_pay2_apply (x0 : Vec Ideal S512x1024 .f32) (x1 : Vec Ideal S1024x3072 .bf16) (x2 : Vec Ideal S1x3072 .f32) (p : Fin 512) (e : Fin 1024) :
    (k0_pay2 (F := Ideal) x0 x1 x2 : S512x1024.Idx → EReal) (ix2 p e)
      = Cert.Spec.lin (fun d => (x0 : S512x1024.Idx → EReal) (ix2 p d))
          (fun d => (x1 : S1024x3072.Idx → EReal) (ix2 d (Cert.Spec.third 0 e)))
          ((x2 : S1x3072.Idx → EReal) (ix2 0 (Cert.Spec.third 0 e))) := by
  unfold k0_pay2
  refine (kqv_third_apply 0 _ _ p e (Cert.Spec.third 0 e) ?_).trans (kqv_proj_apply x0 x1 x2 p (Cert.Spec.third 0 e))
  show 0 * 1024 + e.val = 0 + e.val
  omega

theorem kqv_pay3_apply (x0 : Vec Ideal S512x1024 .f32) (x1 : Vec Ideal S1024x3072 .bf16) (x2 : Vec Ideal S1x3072 .f32) (p : Fin 512) (e : Fin 1024) :
    (k0_pay3 (F := Ideal) x0 x1 x2 : S512x1024.Idx → EReal) (ix2 p e)
      = Cert.Spec.lin (fun d => (x0 : S512x1024.Idx → EReal) (ix2 p d))
          (fun d => (x1 : S1024x3072.Idx → EReal) (ix2 d (Cert.Spec.third 1 e)))
          ((x2 : S1x3072.Idx → EReal) (ix2 0 (Cert.Spec.third 1 e))) := by
  unfold k0_pay3
  refine (kqv_third_apply 1024 _ _ p e (Cert.Spec.third 1 e) ?_).trans (kqv_proj_apply x0 x1 x2 p (Cert.Spec.third 1 e))
  show 1 * 1024 + e.val = 1024 + e.val
  omega

theorem kqv_pay4_apply (x0 : Vec Ideal S512x1024 .f32) (x1 : Vec Ideal S1024x3072 .bf16) (x2 : Vec Ideal S1x3072 .f32) (p : Fin 512) (e : Fin 1024) :
    (k0_pay4 (F := Ideal) x0 x1 x2 : S512x1024.Idx → EReal) (ix2 p e)
      = Cert.Spec.lin (fun d => (x0 : S512x1024.Idx → EReal) (ix2 p d))
          (fun d => (x1 : S1024x3072.Idx → EReal) (ix2 d (Cert.Spec.third 2 e)))
          ((x2 : S1x3072.Idx → EReal) (ix2 0 (Cert.Spec.third 2 e))) := by
  unfold k0_pay4
  refine (kqv_third_apply 2048 _ _ p e (Cert.Spec.third 2 e) ?_).trans (kqv_proj_apply x0 x1 x2 p (Cert.Spec.third 2 e))
  show 2 * 1024 + e.val = 2048 + e.val
  omega

/-! ## From the row blocks to the arrays -/

/-- The linear layer on whole arrays: entry (r, e) of third `o` from row `r` of the activations, column
    `o * 1024 + e` of the weights and that entry of the bias row. -/
def kqv (o : Fin 3) (X : S8192x1024.Idx → EReal) (W : S1024x3072.Idx → EReal) (B : S1x3072.Idx → EReal) : S8192x1024.Idx → EReal :=
  fun i => Cert.Spec.lin (fun d => X (ix2 (i 0 : Fin 8192) d)) (fun d => W (ix2 d (Cert.Spec.third o (i 1 : Fin 1024))))
    (B (ix2 0 (Cert.Spec.third o (i 1 : Fin 1024))))

theorem kqv_lin_congr {x x' w w' : Fin 1024 → EReal} {b b' : EReal} (hx : ∀ d, x d = x' d) (hw : ∀ d, w d = w' d) (hb : b = b') :
    Cert.Spec.lin x w b = Cert.Spec.lin x' w' b' := by
  cases funext hx; cases funext hw; cases hb; rfl

/-- The windows' block indices at grid point `t`: the activations' and the three outputs' row block is `t`; the
    weights and the bias row are one block each. -/
theorem kqv_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem kqv_lt (t : Fin cfg0.N) : t.val < 16 := lt_of_lt_of_eq t.isLt N_0

section Blocks

variable (V : (c : Dev nD) → (b : Ref sig .tc) → Buf (Elt Ideal) ((c : Thread nD τ).loc b))

/-- The activations' block at point `t` is rows `512 t … 512 t + 511` of the array. -/
theorem kqv_xblk_apply (c : Dev nD) (t : Fin cfg0.N) (p : Fin 512) (d : Fin 1024) (r : Fin 8192) (hr : r.val = t.val * 512 + p.val) :
    (iblk0 (F := Ideal) V c 0 t : S512x1024.Idx → EReal) (ix2 p d) = (V c main_v0 : S8192x1024.Idx → EReal) (ix2 r d) := by
  obtain ⟨e0, e1, -⟩ := kqv_idx t
  unfold iblk0
  rw [View.read_apply]
  show (V c main_v0 : S8192x1024.Idx → EReal) _ = _
  refine congrArg _ (funext fun a => Fin.ext ?_)
  match a with
  | ⟨0, _⟩ => show win0_0.index t (0 : Fin 2) * 512 + 1 * p.val = r.val; omega
  | ⟨1, _⟩ => show win0_0.index t (1 : Fin 2) * 1024 + 1 * d.val = d.val; omega

/-- The weights' block at every point is the whole array. -/
theorem kqv_wblk_apply (c : Dev nD) (t : Fin cfg0.N) (d : Fin 1024) (q : Fin 3072) :
    (iblk0 (F := Ideal) V c 1 t : S1024x3072.Idx → EReal) (ix2 d q) = (V c main_v2 : S1024x3072.Idx → EReal) (ix2 d q) := by
  obtain ⟨-, -, e2, e3, -⟩ := kqv_idx t
  unfold iblk0
  rw [View.read_apply]
  show (V c main_v2 : S1024x3072.Idx → EReal) _ = _
  refine congrArg _ (funext fun a => Fin.ext ?_)
  match a with
  | ⟨0, _⟩ => show win0_1.index t (0 : Fin 2) * 1024 + 1 * d.val = d.val; omega
  | ⟨1, _⟩ => show win0_1.index t (1 : Fin 2) * 3072 + 1 * q.val = q.val; omega

/-- The bias row's block at every point is the whole row. -/
theorem kqv_bblk_apply (c : Dev nD) (t : Fin cfg0.N) (q : Fin 3072) :
    (iblk0 (F := Ideal) V c 2 t : S1x3072.Idx → EReal) (ix2 0 q) = (V c main_v5 : S1x3072.Idx → EReal) (ix2 0 q) := by
  obtain ⟨-, -, -, -, e4, e5, -⟩ := kqv_idx t
  unfold iblk0
  rw [View.read_apply]
  show (V c main_v5 : S1x3072.Idx → EReal) _ = _
  refine congrArg _ (funext fun a => Fin.ext ?_)
  match a with
  | ⟨0, _⟩ => show win0_2.index t (0 : Fin 2) * 1 + 1 * 0 = 0; omega
  | ⟨1, _⟩ => show win0_2.index t (1 : Fin 2) * 3072 + 1 * q.val = q.val; omega

/-- What point `t` writes back to output 3 is its row block of the linear layer's third 0 on the whole arrays. -/
theorem kqv_flushed3 (c : Dev nD) (t : Fin cfg0.N) :
    (dat0 (F := Ideal) V c).flushed 3 t
      = ((cfg0.win 3).blk t).view.read (Elt Ideal) (kqv 0 (V c main_v0) (V c main_v2) (V c main_v5)) := by
  show (cfg0.win 3).cut (grid0.coords t) ((dat0 (F := Ideal) V c).after 3 t) = _
  rw [after0_3]
  unfold out0_3
  rw [View.canon_unit_zero kqv_hz]
  simp only [View.ld_unit_zero (S := S512x1024) kqv_hz, View.ld_unit_zero (S := S1024x3072) kqv_hz, View.ld_unit_zero (S := S1x3072) kqv_hz]
  funext j
  obtain ⟨p, e, rfl⟩ : ∃ (p : Fin 512) (e : Fin 1024), j = ix2 p e := ⟨j 0, j 1, eq_ix2 j⟩
  obtain ⟨-, -, -, -, -, -, ea, eb, -, -, -, -⟩ := kqv_idx t
  have ht := kqv_lt t
  have hr : t.val * 512 + p.val < 8192 := by have := p.isLt; omega
  have hemb : ((cfg0.win 3).blk t).view.emb (ix2 p e) = ix2 (⟨t.val * 512 + p.val, hr⟩ : Fin 8192) e := by
    funext a; apply Fin.ext
    match a with
    | ⟨0, _⟩ => show win0_3.index t (0 : Fin 2) * 512 + 1 * p.val = t.val * 512 + p.val; omega
    | ⟨1, _⟩ => show win0_3.index t (1 : Fin 2) * 1024 + 1 * e.val = e.val; omega
  show (k0_pay2 (F := Ideal) (iblk0 V c 0 t) (iblk0 V c 1 t) (iblk0 V c 2 t) : S512x1024.Idx → EReal) (ix2 p e)
    = kqv 0 (V c main_v0) (V c main_v2) (V c main_v5) (((cfg0.win 3).blk t).view.emb (ix2 p e))
  rw [hemb]
  refine (kqv_pay2_apply (iblk0 V c 0 t) (iblk0 V c 1 t) (iblk0 V c 2 t) p e).trans ?_
  exact kqv_lin_congr (fun d => kqv_xblk_apply V c t p d ⟨t.val * 512 + p.val, hr⟩ rfl)
    (fun d => kqv_wblk_apply V c t d (Cert.Spec.third 0 e)) (kqv_bblk_apply V c t (Cert.Spec.third 0 e))

/-- An index of output 3 is in point `t`'s block iff each coordinate is in the block's range on its axis. -/
theorem kqv_mem3 (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v6_0).slice (win0_3.rect t)).set ↔ _
  rw [View.set_slice_whole, Rect.mem_set_unit]
  exact Iff.rfl

/-- Row `r` of output 3 is in the block of point `r / 512`, which is written back. -/
theorem kqv_cover3 (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨t, ht⟩ : ∃ t : Fin cfg0.N, t.val = (i 0).val / 512 :=
    ⟨⟨(i 0).val / 512, by show (i 0).val / 512 < grid0.N; rw [N_0]; omega⟩, rfl⟩
  obtain ⟨-, -, -, -, -, -, ea, eb, -, -, -, -⟩ := kqv_idx t
  refine ⟨t, flush0_3 t, ?_⟩
  rw [kqv_mem3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- Output 3 after the region is the linear layer's third 0 on the whole arrays. -/
theorem kqv_final3 (c : Dev nD) :
    (dat0 (F := Ideal) V c).arrAt 3 cfg0.N = kqv 0 (V c main_v0) (V c main_v2) (V c main_v5) :=
  (dat0 (F := Ideal) V c).arrAt_eq_of_cover 3 (kqv 0 (V c main_v0) (V c main_v2) (V c main_v5))
    (fun t _ => kqv_flushed3 V c t) kqv_cover3

/-- What point `t` writes back to output 4 is its row block of the linear layer's third 1 on the whole arrays. -/
theorem kqv_flushed4 (c : Dev nD) (t : Fin cfg0.N) :
    (dat0 (F := Ideal) V c).flushed 4 t
      = ((cfg0.win 4).blk t).view.read (Elt Ideal) (kqv 1 (V c main_v0) (V c main_v2) (V c main_v5)) := by
  show (cfg0.win 4).cut (grid0.coords t) ((dat0 (F := Ideal) V c).after 4 t) = _
  rw [after0_4]
  unfold out0_4
  rw [View.canon_unit_zero kqv_hz]
  simp only [View.ld_unit_zero (S := S512x1024) kqv_hz, View.ld_unit_zero (S := S1024x3072) kqv_hz, View.ld_unit_zero (S := S1x3072) kqv_hz]
  funext j
  obtain ⟨p, e, rfl⟩ : ∃ (p : Fin 512) (e : Fin 1024), j = ix2 p e := ⟨j 0, j 1, eq_ix2 j⟩
  obtain ⟨-, -, -, -, -, -, -, -, ea, eb, -, -⟩ := kqv_idx t
  have ht := kqv_lt t
  have hr : t.val * 512 + p.val < 8192 := by have := p.isLt; omega
  have hemb : ((cfg0.win 4).blk t).view.emb (ix2 p e) = ix2 (⟨t.val * 512 + p.val, hr⟩ : Fin 8192) e := by
    funext a; apply Fin.ext
    match a with
    | ⟨0, _⟩ => show win0_4.index t (0 : Fin 2) * 512 + 1 * p.val = t.val * 512 + p.val; omega
    | ⟨1, _⟩ => show win0_4.index t (1 : Fin 2) * 1024 + 1 * e.val = e.val; omega
  show (k0_pay3 (F := Ideal) (iblk0 V c 0 t) (iblk0 V c 1 t) (iblk0 V c 2 t) : S512x1024.Idx → EReal) (ix2 p e)
    = kqv 1 (V c main_v0) (V c main_v2) (V c main_v5) (((cfg0.win 4).blk t).view.emb (ix2 p e))
  rw [hemb]
  refine (kqv_pay3_apply (iblk0 V c 0 t) (iblk0 V c 1 t) (iblk0 V c 2 t) p e).trans ?_
  exact kqv_lin_congr (fun d => kqv_xblk_apply V c t p d ⟨t.val * 512 + p.val, hr⟩ rfl)
    (fun d => kqv_wblk_apply V c t d (Cert.Spec.third 1 e)) (kqv_bblk_apply V c t (Cert.Spec.third 1 e))

/-- An index of output 4 is in point `t`'s block iff each coordinate is in the block's range on its axis. -/
theorem kqv_mem4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v6_1).slice (win0_4.rect t)).set ↔ _
  rw [View.set_slice_whole, Rect.mem_set_unit]
  exact Iff.rfl

/-- Row `r` of output 4 is in the block of point `r / 512`, which is written back. -/
theorem kqv_cover4 (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  obtain ⟨t, ht⟩ : ∃ t : Fin cfg0.N, t.val = (i 0).val / 512 :=
    ⟨⟨(i 0).val / 512, by show (i 0).val / 512 < grid0.N; rw [N_0]; omega⟩, rfl⟩
  obtain ⟨-, -, -, -, -, -, -, -, ea, eb, -, -⟩ := kqv_idx t
  refine ⟨t, flush0_4 t, ?_⟩
  rw [kqv_mem4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- Output 4 after the region is the linear layer's third 1 on the whole arrays. -/
theorem kqv_final4 (c : Dev nD) :
    (dat0 (F := Ideal) V c).arrAt 4 cfg0.N = kqv 1 (V c main_v0) (V c main_v2) (V c main_v5) :=
  (dat0 (F := Ideal) V c).arrAt_eq_of_cover 4 (kqv 1 (V c main_v0) (V c main_v2) (V c main_v5))
    (fun t _ => kqv_flushed4 V c t) kqv_cover4

/-- What point `t` writes back to output 5 is its row block of the linear layer's third 2 on the whole arrays. -/
theorem kqv_flushed5 (c : Dev nD) (t : Fin cfg0.N) :
    (dat0 (F := Ideal) V c).flushed 5 t
      = ((cfg0.win 5).blk t).view.read (Elt Ideal) (kqv 2 (V c main_v0) (V c main_v2) (V c main_v5)) := by
  show (cfg0.win 5).cut (grid0.coords t) ((dat0 (F := Ideal) V c).after 5 t) = _
  rw [after0_5]
  unfold out0_5
  rw [View.canon_unit_zero kqv_hz]
  simp only [View.ld_unit_zero (S := S512x1024) kqv_hz, View.ld_unit_zero (S := S1024x3072) kqv_hz, View.ld_unit_zero (S := S1x3072) kqv_hz]
  funext j
  obtain ⟨p, e, rfl⟩ : ∃ (p : Fin 512) (e : Fin 1024), j = ix2 p e := ⟨j 0, j 1, eq_ix2 j⟩
  obtain ⟨-, -, -, -, -, -, -, -, -, -, ea, eb⟩ := kqv_idx t
  have ht := kqv_lt t
  have hr : t.val * 512 + p.val < 8192 := by have := p.isLt; omega
  have hemb : ((cfg0.win 5).blk t).view.emb (ix2 p e) = ix2 (⟨t.val * 512 + p.val, hr⟩ : Fin 8192) e := by
    funext a; apply Fin.ext
    match a with
    | ⟨0, _⟩ => show win0_5.index t (0 : Fin 2) * 512 + 1 * p.val = t.val * 512 + p.val; omega
    | ⟨1, _⟩ => show win0_5.index t (1 : Fin 2) * 1024 + 1 * e.val = e.val; omega
  show (k0_pay4 (F := Ideal) (iblk0 V c 0 t) (iblk0 V c 1 t) (iblk0 V c 2 t) : S512x1024.Idx → EReal) (ix2 p e)
    = kqv 2 (V c main_v0) (V c main_v2) (V c main_v5) (((cfg0.win 5).blk t).view.emb (ix2 p e))
  rw [hemb]
  refine (kqv_pay4_apply (iblk0 V c 0 t) (iblk0 V c 1 t) (iblk0 V c 2 t) p e).trans ?_
  exact kqv_lin_congr (fun d => kqv_xblk_apply V c t p d ⟨t.val * 512 + p.val, hr⟩ rfl)
    (fun d => kqv_wblk_apply V c t d (Cert.Spec.third 2 e)) (kqv_bblk_apply V c t (Cert.Spec.third 2 e))

/-- An index of output 5 is in point `t`'s block iff each coordinate is in the block's range on its axis. -/
theorem kqv_mem5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v6_2).slice (win0_5.rect t)).set ↔ _
  rw [View.set_slice_whole, Rect.mem_set_unit]
  exact Iff.rfl

/-- Row `r` of output 5 is in the block of point `r / 512`, which is written back. -/
theorem kqv_cover5 (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  obtain ⟨t, ht⟩ : ∃ t : Fin cfg0.N, t.val = (i 0).val / 512 :=
    ⟨⟨(i 0).val / 512, by show (i 0).val / 512 < grid0.N; rw [N_0]; omega⟩, rfl⟩
  obtain ⟨-, -, -, -, -, -, -, -, -, -, ea, eb⟩ := kqv_idx t
  refine ⟨t, flush0_5 t, ?_⟩
  rw [kqv_mem5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- Output 5 after the region is the linear layer's third 2 on the whole arrays. -/
theorem kqv_final5 (c : Dev nD) :
    (dat0 (F := Ideal) V c).arrAt 5 cfg0.N = kqv 2 (V c main_v0) (V c main_v2) (V c main_v5) :=
  (dat0 (F := Ideal) V c).arrAt_eq_of_cover 5 (kqv 2 (V c main_v0) (V c main_v2) (V c main_v5))
    (fun t _ => kqv_flushed5 V c t) kqv_cover5

end Blocks

/-! ## The three outputs, element by element -/

/-- Output array `3 + o` of region 0 after the region (`o = 0`: keys, `1`: queries, `2`: values), at row `r`, feature `e`: the dot
    product of row `r` of the first operand with column `o * 1024 + e` of the second, plus that entry of the bias row. -/
theorem final0_3 (V : (c : Dev nD) → (b : Ref sig .tc) → Buf (Elt Ideal) ((c : Thread nD τ).loc b)) (c : Dev nD) (r : Fin 8192) (e : Fin 1024) :
    ((dat0 (F := Ideal) V c).arrAt 3 cfg0.N : S8192x1024.Idx → EReal) (ix2 r e)
      = Cert.Spec.lin (fun d => (V c main_v0 : S8192x1024.Idx → EReal) (ix2 r d))
          (fun d => (V c main_v2 : S1024x3072.Idx → EReal) (ix2 d (Cert.Spec.third 0 e)))
          ((V c main_v5 : S1x3072.Idx → EReal) (ix2 0 (Cert.Spec.third 0 e))) :=
  congrFun (kqv_final3 V c) (ix2 r e)
theorem final0_4 (V : (c : Dev nD) → (b : Ref sig .tc) → Buf (Elt Ideal) ((c : Thread nD τ).loc b)) (c : Dev nD) (r : Fin 8192) (e : Fin 1024) :
    ((dat0 (F := Ideal) V c).arrAt 4 cfg0.N : S8192x1024.Idx → EReal) (ix2 r e)
      = Cert.Spec.lin (fun d => (V c main_v0 : S8192x1024.Idx → EReal) (ix2 r d))
          (fun d => (V c main_v2 : S1024x3072.Idx → EReal) (ix2 d (Cert.Spec.third 1 e)))
          ((V c main_v5 : S1x3072.Idx → EReal) (ix2 0 (Cert.Spec.third 1 e))) :=
  congrFun (kqv_final4 V c) (ix2 r e)
theorem final0_5 (V : (c : Dev nD) → (b : Ref sig .tc) → Buf (Elt Ideal) ((c : Thread nD τ).loc b)) (c : Dev nD) (r : Fin 8192) (e : Fin 1024) :
    ((dat0 (F := Ideal) V c).arrAt 5 cfg0.N : S8192x1024.Idx → EReal) (ix2 r e)
      = Cert.Spec.lin (fun d => (V c main_v0 : S8192x1024.Idx → EReal) (ix2 r d))
          (fun d => (V c main_v2 : S1024x3072.Idx → EReal) (ix2 d (Cert.Spec.third 2 e)))
          ((V c main_v5 : S1x3072.Idx → EReal) (ix2 0 (Cert.Spec.third 2 e))) :=
  congrFun (kqv_final5 V c) (ix2 r e)

end Cert.KernelIdeal.Hand

end
-- ==== Proof.KI.Pay1.lean ====
/- The attention body's stored value read at an index: entry (0, d, r) of the stored block is feature d of the attention output of query row r of the query block against the key and value blocks. -/
import proofs.«422964_j3899830305375_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«422964_j3899830305375_2_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## The column forms of a shape cast and a broadcast -/

/-- An `[a]` array cast to `[a, 1]` reads, at `(i, u)`, the operand at `i`, whatever the unit coordinate `u`. -/
theorem pay1_shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem pay1_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The first product: a query row against a key row -/

theorem pay1_d1_lhs0 (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide),
    dif_pos (show (0 : Fin S512x1024.rank) ∈ dot_S512x1024_S2048x1024_S512x2048_1_1_0_0_n_n.lhsNonContracting by decide)]
  rfl
theorem pay1_d1_lhs1 (i : S512x2048.Idx) (q : dot_S512x1024_S2048x1024_S512x2048_1_1_0_0_n_n.contr.Idx) :
    (dot_S512x1024_S2048x1024_S512x2048_1_1_0_0_n_n.lhsIdx i q 1).val = (q ⟨0, by decide⟩).val :=
  dot_S512x1024_S2048x1024_S512x2048_1_1_0_0_n_n.lhsIdx_val_of_single rfl i q
theorem pay1_d1_rhs0 (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide),
    dif_pos (show (0 : Fin S2048x1024.rank) ∈ dot_S512x1024_S2048x1024_S512x2048_1_1_0_0_n_n.rhsNonContracting by decide)]
  rfl
theorem pay1_d1_rhs1 (i : S512x2048.Idx) (q : dot_S512x1024_S2048x1024_S512x2048_1_1_0_0_n_n.contr.Idx) :
    (dot_S512x1024_S2048x1024_S512x2048_1_1_0_0_n_n.rhsIdx i q 1).val = (q ⟨0, by decide⟩).val :=
  dot_S512x1024_S2048x1024_S512x2048_1_1_0_0_n_n.rhsIdx_val_of_single rfl i q

/-- The first product into the zero splat, at (r, j): the dot product of row r of the left operand with row j of the right. -/
theorem pay1_mm1_apply (A : FVec Ideal S512x1024 .bf16) (B : FVec Ideal S2048x1024 .bf16) (r : Fin 512) (j : Fin 2048) :
    matmul dot_S512x1024_S2048x1024_S512x2048_1_1_0_0_n_n none A B (constant (F := Ideal) S512x2048 .f32 0x00000000#32) (ix2 r j)
      = ∑ d : Fin 1024, A (ix2 r d) * B (ix2 j d) := by
  refine (Ideal.matmul_constant_zero_apply dot_S512x1024_S2048x1024_S512x2048_1_1_0_0_n_n none A B (ix2 r j)).trans ?_
  rw [← Equiv.sum_comp (contrEquiv1 dot_S512x1024_S2048x1024_S512x2048_1_1_0_0_n_n 1024 rfl rfl).symm]
  refine Finset.sum_congr rfl fun k _ => ?_
  have hk := contrEquiv1_symm_val dot_S512x1024_S2048x1024_S512x2048_1_1_0_0_n_n 1024 rfl rfl k
  have el : dot_S512x1024_S2048x1024_S512x2048_1_1_0_0_n_n.lhsIdx (ix2 r j) ((contrEquiv1 dot_S512x1024_S2048x1024_S512x2048_1_1_0_0_n_n 1024 rfl rfl).symm k) = ix2 r k := funext fun a => Fin.ext (by
    match a with
    | ⟨0, _⟩ => exact pay1_d1_lhs0 _ _
    | ⟨1, _⟩ => exact (pay1_d1_lhs1 _ _).trans hk)
  have er : dot_S512x1024_S2048x1024_S512x2048_1_1_0_0_n_n.rhsIdx (ix2 r j) ((contrEquiv1 dot_S512x1024_S2048x1024_S512x2048_1_1_0_0_n_n 1024 rfl rfl).symm k) = ix2 j k := funext fun a => Fin.ext (by
    match a with
    | ⟨0, _⟩ => exact pay1_d1_rhs0 _ _
    | ⟨1, _⟩ => exact (pay1_d1_rhs1 _ _).trans hk)
  rw [el, er]

/-! ## The second product: a row of weights against a column of values -/

theorem pay1_d2_lhs0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide),
    dif_pos (show (0 : Fin S512x2048.rank) ∈ dot_S512x2048_S2048x1024_S512x1024_1_0_0_1_n_n.lhsNonContracting by decide)]
  rfl
theorem pay1_d2_lhs1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
theorem pay1_d2_rhs0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
theorem pay1_d2_rhs1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide),
    dif_pos (show (1 : Fin S2048x1024.rank) ∈ dot_S512x2048_S2048x1024_S512x1024_1_0_0_1_n_n.rhsNonContracting by decide)]
  rfl

/-- The second product into the zero splat, at (r, d): the sum over j of the left operand at (r, j) times the right at (j, d). -/
theorem pay1_mm2_apply (W : FVec Ideal S512x2048 .bf16) (V : FVec Ideal S2048x1024 .bf16) (r : Fin 512) (d : Fin 1024) :
    matmul dot_S512x2048_S2048x1024_S512x1024_1_0_0_1_n_n none W V (constant (F := Ideal) S512x1024 .f32 0x00000000#32) (ix2 r d)
      = ∑ j : Fin 2048, W (ix2 r j) * V (ix2 j d) := by
  refine (Ideal.matmul_constant_zero_apply dot_S512x2048_S2048x1024_S512x1024_1_0_0_1_n_n none W V (ix2 r d)).trans ?_
  rw [← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 r d) ((contrEquiv1 dot_S512x2048_S2048x1024_S512x1024_1_0_0_1_n_n 2048 rfl rfl).symm k) = ix2 r k := funext fun a => Fin.ext (by
    match a with
    | ⟨0, _⟩ => exact pay1_d2_lhs0 _ _
    | ⟨1, _⟩ => exact (pay1_d2_lhs1 _ _).trans hk)
  have er : dot_S512x2048_S2048x1024_S512x1024_1_0_0_1_n_n.rhsIdx (ix2 r d) ((contrEquiv1 dot_S512x2048_S2048x1024_S512x1024_1_0_0_1_n_n 2048 rfl rfl).symm k) = ix2 k d := funext fun a => Fin.ext (by
    match a with
    | ⟨0, _⟩ => exact (pay1_d2_rhs0 _ _).trans hk
    | ⟨1, _⟩ => exact pay1_d2_rhs1 _ _)
  rw [el, er]

/-! ## The masked, scaled score -/

/-- The iota along axis 1 reads, at (r, j), the word of j. -/
theorem pay1_iota_apply (h : S512x2048.Iotas .tc 32 [1]) (r : Fin 512) (j : Fin 2048) :
    iota .tc S512x2048 32 [1] h (ix2 r j) = BitVec.ofNat 32 j.val :=
  iota_single_apply .tc S512x2048 32 1 h (ix2 r j)

/-- The masked, scaled score at (r, j) is the specification's score of row r of the left operand against the right operand's rows. -/
theorem pay1_score_apply (w : BitVec 32) (A : FVec Ideal S512x1024 .bf16) (B : FVec Ideal S2048x1024 .bf16)
    (hi : S512x2048.Iotas .tc 32 [1]) (r : Fin 512) (j : Fin 2048) :
    select (cmpi .slt (iota .tc S512x2048 32 [1] hi) (broadcast S512x2048 w))
        (mulf (matmul dot_S512x1024_S2048x1024_S512x2048_1_1_0_0_n_n none A B (constant (F := Ideal) S512x2048 .f32 0x00000000#32))
          (broadcast S512x2048 (Scalar.ofBits (F := Ideal) .f32 0x3D000000#32)))
        (broadcast S512x2048 (Scalar.ofBits (F := Ideal) .f32 0xC9742400#32)) (ix2 r j)
      = Cert.Spec.score w (fun d => A (ix2 r d)) (fun j d => B (ix2 j d)) j := by
  show Scalar.select (IntOp.cmpi .slt (iota .tc S512x2048 32 [1] hi (ix2 r j)) w)
      (matmul dot_S512x1024_S2048x1024_S512x2048_1_1_0_0_n_n none A B (constant (F := Ideal) S512x2048 .f32 0x00000000#32) (ix2 r j) * Ideal.ofBits .f32 0x3D000000#32)
      (Ideal.ofBits .f32 0xC9742400#32) = _
  rw [pay1_iota_apply, pay1_mm1_apply]
  rfl

/-! ## The row maximum and the row sum -/

/-- The maximum over axis 1, at r: the fold of max over row r. -/
theorem pay1_rowMax_apply (X : FVec Ideal S512x2048 .f32) (h : S512x2048.Reduces [1] S512) (hφ : FKind.Formats .f32)
    (hacc : (0xFF800000#32 : BitVec 32) = 0xFF800000#32) (r : Fin 512) :
    multiReduction .maximumf [1] S512 X 0xFF800000#32 h hφ hacc (ValueIdx.ix1 r) = Cert.Spec.rowMax (fun j => X (ix2 r j)) := by
  refine (Ideal.multiReduction_maximumf_single X 0xFF800000#32 h hφ hacc (ValueIdx.ix1 r)).trans ?_
  show (Finset.univ : Finset (Fin 2048)).fold max (Ideal.ofBits .f32 0xFF800000#32) (fun k : Fin 2048 => X (h.lift (ValueIdx.ix1 r) k))
    = (Finset.univ : Finset (Fin 2048)).fold max (Ideal.ofBits .f32 0xFF800000#32) (fun j : Fin 2048 => X (ix2 r j))
  refine congrArg (fun f : Fin 2048 → EReal => (Finset.univ : Finset (Fin 2048)).fold max (Ideal.ofBits .f32 0xFF800000#32) f)
    (funext fun k => congrArg X (funext fun c => ?_))
  match c with
  | ⟨0, _⟩ => rfl
  | ⟨1, _⟩ => rfl

/-- The sum over axis 1, at r: the sum of row r. -/
theorem pay1_rowSum_apply (E : FVec Ideal S512x2048 .f32) (h : S512x2048.Reduces [1] S512) (hφ : FKind.Formats .f32)
    (hacc : (0x00000000#32 : BitVec 32) = 0x00000000#32) (r : Fin 512) :
    multiReduction .add [1] S512 E 0x00000000#32 h hφ hacc (ValueIdx.ix1 r) = ∑ j : Fin 2048, E (ix2 r j) := by
  refine (Ideal.multiReduction_add_single E 0x00000000#32 h hφ hacc (ValueIdx.ix1 r)).trans ?_
  show ∑ k : Fin 2048, E (h.lift (ValueIdx.ix1 r) k) = _
  refine Finset.sum_congr rfl fun k _ => congrArg E (funext fun c => ?_)
  match c with
  | ⟨0, _⟩ => rfl
  | ⟨1, _⟩ => rfl

/-! ## The layout around the second product -/

/-- The transposed, narrowed product viewed as a `[1, 1024, 512]` block reads, at (0, d, r), the product at (r, d). -/
theorem pay1_out_apply (M : FVec Ideal S512x1024 .f32) (ht : S512x1024.Transposes [1, 0] S1024x512)
    (hb : FTy.bits .bf16 < FTy.bits .f32) (hc : S1024x512.ShapeCasts S1x1024x512) (d : Fin 1024) (r : Fin 512) :
    shapeCast S1x1024x512 (truncf .bf16 (transpose S1024x512 [1, 0] M ht) hb) hc (ix3 0 d r) = M (ix2 r d) := by
  refine (shapeCast_ab_1ab_apply _ hc 0 d r).trans ?_
  exact transpose_ix2_apply M ht d r

/-! ## The stages of the stored value -/

/-- The masked, scaled scores of the block. -/
def pay1X (w : BitVec 32) (x0 : Vec Ideal S1x512x1024 .bf16) (x1 : Vec Ideal S1x2048x1024 .bf16) : FVec Ideal S512x2048 .f32 :=
  select (cmpi .slt (iota .tc S512x2048 32 [1] iota_S512x2048_d1_w32) (broadcast S512x2048 w))
    (mulf (matmul dot_S512x1024_S2048x1024_S512x2048_1_1_0_0_n_n none (shapeCast S512x1024 x0 shapeCasts_S1x512x1024_S512x1024 : FVec Ideal S512x1024 .bf16)
        (shapeCast S2048x1024 x1 shapeCasts_S1x2048x1024_S2048x1024 : FVec Ideal S2048x1024 .bf16) (constant (F := Ideal) S512x2048 .f32 0x00000000#32))
      (broadcast S512x2048 (Scalar.ofBits (F := Ideal) .f32 0x3D000000#32)))
    (broadcast S512x2048 (Scalar.ofBits (F := Ideal) .f32 0xC9742400#32))

/-- The exponentials of the scores less their row maxima. -/
def pay1E (X : FVec Ideal S512x2048 .f32) : FVec Ideal S512x2048 .f32 :=
  exp (subf X (broadcastTo S512x2048 (shapeCast S512x1
    (multiReduction .maximumf [1] S512 X 0xFF800000#32 reduces_S512x2048_S512 (.inl rfl) rfl) shapeCasts_S512_S512x1)
    broadcasts_S512x1_S512x2048))

/-- The exponentials times the reciprocal of their row sums. -/
def pay1W (E : FVec Ideal S512x2048 .f32) : FVec Ideal S512x2048 .f32 :=
  mulf E (broadcastTo S512x2048 (divf (broadcast S512x1 (Scalar.ofBits (F := Ideal) .f32 0x3F800000#32))
    (shapeCast S512x1 (multiReduction .add [1] S512 E 0x00000000#32 reduces_S512x2048_S512 (.inl rfl) rfl) shapeCasts_S512_S512x1))
    broadcasts_S512x1_S512x2048)

/-- The stored value is the second product of the weights with the values, transposed, narrowed and viewed as a block. -/
theorem pay1_eq (w : BitVec 32) (x0 : Vec Ideal S1x512x1024 .bf16) (x1 x2 : Vec Ideal S1x2048x1024 .bf16) :
    k1_pay1 (F := Ideal) w x0 x1 x2
      = shapeCast S1x1024x512 (truncf .bf16 (transpose S1024x512 [1, 0]
          (matmul dot_S512x2048_S2048x1024_S512x1024_1_0_0_1_n_n none (truncf .bf16 (pay1W (pay1E (pay1X w x0 x1))) bitsLt_bf16_f32)
            (shapeCast S2048x1024 x2 shapeCasts_S1x2048x1024_S2048x1024 : FVec Ideal S2048x1024 .bf16) (constant (F := Ideal) S512x1024 .f32 0x00000000#32))
          transposes_S512x1024_p1_0_S1024x512) bitsLt_bf16_f32) shapeCasts_S1024x512_S1x1024x512 := rfl

/-- A score of the block is the specification's score. -/
theorem pay1X_apply (w : BitVec 32) (x0 : Vec Ideal S1x512x1024 .bf16) (x1 : Vec Ideal S1x2048x1024 .bf16) (r : Fin 512) (j : Fin 2048) :
    pay1X w x0 x1 (ix2 r j)
      = Cert.Spec.score w (fun d' => (x0 : S1x512x1024.Idx → EReal) (ix3 0 r d'))
          (fun j d' => (x1 : S1x2048x1024.Idx → EReal) (ix3 0 j d')) j := by
  unfold pay1X
  refine (pay1_score_apply w _ _ _ r j).trans ?_
  have hq : (fun d => shapeCast S512x1024 x0 shapeCasts_S1x512x1024_S512x1024 (ix2 r d))
      = fun d' => (x0 : S1x512x1024.Idx → EReal) (ix3 0 r d') :=
    funext fun d => shapeCast_1ab_ab_apply x0 _ r d
  have hk : (fun j d => shapeCast S2048x1024 x1 shapeCasts_S1x2048x1024_S2048x1024 (ix2 j d))
      = fun j d' => (x1 : S1x2048x1024.Idx → EReal) (ix3 0 j d') :=
    funext fun j => funext fun d => shapeCast_1ab_ab_apply x1 _ j d
  rw [hq, hk]

/-- An exponential of the block is the specification's, of the row of scores. -/
theorem pay1E_apply (X : FVec Ideal S512x2048 .f32) (r : Fin 512) (j : Fin 2048) :
    pay1E X (ix2 r j) = Cert.Spec.ex (fun j => X (ix2 r j)) j := by
  show Ideal.exp (X (ix2 r j) - broadcastTo S512x2048 (shapeCast S512x1
    (multiReduction .maximumf [1] S512 X 0xFF800000#32 reduces_S512x2048_S512 (.inl rfl) rfl) shapeCasts_S512_S512x1)
    broadcasts_S512x1_S512x2048 (ix2 r j)) = Ideal.exp (X (ix2 r j) - Cert.Spec.rowMax (fun j => X (ix2 r j)))
  refine congrArg (fun m => Ideal.exp (X (ix2 r j) - m)) ?_
  refine (pay1_broadcastTo_a1_ab_apply _ broadcasts_S512x1_S512x2048 r j).trans ?_
  refine (pay1_shapeCast_a_a1_apply _ shapeCasts_S512_S512x1 r 0).trans ?_
  exact pay1_rowMax_apply X reduces_S512x2048_S512 (.inl rfl) rfl r

/-- A weight of the block is the exponential times the reciprocal of the row's sum of exponentials. -/
theorem pay1W_apply (E : FVec Ideal S512x2048 .f32) (r : Fin 512) (j : Fin 2048) :
    pay1W E (ix2 r j) = E (ix2 r j) * Ideal.div (Ideal.ofBits .f32 0x3F800000#32) (∑ j : Fin 2048, E (ix2 r j)) := by
  show E (ix2 r j) * broadcastTo S512x2048 (divf (broadcast S512x1 (Scalar.ofBits (F := Ideal) .f32 0x3F800000#32))
    (shapeCast S512x1 (multiReduction .add [1] S512 E 0x00000000#32 reduces_S512x2048_S512 (.inl rfl) rfl) shapeCasts_S512_S512x1))
    broadcasts_S512x1_S512x2048 (ix2 r j) = _
  refine congrArg (fun m => E (ix2 r j) * m) ?_
  refine (pay1_broadcastTo_a1_ab_apply _ broadcasts_S512x1_S512x2048 r j).trans ?_
  show Ideal.div (Ideal.ofBits .f32 0x3F800000#32)
    (shapeCast S512x1 (multiReduction .add [1] S512 E 0x00000000#32 reduces_S512x2048_S512 (.inl rfl) rfl) shapeCasts_S512_S512x1
      (ix2 r (0 : Fin 1))) = _
  refine congrArg (fun m => Ideal.div (Ideal.ofBits .f32 0x3F800000#32) m) ?_
  refine (pay1_shapeCast_a_a1_apply _ shapeCasts_S512_S512x1 r 0).trans ?_
  exact pay1_rowSum_apply E reduces_S512x2048_S512 (.inl rfl) rfl r

/-- The value the attention body stores, at feature `d` and query `r` of the block: the specification's attention output
    (kernel's normalisation) for the valid length `w`. -/
theorem pay1_apply (w : BitVec 32) (x0 : Vec Ideal S1x512x1024 .bf16) (x1 x2 : Vec Ideal S1x2048x1024 .bf16) (d : Fin 1024) (r : Fin 512) :
    (k1_pay1 (F := Ideal) w x0 x1 x2 : S1x1024x512.Idx → EReal) (ix3 0 d r)
      = Cert.Spec.attnK w (fun d' => (x0 : S1x512x1024.Idx → EReal) (ix3 0 r d'))
          (fun j d' => (x1 : S1x2048x1024.Idx → EReal) (ix3 0 j d'))
          (fun j d' => (x2 : S1x2048x1024.Idx → EReal) (ix3 0 j d')) d := by
  rw [pay1_eq]
  refine (pay1_out_apply _ _ _ _ d r).trans ?_
  refine (pay1_mm2_apply _ _ r d).trans ?_
  have hX : (fun j => pay1X w x0 x1 (ix2 r j))
      = Cert.Spec.score w (fun d' => (x0 : S1x512x1024.Idx → EReal) (ix3 0 r d'))
          (fun j d' => (x1 : S1x2048x1024.Idx → EReal) (ix3 0 j d')) :=
    funext fun j => pay1X_apply w x0 x1 r j
  have hE : ∀ j : Fin 2048, pay1E (pay1X w x0 x1) (ix2 r j)
      = Cert.Spec.ex (Cert.Spec.score w (fun d' => (x0 : S1x512x1024.Idx → EReal) (ix3 0 r d'))
          (fun j d' => (x1 : S1x2048x1024.Idx → EReal) (ix3 0 j d'))) j :=
    fun j => (pay1E_apply (pay1X w x0 x1) r j).trans (by rw [hX])
  unfold Cert.Spec.attnK
  refine Finset.sum_congr rfl fun j _ => ?_
  refine congrArg₂ (fun a b => a * b) ?_ (shapeCast_1ab_ab_apply x2 _ j d)
  refine (pay1W_apply (pay1E (pay1X w x0 x1)) r j).trans ?_
  unfold Cert.Spec.wK Cert.Spec.den
  have hsum : (∑ j : Fin 2048, pay1E (pay1X w x0 x1) (ix2 r j))
      = ∑ j : Fin 2048, Cert.Spec.ex (Cert.Spec.score w (fun d' => (x0 : S1x512x1024.Idx → EReal) (ix3 0 r d'))
          (fun j d' => (x1 : S1x2048x1024.Idx → EReal) (ix3 0 j d'))) j :=
    Finset.sum_congr rfl fun j' _ => hE j'
  rw [hE j, hsum]

end Cert.KernelIdeal.Hand

end
-- ==== Proof.KI.Val1.lean ====
/- What region 1 (masked softmax attention) leaves in its output array, element by element: the output block of a grid point is the transposed attention output of its 512 queries against all keys and values of its batch entry, and the sixteen blocks tile the array. -/
import proofs.«422964_j3899830305375_2_alg».proof.Proof.KI.Region1
import proofs.«422964_j3899830305375_2_alg».proof.Proof.KI.Pay1
import Idealize.ShloMosaic.Lib.ValueIdx
import Idealize.ShloMosaic.Lib.ValueLayout
import Idealize.ShloMosaic.Lib.Pipeline.Value
import Idealize.ShloMosaic.PureOps.Ideal.Laws
import proofs.«422964_j3899830305375_2_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The zero offsets of a rank-3 rectangle. -/
theorem zeroOff1 : (![0, 0, 0] : Fin 3 → Nat) = fun _ => 0 := funext fun a => by fin_cases a <;> rfl

/-- The index maps over the sixteen grid points, in the order they run: point t is batch entry t / 4 and query block t % 4.
    The query window's block index is (t / 4, t % 4, 0), the key and value windows' (t / 4, 0, 0), the output window's
    (t / 4, 0, t % 4), and the table is read at word t / 4. -/
theorem idx_facts1 : ∀ t : Fin grid1.N,
    cc1_transform_0 (grid1.coords t) (0 : Fin 3) = t.val / 4 ∧ cc1_transform_0 (grid1.coords t) (1 : Fin 3) = t.val % 4 ∧ cc1_transform_0 (grid1.coords t) (2 : Fin 3) = 0
    ∧ cc1_transform_1 (grid1.coords t) (0 : Fin 3) = t.val / 4 ∧ cc1_transform_1 (grid1.coords t) (1 : Fin 3) = 0 ∧ cc1_transform_1 (grid1.coords t) (2 : Fin 3) = 0
    ∧ cc1_transform_2 (grid1.coords t) (0 : Fin 3) = t.val / 4 ∧ cc1_transform_2 (grid1.coords t) (1 : Fin 3) = 0 ∧ cc1_transform_2 (grid1.coords t) (2 : Fin 3) = 0
    ∧ cc1_transform_3 (grid1.coords t) (0 : Fin 3) = t.val / 4 ∧ cc1_transform_3 (grid1.coords t) (1 : Fin 3) = 0 ∧ cc1_transform_3 (grid1.coords t) (2 : Fin 3) = t.val % 4
    ∧ k1_off1 (grid1.coords t) (0 : Fin 1) = t.val / 4 ∧ t.val < 16 :=
  by decide +kernel

/-- The output window is written back at every point, whatever the table holds (its index map reads no table). -/
theorem flush1_3 (a : (pcfg1 (F := Ideal)).Adm) : ∀ t : Fin (cfg1 a).N, ((cfg1 a).win 3).flush t = true :=
  (by decide +kernel : ∀ t : Fin grid1.N, Pipeline.Window.flushOf grid1 true cc1_transform_3 t = true)

/-- The stored block at any index of the block, in the block's own coordinates. -/
theorem pay1_block (w : BitVec 32) (x0 : Vec Ideal S1x512x1024 .bf16) (x1 x2 : Vec Ideal S1x2048x1024 .bf16) (j : S1x1024x512.Idx) :
    (k1_pay1 (F := Ideal) w (View.ld x0 r1_q) (View.ld x1 r1_k) (View.ld x2 r1_k) : S1x1024x512.Idx → EReal) j
      = Cert.Spec.attnK w (fun d' => (x0 : S1x512x1024.Idx → EReal) (ix3 0 (j 2) d'))
          (fun jj d' => (x1 : S1x2048x1024.Idx → EReal) (ix3 0 jj d'))
          (fun jj d' => (x2 : S1x2048x1024.Idx → EReal) (ix3 0 jj d')) (j 1) := by
  rw [show View.ld x0 r1_q = x0 from View.ld_unit_zero (S := S1x512x1024) zeroOff1 _ x0,
    show View.ld x1 r1_k = x1 from View.ld_unit_zero (S := S1x2048x1024) zeroOff1 _ x1,
    show View.ld x2 r1_k = x2 from View.ld_unit_zero (S := S1x2048x1024) zeroOff1 _ x2]
  have hj : j = ix3 0 (j 1) (j 2) := by
    funext k; match k with
    | ⟨0, _⟩ => exact Fin.ext (by have := (j 0).isLt; show (j 0).val = 0; have e : S1x1024x512.size 0 = 1 := rfl; omega)
    | ⟨1, _⟩ => rfl
    | ⟨2, _⟩ => rfl
  exact (congrArg (k1_pay1 (F := Ideal) w x0 x1 x2 : S1x1024x512.Idx → EReal) hj).trans (pay1_apply w x0 x1 x2 (j 1) (j 2))

section
variable (V : (c : Dev nD) → (b : Ref sig .tc) → Buf (Elt Ideal) ((c : Thread nD τ).loc b)) (a : (pcfg1 (F := Ideal)).Adm) (c : Dev nD)

/-- The word the body reads of the table is the table's entry at the word's offset. -/
theorem word1_eq (i : grid1.Coords) (xt : TbBuf1 (F := Ideal) c) (b : Fin 4) (hb : k1_off1 i (0 : Fin 1) = b.val) :
    word1 c i xt = (xt : S4.Idx → BitVec 32) (ValueIdx.ix1 b) := by
  unfold word1
  rw [View.readAt_apply, View.read_apply]
  show (xt : S4.Idx → BitVec 32) _ = xt _
  congr 1
  funext ax
  apply Fin.ext
  match ax with
  | ⟨0, _⟩ => show k1_off1 i (0 : Fin 1) + 1 * 0 = b.val; omega

/-- The query window's block at point t: batch entry t / 4, query rows (t % 4) * 512 and on, every feature. -/
theorem iblk1_0_apply (t : Fin (cfg1 a).N) (x : S1x512x1024.Idx) (k : S4x2048x1024.Idx)
    (hk0 : (k 0).val = t.val / 4) (hk1 : (k 1).val = t.val % 4 * 512 + (x 1).val) (hk2 : (k 2).val = (x 2).val) :
    (iblk1 V a c 0 t : S1x512x1024.Idx → EReal) x = (V c main_v8 : S4x2048x1024.Idx → EReal) k := by
  obtain ⟨e00, e01, e02, -⟩ := idx_facts1 t
  unfold iblk1
  show (V c main_v8 : S4x2048x1024.Idx → EReal) ((((cfg1 a).win 0).blk t).view.emb x) = _
  congr 1
  funext ax
  apply Fin.ext
  match ax with
  | ⟨0, _⟩ => show cc1_transform_0 (grid1.coords t) (0 : Fin 3) * 1 + 1 * (x 0).val = (k 0).val; have := (x 0).isLt; have e : S1x512x1024.size 0 = 1 := rfl; omega
  | ⟨1, _⟩ => show cc1_transform_0 (grid1.coords t) (1 : Fin 3) * 512 + 1 * (x 1).val = (k 1).val; omega
  | ⟨2, _⟩ => show cc1_transform_0 (grid1.coords t) (2 : Fin 3) * 1024 + 1 * (x 2).val = (k 2).val; omega

/-- The key window's block at point t: batch entry t / 4, every key row, every feature. -/
theorem iblk1_1_apply (t : Fin (cfg1 a).N) (x : S1x2048x1024.Idx) (k : S4x2048x1024.Idx)
    (hk0 : (k 0).val = t.val / 4) (hk1 : (k 1).val = (x 1).val) (hk2 : (k 2).val = (x 2).val) :
    (iblk1 V a c 1 t : S1x2048x1024.Idx → EReal) x = (V c main_v7 : S4x2048x1024.Idx → EReal) k := by
  obtain ⟨-, -, -, e10, e11, e12, -⟩ := idx_facts1 t
  unfold iblk1
  show (V c main_v7 : S4x2048x1024.Idx → EReal) ((((cfg1 a).win 1).blk t).view.emb x) = _
  congr 1
  funext ax
  apply Fin.ext
  match ax with
  | ⟨0, _⟩ => show cc1_transform_1 (grid1.coords t) (0 : Fin 3) * 1 + 1 * (x 0).val = (k 0).val; have := (x 0).isLt; have e : S1x2048x1024.size 0 = 1 := rfl; omega
  | ⟨1, _⟩ => show cc1_transform_1 (grid1.coords t) (1 : Fin 3) * 2048 + 1 * (x 1).val = (k 1).val; omega
  | ⟨2, _⟩ => show cc1_transform_1 (grid1.coords t) (2 : Fin 3) * 1024 + 1 * (x 2).val = (k 2).val; omega

/-- The value window's block at point t: batch entry t / 4, every value row, every feature. -/
theorem iblk1_2_apply (t : Fin (cfg1 a).N) (x : S1x2048x1024.Idx) (k : S4x2048x1024.Idx)
    (hk0 : (k 0).val = t.val / 4) (hk1 : (k 1).val = (x 1).val) (hk2 : (k 2).val = (x 2).val) :
    (iblk1 V a c 2 t : S1x2048x1024.Idx → EReal) x = (V c main_v9 : S4x2048x1024.Idx → EReal) k := by
  obtain ⟨-, -, -, -, -, -, e20, e21, e22, -⟩ := idx_facts1 t
  unfold iblk1
  show (V c main_v9 : S4x2048x1024.Idx → EReal) ((((cfg1 a).win 2).blk t).view.emb x) = _
  congr 1
  funext ax
  apply Fin.ext
  match ax with
  | ⟨0, _⟩ => show cc1_transform_2 (grid1.coords t) (0 : Fin 3) * 1 + 1 * (x 0).val = (k 0).val; have := (x 0).isLt; have e : S1x2048x1024.size 0 = 1 := rfl; omega
  | ⟨1, _⟩ => show cc1_transform_2 (grid1.coords t) (1 : Fin 3) * 2048 + 1 * (x 1).val = (k 1).val; omega
  | ⟨2, _⟩ => show cc1_transform_2 (grid1.coords t) (2 : Fin 3) * 1024 + 1 * (x 2).val = (k 2).val; omega

/-- Entry (b, d, l) of the output array: feature d of the attention output of query row l of batch entry b. -/
def attnAt1 (b : Fin 4) (d : Fin 1024) (l : Fin 2048) : EReal :=
  Cert.Spec.attnK ((a.1 0 : S4.Idx → BitVec 32) (ValueIdx.ix1 b))
          (fun d' => (V c main_v8 : S4x2048x1024.Idx → EReal) (ix3 b l d'))
          (fun j d' => (V c main_v7 : S4x2048x1024.Idx → EReal) (ix3 b j d'))
          (fun j d' => (V c main_v9 : S4x2048x1024.Idx → EReal) (ix3 b j d')) d

/-- The output array as one function of its index. -/
def attnArr1 : S4x1024x2048.Idx → EReal := fun i => attnAt1 V a c (i 0) (i 1) (i 2)

/-- What point t writes back is the block of the one whole-array function at the point's rectangle. -/
theorem flushed1_3_eq (t : Fin (cfg1 a).N) :
    (dat1 V a c).flushed 3 t = (((cfg1 a).win 3).blk t).view.read (Elt Ideal) (attnArr1 V a c) := by
  show ((cfg1 a).win 3).cut ((cfg1 a).grid.coords t) ((dat1 V a c).after 3 t) = _
  rw [after1_3]
  unfold out1_3
  rw [View.canon_unit_zero zeroOff1]
  refine funext fun (j : S1x1024x512.Idx) => ?_
  obtain ⟨-, -, -, -, -, -, -, -, -, e30, e31, e32, eo, ht⟩ := idx_facts1 t
  show (k1_pay1 (F := Ideal) (word1 c (grid1.coords t) (a.1 0)) (View.ld (iblk1 V a c 0 t) r1_q) (View.ld (iblk1 V a c 1 t) r1_k)
        (View.ld (iblk1 V a c 2 t) r1_k) : S1x1024x512.Idx → EReal) j = attnArr1 V a c ((((cfg1 a).win 3).blk t).view.emb j)
  refine (pay1_block (word1 c (grid1.coords t) (a.1 0)) (iblk1 V a c 0 t) (iblk1 V a c 1 t) (iblk1 V a c 2 t) j).trans ?_
  have hj1 : (j 1).val < 1024 := (j 1).isLt
  have hj2 : (j 2).val < 512 := (j 2).isLt
  have hb : t.val / 4 < 4 := by omega
  have hl : t.val % 4 * 512 + (j 2).val < 2048 := by omega
  have hemb : (((cfg1 a).win 3).blk t).view.emb j = (ix3 (⟨t.val / 4, hb⟩ : Fin 4) (⟨(j 1).val, hj1⟩ : Fin 1024) (⟨t.val % 4 * 512 + (j 2).val, hl⟩ : Fin 2048) : S4x1024x2048.Idx) := by
    funext ax; apply Fin.ext
    match ax with
    | ⟨0, _⟩ => show cc1_transform_3 (grid1.coords t) (0 : Fin 3) * 1 + 1 * (j 0).val = t.val / 4; have := (j 0).isLt; have e : S1x1024x512.size 0 = 1 := rfl; omega
    | ⟨1, _⟩ => show cc1_transform_3 (grid1.coords t) (1 : Fin 3) * 1024 + 1 * (j 1).val = (j 1).val; omega
    | ⟨2, _⟩ => show cc1_transform_3 (grid1.coords t) (2 : Fin 3) * 512 + 1 * (j 2).val = t.val % 4 * 512 + (j 2).val; omega
  refine Eq.trans ?_ (congrArg (attnArr1 V a c) hemb).symm
  show _ = attnAt1 V a c ⟨t.val / 4, hb⟩ ⟨(j 1).val, hj1⟩ ⟨t.val % 4 * 512 + (j 2).val, hl⟩
  unfold attnAt1
  have hw := word1_eq c (grid1.coords t) (a.1 0) ⟨t.val / 4, hb⟩ eo
  have h0 : (fun d' : Fin 1024 => (iblk1 V a c 0 t : S1x512x1024.Idx → EReal) (ix3 0 (j 2) d'))
      = fun d' => (V c main_v8 : S4x2048x1024.Idx → EReal) (ix3 (⟨t.val / 4, hb⟩ : Fin 4) (⟨t.val % 4 * 512 + (j 2).val, hl⟩ : Fin 2048) d') :=
    funext fun d' => iblk1_0_apply V a c t _ _ rfl rfl rfl
  have h1 : (fun (jj : Fin 2048) (d' : Fin 1024) => (iblk1 V a c 1 t : S1x2048x1024.Idx → EReal) (ix3 0 jj d'))
      = fun jj d' => (V c main_v7 : S4x2048x1024.Idx → EReal) (ix3 (⟨t.val / 4, hb⟩ : Fin 4) jj d') :=
    funext fun jj => funext fun d' => iblk1_1_apply V a c t _ _ rfl rfl rfl
  have h2 : (fun (jj : Fin 2048) (d' : Fin 1024) => (iblk1 V a c 2 t : S1x2048x1024.Idx → EReal) (ix3 0 jj d'))
      = fun jj d' => (V c main_v9 : S4x2048x1024.Idx → EReal) (ix3 (⟨t.val / 4, hb⟩ : Fin 4) jj d') :=
    funext fun jj => funext fun d' => iblk1_2_apply V a c t _ _ rfl rfl rfl
  exact congr (congr (congr (congr (congrArg Cert.Spec.attnK hw) h0) h1) h2) rfl

/-- An index of the output array is in point t's block iff each coordinate is in the block's range on its axis. -/
theorem mem_blk1_3 (t : Fin (cfg1 a).N) (i : S4x1024x2048.Idx) :
    i ∈ (((cfg1 a).win 3).blk t).view.set ↔ ∀ ax : Fin 3, cc1_transform_3 (grid1.coords t) ax * S1x1024x512.size ax ≤ (i ax).val
      ∧ (i ax).val < cc1_transform_3 (grid1.coords t) ax * S1x1024x512.size ax + S1x1024x512.size ax := by
  have h := View.set_slice_whole main_v10 (((cfg1 a).win 3).rect t)
  exact (iff_of_eq (congrArg (fun s => i ∈ s) h)).trans Rect.mem_set_unit

/-- The sixteen blocks tile the output array: entry (b, d, l) lies in the block of point (b, l / 512). -/
theorem covered1_3 (i : S4x1024x2048.Idx) :
    ∃ t : Fin (cfg1 a).N, ((cfg1 a).win 3).flush t = true ∧ i ∈ (((cfg1 a).win 3).blk t).view.set := by
  have hi0 : (i 0).val < 4 := (i 0).isLt
  have hi1 : (i 1).val < 1024 := (i 1).isLt
  have hi2 : (i 2).val < 2048 := (i 2).isLt
  have hN : (cfg1 a).N = 16 := N_1
  obtain ⟨t, htv⟩ : ∃ t : Fin (cfg1 a).N, t.val = (i 0).val * 4 + (i 2).val / 512 := ⟨⟨(i 0).val * 4 + (i 2).val / 512, by rw [hN]; omega⟩, rfl⟩
  obtain ⟨-, -, -, -, -, -, -, -, -, e30, e31, e32, -, -⟩ := idx_facts1 t
  refine ⟨t, flush1_3 a t, ?_⟩
  rw [mem_blk1_3]
  intro ax
  match ax with
  | ⟨0, _⟩ => show cc1_transform_3 (grid1.coords t) (0 : Fin 3) * 1 ≤ (i 0).val ∧ (i 0).val < cc1_transform_3 (grid1.coords t) (0 : Fin 3) * 1 + 1; omega
  | ⟨1, _⟩ => show cc1_transform_3 (grid1.coords t) (1 : Fin 3) * 1024 ≤ (i 1).val ∧ (i 1).val < cc1_transform_3 (grid1.coords t) (1 : Fin 3) * 1024 + 1024; omega
  | ⟨2, _⟩ => show cc1_transform_3 (grid1.coords t) (2 : Fin 3) * 512 ≤ (i 2).val ∧ (i 2).val < cc1_transform_3 (grid1.coords t) (2 : Fin 3) * 512 + 512; omega

/-- So the output array ends holding the one function. -/
theorem arr1_3_eq : (dat1 V a c).arrAt 3 (cfg1 a).N = attnArr1 V a c :=
  (dat1 V a c).arrAt_eq_of_cover 3 (attnArr1 V a c) (fun t _ => flushed1_3_eq V a c t) (covered1_3 a)

end

/-- The output array of region 1 after the region, at batch entry `b`, feature `d`, query `l`: the attention output (kernel's
    normalisation) of query row `l` of the first windowed operand against the key rows of the second and the value rows of the
    third, all of batch entry `b`, for the valid length the table holds for `b`. -/
theorem final1_3 (V : (c : Dev nD) → (b : Ref sig .tc) → Buf (Elt Ideal) ((c : Thread nD τ).loc b)) (a : (pcfg1 (F := Ideal)).Adm) (c : Dev nD)
    (b : Fin 4) (d : Fin 1024) (l : Fin 2048) :
    ((dat1 (F := Ideal) V a c).arrAt 3 (cfg1 a).N : S4x1024x2048.Idx → EReal) (ix3 b d l)
      = Cert.Spec.attnK ((a.1 0 : S4.Idx → BitVec 32) (ValueIdx.ix1 b))
          (fun d' => (V c main_v8 : S4x2048x1024.Idx → EReal) (ix3 b l d'))
          (fun j d' => (V c main_v7 : S4x2048x1024.Idx → EReal) (ix3 b j d'))
          (fun j d' => (V c main_v9 : S4x2048x1024.Idx → EReal) (ix3 b j d')) d := by
  rw [arr1_3_eq V a c]
  rfl

end Cert.KernelIdeal.Hand

end
-- ==== Proof.KI.Val2.lean ====
/- What region 2 (the final projection) leaves in its output array, element by element: each output row block is the row block of the activations times the weight matrix plus the bias row, and the sixteen row blocks tile the array. -/
import proofs.«422964_j3899830305375_2_alg».proof.Proof.KI.Region2
import Idealize.ShloMosaic.Lib.ValueIdx
import Idealize.ShloMosaic.Lib.ValueLayout
import Idealize.ShloMosaic.Lib.Pipeline.Value
import Idealize.ShloMosaic.PureOps.Ideal.Laws
import proofs.«422964_j3899830305375_2_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## The body's value at an index -/

/-- The product's operand indices, axis by axis: the left operand is read at (row of the output, contraction index), -/
theorem lhs2_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs2_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- and the right operand at (contraction index, column of the output). -/
theorem rhs2_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs2_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into the zero accumulator, at row `p` and column `e`: the sum over the contraction index of the
    left operand's row `p` times the right operand's column `e`. -/
theorem matmul2_apply (l : FVec Ideal S512x1024 .bf16) (r : FVec Ideal S1024x1024 .bf16) (p : Fin 512) (e : Fin 1024) :
    FloatOps.matmul dot_S512x1024_S1024x1024_S512x1024_1_0_0_1_n_n none l r (constant (F := Ideal) S512x1024 .f32 0x00000000#32) (ix2 p e)
      = ∑ k : Fin 1024, l (ix2 p k) * r (ix2 k e) := by
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p e) ((ValueIdx.contrEquiv1 dot_S512x1024_S1024x1024_S512x1024_1_0_0_1_n_n 1024 rfl rfl).symm k) = ix2 p k := funext fun a => Fin.ext (by
    match a with
    | ⟨0, _⟩ => exact lhs2_0 _ _
    | ⟨1, _⟩ => exact (lhs2_1 _ _).trans hk)
  have er : dot_S512x1024_S1024x1024_S512x1024_1_0_0_1_n_n.rhsIdx (ix2 p e) ((ValueIdx.contrEquiv1 dot_S512x1024_S1024x1024_S512x1024_1_0_0_1_n_n 1024 rfl rfl).symm k) = ix2 k e := funext fun a => Fin.ext (by
    match a with
    | ⟨0, _⟩ => exact (rhs2_0 _ _).trans hk
    | ⟨1, _⟩ => exact rhs2_1 _ _)
  rw [el, er]

/-- The body's stored value at row `p`, feature `e` of the block: the dot product of row `p` of the activations' block
    with column `e` of the weights, plus entry `e` of the bias row. -/
theorem pay2_apply (x0 : Vec Ideal S512x1024 .bf16) (x1 : Vec Ideal S1024x1024 .bf16) (x2 : Vec Ideal S1x1024 .f32) (p : Fin 512) (e : Fin 1024) :
    (k2_pay1 (F := Ideal) x0 x1 x2 : S512x1024.Idx → EReal) (ix2 p e)
      = Cert.Spec.lin (fun d => (x0 : S512x1024.Idx → EReal) (ix2 p d))
          (fun d => (x1 : S1024x1024.Idx → EReal) (ix2 d e))
          ((x2 : S1x1024.Idx → EReal) (ix2 0 e)) := by
  unfold k2_pay1 Cert.Spec.lin
  simp only [shapeCast_self]
  refine (addf_apply _ _ _).trans ?_
  refine congrArg₂ (· + ·) (matmul2_apply x0 x1 p e) ?_
  exact broadcastTo_1b_ab_apply x2 broadcasts_S1x1024_S512x1024 p e

/-! ## From blocks to the array -/

theorem hz2 : (![0, 0] : Fin 2 → Nat) = fun _ => 0 := funext fun a => by fin_cases a <;> rfl

/-- The whole output array as one function of the three input arrays: entry (r, e) is the dot product of row `r`
    of the activations with column `e` of the weights, plus entry `e` of the bias row. -/
abbrev lin2 (a0 : S8192x1024.Idx → EReal) (a1 : S1024x1024.Idx → EReal) (a2 : S1x1024.Idx → EReal) : S8192x1024.Idx → EReal :=
  fun i => Cert.Spec.lin (fun d => a0 (ix2 (i 0) d)) (fun d => a1 (ix2 d (i 1))) (a2 (ix2 0 (i 1)))

/-- The block indices over the grid: the activations' and the output's row block is the point's number, their
    column block is 0; the weights' and the bias row's block is always (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The activations' block at point `t` is rows `512 t … 512 t + 511` of the array. -/
theorem iblk2_0_apply (V : (c : Dev nD) → (b : Ref sig .tc) → Buf (Elt Ideal) ((c : Thread nD τ).loc b)) (c : Dev nD) (t : Fin cfg2.N)
    (p : Fin 512) (d : Fin 1024) (r : Fin 8192) (hr : r.val = t.val * 512 + p.val) :
    (iblk2 (F := Ideal) V c 0 t : S512x1024.Idx → EReal) (ix2 p d) = (V c main_v12 : S8192x1024.Idx → EReal) (ix2 r d) := by
  obtain ⟨e0, e1, -⟩ := idx_facts2 t
  unfold iblk2
  rw [View.read_apply]
  show V c main_v12 (((cfg2.win 0).blk t).view.emb (ix2 p d)) = V c main_v12 (ix2 r d)
  refine congrArg (V c main_v12) (funext fun a => Fin.ext ?_)
  match a with
  | ⟨0, _⟩ => show win2_0.index t (0 : Fin 2) * 512 + 1 * p.val = r.val; rw [e0, hr]; omega
  | ⟨1, _⟩ => show win2_0.index t (1 : Fin 2) * 1024 + 1 * d.val = d.val; rw [e1]; omega

/-- The weights' block at every point is the whole matrix. -/
theorem iblk2_1_apply (V : (c : Dev nD) → (b : Ref sig .tc) → Buf (Elt Ideal) ((c : Thread nD τ).loc b)) (c : Dev nD) (t : Fin cfg2.N)
    (d : Fin 1024) (e : Fin 1024) :
    (iblk2 (F := Ideal) V c 1 t : S1024x1024.Idx → EReal) (ix2 d e) = (V c main_v4 : S1024x1024.Idx → EReal) (ix2 d e) := by
  obtain ⟨-, -, e0, e1, -⟩ := idx_facts2 t
  unfold iblk2
  rw [View.read_apply]
  show V c main_v4 (((cfg2.win 1).blk t).view.emb (ix2 d e)) = V c main_v4 (ix2 d e)
  refine congrArg (V c main_v4) (funext fun a => Fin.ext ?_)
  match a with
  | ⟨0, _⟩ => show win2_1.index t (0 : Fin 2) * 1024 + 1 * d.val = d.val; rw [e0]; omega
  | ⟨1, _⟩ => show win2_1.index t (1 : Fin 2) * 1024 + 1 * e.val = e.val; rw [e1]; omega

/-- The bias row's block at every point is the whole row. -/
theorem iblk2_2_apply (V : (c : Dev nD) → (b : Ref sig .tc) → Buf (Elt Ideal) ((c : Thread nD τ).loc b)) (c : Dev nD) (t : Fin cfg2.N)
    (z : Fin 1) (e : Fin 1024) :
    (iblk2 (F := Ideal) V c 2 t : S1x1024.Idx → EReal) (ix2 z e) = (V c main_v13 : S1x1024.Idx → EReal) (ix2 z e) := by
  obtain ⟨-, -, -, -, e0, e1, -⟩ := idx_facts2 t
  unfold iblk2
  rw [View.read_apply]
  show V c main_v13 (((cfg2.win 2).blk t).view.emb (ix2 z e)) = V c main_v13 (ix2 z e)
  refine congrArg (V c main_v13) (funext fun a => Fin.ext ?_)
  match a with
  | ⟨0, _⟩ => show win2_2.index t (0 : Fin 2) * 1 + 1 * z.val = z.val; rw [e0]; omega
  | ⟨1, _⟩ => show win2_2.index t (1 : Fin 2) * 1024 + 1 * e.val = e.val; rw [e1]; omega

/-- What point `t` writes back is block `t` of `lin2` of the three arrays as the region finds them. -/
theorem flushed2_3_eq (V : (c : Dev nD) → (b : Ref sig .tc) → Buf (Elt Ideal) ((c : Thread nD τ).loc b)) (c : Dev nD) (t : Fin cfg2.N) :
    (dat2 (F := Ideal) V c).flushed 3 t
      = ((cfg2.win 3).blk t).view.read (Elt Ideal) (lin2 (V c main_v12) (V c main_v4) (V c main_v13)) := by
  show (cfg2.win 3).cut (grid2.coords t) ((dat2 (F := Ideal) V c).after 3 t) = _
  rw [after2_3]
  unfold out2_3
  rw [View.canon_unit_zero hz2]
  simp only [View.ld_unit_zero (S := S512x1024) hz2, View.ld_unit_zero (S := S1024x1024) hz2, View.ld_unit_zero (S := S1x1024) hz2]
  obtain ⟨-, -, -, -, -, -, e0, e1⟩ := idx_facts2 t
  funext j
  obtain ⟨p, q, rfl⟩ : ∃ (p : Fin 512) (q : Fin 1024), j = ix2 p q := ⟨j 0, j 1, eq_ix2 j⟩
  have hr : t.val * 512 + p.val < 8192 := by have := t.isLt; have := p.isLt; have : cfg2.N = 16 := rfl; omega
  refine (pay2_apply (iblk2 (F := Ideal) V c 0 t) (iblk2 (F := Ideal) V c 1 t) (iblk2 (F := Ideal) V c 2 t) p q).trans ?_
  rw [View.read_apply]
  show _ = lin2 (V c main_v12) (V c main_v4) (V c main_v13) (((cfg2.win 3).blk t).view.emb (ix2 p q))
  have hemb : ((cfg2.win 3).blk t).view.emb (ix2 p q) = (ix2 (⟨t.val * 512 + p.val, hr⟩ : Fin 8192) q : S8192x1024.Idx) := by
    funext a; apply Fin.ext
    match a with
    | ⟨0, _⟩ => show win2_3.index t (0 : Fin 2) * 512 + 1 * p.val = t.val * 512 + p.val; rw [e0]; omega
    | ⟨1, _⟩ => show win2_3.index t (1 : Fin 2) * 1024 + 1 * q.val = q.val; rw [e1]; omega
  rw [hemb]
  show Cert.Spec.lin _ _ _ = Cert.Spec.lin _ _ _
  congr 1
  · funext d; exact iblk2_0_apply V c t p d ⟨t.val * 512 + p.val, hr⟩ rfl
  · funext d; exact iblk2_1_apply V c t d q
  · exact iblk2_2_apply V c t 0 q

/-- An index of the output array is in point `t`'s block iff each coordinate is in the block's range on its axis. -/
theorem mem_blk2_3 (t : Fin cfg2.N) (i : S8192x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v14).slice (win2_3.rect t)).set ↔ _
  rw [View.set_slice_whole, Rect.mem_set_unit]
  exact Iff.rfl

/-- Every index of the output array is in the block of the point numbered by its row divided by 512. -/
theorem cover2_3_arr (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  refine ⟨⟨(i 0).val / 512, by show _ < 16; omega⟩, flush2_3 _, ?_⟩
  rw [mem_blk2_3]
  obtain ⟨-, -, -, -, -, -, e0, e1⟩ := idx_facts2 ⟨(i 0).val / 512, by show _ < 16; omega⟩
  intro a
  match a with
  | ⟨0, _⟩ => show win2_3.index _ (0 : Fin 2) * 512 ≤ (i 0).val ∧ (i 0).val < win2_3.index _ (0 : Fin 2) * 512 + 512; rw [e0]; show (i 0).val / 512 * 512 ≤ (i 0).val ∧ (i 0).val < (i 0).val / 512 * 512 + 512; omega
  | ⟨1, _⟩ => show win2_3.index _ (1 : Fin 2) * 1024 ≤ (i 1).val ∧ (i 1).val < win2_3.index _ (1 : Fin 2) * 1024 + 1024; rw [e1]; omega

/-- The output array after the region is `lin2` of the three input arrays. -/
theorem arr2_3_eq (V : (c : Dev nD) → (b : Ref sig .tc) → Buf (Elt Ideal) ((c : Thread nD τ).loc b)) (c : Dev nD) :
    (dat2 (F := Ideal) V c).arrAt 3 cfg2.N = lin2 (V c main_v12) (V c main_v4) (V c main_v13) :=
  (dat2 (F := Ideal) V c).arrAt_eq_of_cover 3 (lin2 (V c main_v12) (V c main_v4) (V c main_v13))
    (fun t _ => flushed2_3_eq V c t) cover2_3_arr

/-- The output array of region 2 after the region, at row `r`, feature `e`: the dot product of row `r` of the first operand
    with column `e` of the second, plus entry `e` of the bias row. -/
theorem final2_3 (V : (c : Dev nD) → (b : Ref sig .tc) → Buf (Elt Ideal) ((c : Thread nD τ).loc b)) (c : Dev nD) (r : Fin 8192) (e : Fin 1024) :
    ((dat2 (F := Ideal) V c).arrAt 3 cfg2.N : S8192x1024.Idx → EReal) (ix2 r e)
      = Cert.Spec.lin (fun d => (V c main_v12 : S8192x1024.Idx → EReal) (ix2 r d))
          (fun d => (V c main_v4 : S1024x1024.Idx → EReal) (ix2 d e))
          ((V c main_v13 : S1x1024.Idx → EReal) (ix2 0 e)) := by
  rw [arr2_3_eq V c]

end Cert.KernelIdeal.Hand

end
-- ==== Proof.KI.ChainA.lean ====
/- The attention output array after region 1, element by element, in terms of the program's arguments: through the host reshapes and transposes before region 0, region 0's three output arrays, the reshapes to [4, 2048, 1024], and region 1. -/
import proofs.«422964_j3899830305375_2_alg».proof.Proof.KI.Run
import proofs.«422964_j3899830305375_2_alg».proof.Proof.KI.Val0
import proofs.«422964_j3899830305375_2_alg».proof.Proof.KI.Val1
import proofs.«422964_j3899830305375_2_alg».proof.Proof.KI.Val2
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import proofs.«422964_j3899830305375_2_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)
open Idealize.ShloMosaic.StableHlo

/-! ## The host reshapes read at an index -/

/-- A [4, 2048, 1024] array re-read as [8192, 1024]: row `b * 2048 + l` is row `l` of batch entry `b`. -/
theorem rows_of_batch_apply {α : Type} (x : S4x2048x1024.Idx → α) (h : S4x2048x1024.ShapeCasts S8192x1024)
    (b : Fin 4) (l : Fin 2048) (d : Fin 1024) (r : Fin 8192) (hr : r.val = b.val * 2048 + l.val) :
    shapeCast S8192x1024 x h (ix2 r d) = x (ix3 b l d) :=
  shapeCast_apply x h _ _ (by
    rw [Shape.rowMajor_val_three, Shape.rowMajor_val_two]
    show (b.val * 2048 + l.val) * 1024 + d.val = r.val * 1024 + d.val
    rw [hr])

/-- An [8192, 1024] array re-read as [4, 2048, 1024]: row `l` of batch entry `b` is row `b * 2048 + l`. -/
theorem batch_of_rows_apply {α : Type} (x : S8192x1024.Idx → α) (h : S8192x1024.ShapeCasts S4x2048x1024)
    (b : Fin 4) (l : Fin 2048) (d : Fin 1024) (r : Fin 8192) (hr : r.val = b.val * 2048 + l.val) :
    shapeCast S4x2048x1024 x h (ix3 b l d) = x (ix2 r d) :=
  shapeCast_apply x h _ _ (by
    rw [Shape.rowMajor_val_three, Shape.rowMajor_val_two]
    show r.val * 1024 + d.val = (b.val * 2048 + l.val) * 1024 + d.val
    rw [hr])

/-- The row of the [8192, 1024] arrays that holds row `l` of batch entry `b`. -/
def rowOf (b : Fin 4) (l : Fin 2048) : Fin 8192 := ⟨b.val * 2048 + l.val, by have := b.isLt; have := l.isLt; omega⟩

/-! ## The host operations before region 0 -/

/-- The activations as region 0 finds them: the first argument re-read as [8192, 1024]. -/
theorem V1_v0 (m : (ℓ : Loc nD τ sig) → Buf (Elt Ideal) ℓ) (c : Dev nD) :
    (V1 m c main_v0 : S8192x1024.Idx → EReal)
      = shapeCast S8192x1024 (m ((c.tc : Thread nD τ).loc main_arg0) : S4x2048x1024.Idx → EReal) shapeCasts_S4x2048x1024_S8192x1024 := by
  dsimp only [V1, hostOps0]
  after_results
  rfl

/-- The weights as region 0 finds them: the third argument transposed (the change of float format is the identity). -/
theorem V1_v2 (m : (ℓ : Loc nD τ sig) → Buf (Elt Ideal) ℓ) (c : Dev nD) :
    (V1 m c main_v2 : S1024x3072.Idx → EReal)
      = (truncf (F := Ideal) .bf16 (transpose S1024x3072 [1, 0] (m ((c.tc : Thread nD τ).loc main_arg2) : FVec Ideal S3072x1024 .f32) transposes_S3072x1024_S1024x3072_1_0) bitsLt_bf16_f32 : FVec Ideal S1024x3072 .bf16) := by
  dsimp only [V1, hostOps0]
  after_results

/-- The bias as region 0 finds it: the fourth argument as a one-row matrix. -/
theorem V1_v5 (m : (ℓ : Loc nD τ sig) → Buf (Elt Ideal) ℓ) (c : Dev nD) :
    (V1 m c main_v5 : S1x3072.Idx → EReal)
      = shapeCast S1x3072 (m ((c.tc : Thread nD τ).loc main_arg3) : S3072.Idx → EReal) shapeCasts_S3072_S1x3072 := by
  dsimp only [V1, hostOps0]
  after_results
  rfl

/-- The three at an index: row `b * 2048 + l` of the activations is row `l` of batch entry `b` of the first argument; column
    `q` of the weights is row `q` of the third argument; entry `q` of the bias row is entry `q` of the fourth. So the
    projection's feature `q` of that row is the specification's linear layer on the arguments. -/
theorem lin_V1 (m : (ℓ : Loc nD τ sig) → Buf (Elt Ideal) ℓ) (c : Dev nD) (b : Fin 4) (l : Fin 2048) (q : Fin 3072) :
    Cert.Spec.lin (fun d => (V1 m c main_v0 : S8192x1024.Idx → EReal) (ix2 (rowOf b l) d))
        (fun d => (V1 m c main_v2 : S1024x3072.Idx → EReal) (ix2 d q))
        ((V1 m c main_v5 : S1x3072.Idx → EReal) (ix2 0 q))
      = Cert.Spec.lin
          (Cert.Spec.arr3 (n0 := 4) (n1 := 2048) (n2 := 1024) (α := EReal) (m ((c.tc : Thread nD τ).loc main_arg0)) b l)
          (Cert.Spec.arr2 (n0 := 3072) (n1 := 1024) (α := EReal) (m ((c.tc : Thread nD τ).loc main_arg2)) q)
          (Cert.Spec.arr1 (n0 := 3072) (α := EReal) (m ((c.tc : Thread nD τ).loc main_arg3)) q) := by
  have h0 : (fun d => (V1 m c main_v0 : S8192x1024.Idx → EReal) (ix2 (rowOf b l) d))
      = Cert.Spec.arr3 (n0 := 4) (n1 := 2048) (n2 := 1024) (α := EReal) (m ((c.tc : Thread nD τ).loc main_arg0)) b l := by
    funext d
    rw [V1_v0 m c]
    exact rows_of_batch_apply _ _ b l d (rowOf b l) rfl
  have h2 : (fun d => (V1 m c main_v2 : S1024x3072.Idx → EReal) (ix2 d q))
      = Cert.Spec.arr2 (n0 := 3072) (n1 := 1024) (α := EReal) (m ((c.tc : Thread nD τ).loc main_arg2)) q := by
    funext d
    rw [V1_v2 m c]
    exact (truncf_apply (φ := .f32) (ψ := .bf16) _ bitsLt_bf16_f32 _).trans (transpose_ix2_apply _ transposes_S3072x1024_S1024x3072_1_0 d q)
  have h5 : (V1 m c main_v5 : S1x3072.Idx → EReal) (ix2 0 q)
      = Cert.Spec.arr1 (n0 := 3072) (α := EReal) (m ((c.tc : Thread nD τ).loc main_arg3)) q := by
    rw [V1_v5 m c]
    exact shapeCast_a_1a_apply _ shapeCasts_S3072_S1x3072 0 q
  rw [h0, h2, h5]

/-! ## Region 0's three outputs: the projected keys, queries and values -/

/-- Row `b * 2048 + l`, feature `e` of region 0's first output is the projected key feature of row `l` of batch entry `b`; -/
theorem keys_rows_apply (m : (ℓ : Loc nD τ sig) → Buf (Elt Ideal) ℓ) (c : Dev nD) (b : Fin 4) (l : Fin 2048) (e : Fin 1024) :
    (V2 m (outsA m) c main_v6_0 : S8192x1024.Idx → EReal) (ix2 (rowOf b l) e)
      = Cert.Spec.kqv (Cert.Spec.arr3 (n0 := 4) (n1 := 2048) (n2 := 1024) (α := EReal) (m ((c.tc : Thread nD τ).loc main_arg0))) (Cert.Spec.arr2 (n0 := 3072) (n1 := 1024) (α := EReal) (m ((c.tc : Thread nD τ).loc main_arg2))) (Cert.Spec.arr1 (n0 := 3072) (α := EReal) (m ((c.tc : Thread nD τ).loc main_arg3))) 0 b l e := by
  rw [V2_v6_0 m c]
  exact (final0_3 (rV (V1 m)) c (rowOf b l) e).trans (lin_V1 m c b l (Cert.Spec.third 0 e))
/-- of its second, the projected query feature; -/
theorem queries_rows_apply (m : (ℓ : Loc nD τ sig) → Buf (Elt Ideal) ℓ) (c : Dev nD) (b : Fin 4) (l : Fin 2048) (e : Fin 1024) :
    (V2 m (outsA m) c main_v6_1 : S8192x1024.Idx → EReal) (ix2 (rowOf b l) e)
      = Cert.Spec.kqv (Cert.Spec.arr3 (n0 := 4) (n1 := 2048) (n2 := 1024) (α := EReal) (m ((c.tc : Thread nD τ).loc main_arg0))) (Cert.Spec.arr2 (n0 := 3072) (n1 := 1024) (α := EReal) (m ((c.tc : Thread nD τ).loc main_arg2))) (Cert.Spec.arr1 (n0 := 3072) (α := EReal) (m ((c.tc : Thread nD τ).loc main_arg3))) 1 b l e := by
  rw [V2_v6_1 m c]
  exact (final0_4 (rV (V1 m)) c (rowOf b l) e).trans (lin_V1 m c b l (Cert.Spec.third 1 e))
/-- of its third, the projected value feature. -/
theorem values_rows_apply (m : (ℓ : Loc nD τ sig) → Buf (Elt Ideal) ℓ) (c : Dev nD) (b : Fin 4) (l : Fin 2048) (e : Fin 1024) :
    (V2 m (outsA m) c main_v6_2 : S8192x1024.Idx → EReal) (ix2 (rowOf b l) e)
      = Cert.Spec.kqv (Cert.Spec.arr3 (n0 := 4) (n1 := 2048) (n2 := 1024) (α := EReal) (m ((c.tc : Thread nD τ).loc main_arg0))) (Cert.Spec.arr2 (n0 := 3072) (n1 := 1024) (α := EReal) (m ((c.tc : Thread nD τ).loc main_arg2))) (Cert.Spec.arr1 (n0 := 3072) (α := EReal) (m ((c.tc : Thread nD τ).loc main_arg3))) 2 b l e := by
  rw [V2_v6_2 m c]
  exact (final0_5 (rV (V1 m)) c (rowOf b l) e).trans (lin_V1 m c b l (Cert.Spec.third 2 e))

/-! ## The reshapes between regions 0 and 1 -/

theorem V3_v7 (m : (ℓ : Loc nD τ sig) → Buf (Elt Ideal) ℓ) (c : Dev nD) :
    (V3 m (outsA m) c main_v7 : S4x2048x1024.Idx → EReal)
      = shapeCast S4x2048x1024 (V2 m (outsA m) c main_v6_0 : S8192x1024.Idx → EReal) shapeCasts_S8192x1024_S4x2048x1024 := by
  dsimp only [V3, hostOps1]
  after_results
  rfl
/-- The keys as region 1 finds them, at batch entry `b`, row `l`, feature `e`. -/
theorem keys_apply (m : (ℓ : Loc nD τ sig) → Buf (Elt Ideal) ℓ) (c : Dev nD) (b : Fin 4) (l : Fin 2048) (e : Fin 1024) :
    (V3 m (outsA m) c main_v7 : S4x2048x1024.Idx → EReal) (ix3 b l e)
      = Cert.Spec.kqv (Cert.Spec.arr3 (n0 := 4) (n1 := 2048) (n2 := 1024) (α := EReal) (m ((c.tc : Thread nD τ).loc main_arg0))) (Cert.Spec.arr2 (n0 := 3072) (n1 := 1024) (α := EReal) (m ((c.tc : Thread nD τ).loc main_arg2))) (Cert.Spec.arr1 (n0 := 3072) (α := EReal) (m ((c.tc : Thread nD τ).loc main_arg3))) 0 b l e := by
  rw [V3_v7 m c]
  exact (batch_of_rows_apply _ _ b l e (rowOf b l) rfl).trans (keys_rows_apply m c b l e)

theorem V3_v8 (m : (ℓ : Loc nD τ sig) → Buf (Elt Ideal) ℓ) (c : Dev nD) :
    (V3 m (outsA m) c main_v8 : S4x2048x1024.Idx → EReal)
      = shapeCast S4x2048x1024 (V2 m (outsA m) c main_v6_1 : S8192x1024.Idx → EReal) shapeCasts_S8192x1024_S4x2048x1024 := by
  dsimp only [V3, hostOps1]
  after_results
  rfl
/-- The queries as region 1 finds them. -/
theorem queries_apply (m : (ℓ : Loc nD τ sig) → Buf (Elt Ideal) ℓ) (c : Dev nD) (b : Fin 4) (l : Fin 2048) (e : Fin 1024) :
    (V3 m (outsA m) c main_v8 : S4x2048x1024.Idx → EReal) (ix3 b l e)
      = Cert.Spec.kqv (Cert.Spec.arr3 (n0 := 4) (n1 := 2048) (n2 := 1024) (α := EReal) (m ((c.tc : Thread nD τ).loc main_arg0))) (Cert.Spec.arr2 (n0 := 3072) (n1 := 1024) (α := EReal) (m ((c.tc : Thread nD τ).loc main_arg2))) (Cert.Spec.arr1 (n0 := 3072) (α := EReal) (m ((c.tc : Thread nD τ).loc main_arg3))) 1 b l e := by
  rw [V3_v8 m c]
  exact (batch_of_rows_apply _ _ b l e (rowOf b l) rfl).trans (queries_rows_apply m c b l e)

theorem V3_v9 (m : (ℓ : Loc nD τ sig) → Buf (Elt Ideal) ℓ) (c : Dev nD) :
    (V3 m (outsA m) c main_v9 : S4x2048x1024.Idx → EReal)
      = shapeCast S4x2048x1024 (V2 m (outsA m) c main_v6_2 : S8192x1024.Idx → EReal) shapeCasts_S8192x1024_S4x2048x1024 := by
  dsimp only [V3, hostOps1]
  after_results
  rfl
/-- The values as region 1 finds them. -/
theorem values_apply (m : (ℓ : Loc nD τ sig) → Buf (Elt Ideal) ℓ) (c : Dev nD) (b : Fin 4) (l : Fin 2048) (e : Fin 1024) :
    (V3 m (outsA m) c main_v9 : S4x2048x1024.Idx → EReal) (ix3 b l e)
      = Cert.Spec.kqv (Cert.Spec.arr3 (n0 := 4) (n1 := 2048) (n2 := 1024) (α := EReal) (m ((c.tc : Thread nD τ).loc main_arg0))) (Cert.Spec.arr2 (n0 := 3072) (n1 := 1024) (α := EReal) (m ((c.tc : Thread nD τ).loc main_arg2))) (Cert.Spec.arr1 (n0 := 3072) (α := EReal) (m ((c.tc : Thread nD τ).loc main_arg3))) 2 b l e := by
  rw [V3_v9 m c]
  exact (batch_of_rows_apply _ _ b l e (rowOf b l) rfl).trans (values_rows_apply m c b l e)

/-! ## Region 1 -/

/-- The attention output of equal valid lengths, queries, keys and values. -/
theorem attnK_congr {vl vl' : BitVec 32} {q q' : Fin 1024 → EReal} {k k' v v' : Fin 2048 → Fin 1024 → EReal}
    (h1 : vl = vl') (hq : q = q') (hk : k = k') (hv : v = v') (e : Fin 1024) :
    Cert.Spec.attnK vl q k v e = Cert.Spec.attnK vl' q' k' v' e := by
  subst h1 hq hk hv; rfl

/-- After region 1 its output array holds, at batch entry `b`, feature `d`, query `l`, the specification's attention output
    (kernel's normalisation) of the arguments. -/
theorem att_apply (m : (ℓ : Loc nD τ sig) → Buf (Elt Ideal) ℓ) (c : Dev nD) (b : Fin 4) (d : Fin 1024) (l : Fin 2048) :
    (V4 m (outsB m) c main_v10 : S4x1024x2048.Idx → EReal) (ix3 b d l)
      = Cert.Spec.attK
          (Cert.Spec.arr3 (n0 := 4) (n1 := 2048) (n2 := 1024) (α := EReal) (m ((c.tc : Thread nD τ).loc main_arg0)))
          (Cert.Spec.arr2 (n0 := 3072) (n1 := 1024) (α := EReal) (m ((c.tc : Thread nD τ).loc main_arg2)))
          (Cert.Spec.arr1 (n0 := 3072) (α := EReal) (m ((c.tc : Thread nD τ).loc main_arg3)))
          (Cert.Spec.arr1 (n0 := 4) (α := BitVec 32) (m ((c.tc : Thread nD τ).loc main_arg1)))
          b l d := by
  obtain rfl : c = 0 := Subsingleton.elim _ _
  rw [V4_v10 m 0]
  refine (final1_3 (rV (V3 m (outsA m))) (adm1 m) 0 b d l).trans ?_
  unfold Cert.Spec.attK
  exact attnK_congr rfl
    (funext fun d' => queries_apply m 0 b l d')
    (funext fun j => funext fun d' => keys_apply m 0 b j d')
    (funext fun j => funext fun d' => values_apply m 0 b j d') d

end Cert.KernelIdeal.Hand

end
-- ==== Proof.KI.ChainB.lean ====
/- The program's result array, element by element, from what region 1 leaves: the two reshapes that re-read the feature-major attention output as [8192, 1024], region 2 (the final projection against the transposed weights plus the bias row), and the last reshape. -/
import proofs.«422964_j3899830305375_2_alg».proof.Proof.KI.Run
import proofs.«422964_j3899830305375_2_alg».proof.Proof.KI.Val0
import proofs.«422964_j3899830305375_2_alg».proof.Proof.KI.Val1
import proofs.«422964_j3899830305375_2_alg».proof.Proof.KI.Val2
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import proofs.«422964_j3899830305375_2_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)
open Idealize.ShloMosaic.StableHlo

/-! ## The host stretches' reshapes, as terms -/

section Stretches

variable (m : (ℓ : Loc nD τ sig) → Buf (Elt Ideal) ℓ) (o : Outs (F := Ideal)) (c : Dev nD)

/-- The result array is the [8192, 1024] output of region 2 re-read as [4, 2048, 1024]. -/
theorem v15_eq : (V7 m o c main_v15 : S4x2048x1024.Idx → EReal)
    = shapeCast S4x2048x1024 (V6 m o c main_v14 : S8192x1024.Idx → EReal) shapeCasts_S8192x1024_S4x2048x1024 := by
  show StableHlo.after hostOps3 (V6 m o c) (Proc.devRef .tc main_v15) = _
  after_results
  rfl

/-- Region 2's first operand is region 1's [4, 1024, 2048] output re-read as [4, 2048, 1024], then as [8192, 1024]. -/
theorem v12_eq : (V5 m o c main_v12 : S8192x1024.Idx → EReal)
    = shapeCast S8192x1024
        (shapeCast S4x2048x1024 (V4 m o c main_v10 : S4x1024x2048.Idx → EReal) shapeCasts_S4x1024x2048_S4x2048x1024)
        shapeCasts_S4x2048x1024_S8192x1024 := by
  show StableHlo.after hostOps2 (V4 m o c) (Proc.devRef .tc main_v12) = _
  after_results
  rfl

/-- Region 2's bias row is the last argument re-read as [1, 1024]. -/
theorem v13_eq : (V5 m o c main_v13 : S1x1024.Idx → EReal)
    = shapeCast S1x1024 (V4 m o c main_arg5 : S1024.Idx → EReal) shapeCasts_S1024_S1x1024 := by
  show StableHlo.after hostOps2 (V4 m o c) (Proc.devRef .tc main_v13) = _
  after_results
  rfl

/-- Region 2's second operand is the transposed projection weights (the change of float format is the identity). -/
theorem v4_eq : (V1 m c main_v4 : S1024x1024.Idx → EReal)
    = (truncf (F := Ideal) .bf16
        (transpose S1024x1024 [1, 0] (V0 m c main_arg4 : S1024x1024.Idx → EReal) transposes_S1024x1024_S1024x1024_1_0
          : FVec Ideal S1024x1024 .f32) bitsLt_bf16_f32 : FVec Ideal S1024x1024 .bf16) := by
  show StableHlo.after hostOps0 (V0 m c) (Proc.devRef .tc main_v4) = _
  after_results <;> rfl

end Stretches

/-! ## The same, read at an index -/

section Reads

variable (m : (ℓ : Loc nD τ sig) → Buf (Elt Ideal) ℓ) (c : Dev nD)

/-- The row of the [8192, 1024] arrays that holds position `l` of batch entry `b`. -/
abbrev row (b : Fin 4) (l : Fin 2048) : Fin 8192 := ⟨b.val * 2048 + l.val, by have := b.isLt; have := l.isLt; omega⟩

/-- The result at (b, l, e) is region 2's output at row b * 2048 + l, feature e. -/
theorem v15_apply (b : Fin 4) (l : Fin 2048) (e : Fin 1024) :
    (V7 m (outs m) c main_v15 : S4x2048x1024.Idx → EReal) (ix3 b l e)
      = (V6 m (outs m) c main_v14 : S8192x1024.Idx → EReal) (ix2 (row b l) e) := by
  rw [v15_eq]
  refine shapeCast_apply _ shapeCasts_S8192x1024_S4x2048x1024 (ix3 b l e) (ix2 (row b l) e) ?_
  rw [Shape.rowMajor_val_two, Shape.rowMajor_val_three]
  show (b.val * 2048 + l.val) * 1024 + e.val = (b.val * 2048 + l.val) * 1024 + e.val
  rfl

/-- Region 2's first operand at row b * 2048 + l, column d is region 1's output at feature (l * 1024 + d) / 2048 of
    query (l * 1024 + d) % 2048: both are flat position (b * 2048 + l) * 1024 + d. -/
theorem v12_apply (b : Fin 4) (l : Fin 2048) (d : Fin 1024) :
    (V5 m (outsB m) c main_v12 : S8192x1024.Idx → EReal) (ix2 (row b l) d)
      = (V4 m (outsB m) c main_v10 : S4x1024x2048.Idx → EReal) (ix3 b (Cert.Spec.mixF l d) (Cert.Spec.mixQ l d)) := by
  rw [v12_eq]
  refine (shapeCast_apply _ shapeCasts_S4x2048x1024_S8192x1024 (ix2 (row b l) d) (ix3 b l d) ?_).trans ?_
  · rw [Shape.rowMajor_val_two, Shape.rowMajor_val_three]
    show (b.val * 2048 + l.val) * 1024 + d.val = (b.val * 2048 + l.val) * 1024 + d.val
    rfl
  · refine shapeCast_apply _ shapeCasts_S4x1024x2048_S4x2048x1024 (ix3 b l d) (ix3 b (Cert.Spec.mixF l d) (Cert.Spec.mixQ l d)) ?_
    rw [Shape.rowMajor_val_three, Shape.rowMajor_val_three]
    show (b.val * 1024 + (l.val * 1024 + d.val) / 2048) * 2048 + (l.val * 1024 + d.val) % 2048
      = (b.val * 2048 + l.val) * 1024 + d.val
    omega

/-- Region 2's bias row at (0, e) is entry e of the last argument. -/
theorem v13_apply (e : Fin 1024) :
    (V5 m (outsB m) c main_v13 : S1x1024.Idx → EReal) (ix2 0 e)
      = Cert.Spec.arr1 (n0 := 1024) (α := EReal) (m ((c.tc : Thread nD τ).loc main_arg5)) e := by
  rw [v13_eq]
  refine (shapeCast_apply _ shapeCasts_S1024_S1x1024 (ix2 0 e) (ValueIdx.ix1 e) ?_).trans ?_
  · rw [Shape.rowMajor_val_one, Shape.rowMajor_val_two]
    show e.val = 0 * 1024 + e.val
    omega
  · exact congrFun ((V4_of m (outsB m) c main_arg5 (by decide)).trans <| (V3_of m (outsB m) c main_arg5 (by decide)).trans <|
      (V2_of m (outsB m) c main_arg5 (by decide)).trans <| (V1_of m c main_arg5 (by decide)).trans rfl) (ValueIdx.ix1 e)

/-- Region 2's second operand at (d, e) is the projection weights at (e, d): nothing after the first host stretch writes it. -/
theorem v4_apply (d e : Fin 1024) :
    (V5 m (outsB m) c main_v4 : S1024x1024.Idx → EReal) (ix2 d e)
      = Cert.Spec.arr2 (n0 := 1024) (n1 := 1024) (α := EReal) (m ((c.tc : Thread nD τ).loc main_arg4)) e d := by
  have hback : V5 m (outsB m) c main_v4 = V1 m c main_v4 :=
    (V5_of m (outsB m) c main_v4 (by decide)).trans <| (V4_in m c main_v4 (by decide)).trans <|
      (V3_of m (outsA m) c main_v4 (by decide)).trans (V2_of m (outsA m) c main_v4 (by decide))
  rw [hback, v4_eq]
  show (transpose S1024x1024 [1, 0] (V0 m c main_arg4 : S1024x1024.Idx → EReal) transposes_S1024x1024_S1024x1024_1_0) (ix2 d e) = _
  exact transpose_apply [1, 0] _ transposes_S1024x1024_S1024x1024_1_0 (ix2 d e) (ix2 e d) (fun a => match a with
    | ⟨0, _⟩ => rfl
    | ⟨1, _⟩ => rfl)

end Reads

/-- If region 1's output array holds `A b l d` at batch entry `b`, feature `d`, query `l`, the program's result at batch entry
    `b`, position `l`, feature `e` is the final projection of the re-read row. -/
theorem out_apply (m : (ℓ : Loc nD τ sig) → Buf (Elt Ideal) ℓ) (c : Dev nD) (A : Fin 4 → Fin 2048 → Fin 1024 → EReal)
    (hA : ∀ (b : Fin 4) (d : Fin 1024) (l : Fin 2048), (V4 m (outsB m) c main_v10 : S4x1024x2048.Idx → EReal) (ix3 b d l) = A b l d)
    (b : Fin 4) (l : Fin 2048) (e : Fin 1024) :
    (V7 m (outs m) c main_v15 : S4x2048x1024.Idx → EReal) (ix3 b l e)
      = Cert.Spec.lin (fun d => A b (Cert.Spec.mixQ l d) (Cert.Spec.mixF l d))
          (Cert.Spec.arr2 (n0 := 1024) (n1 := 1024) (α := EReal) (m ((c.tc : Thread nD τ).loc main_arg4)) e)
          (Cert.Spec.arr1 (n0 := 1024) (α := EReal) (m ((c.tc : Thread nD τ).loc main_arg5)) e) := by
  refine (v15_apply m c b l e).trans ?_
  refine (congrFun (V6_v14 m c) (ix2 (row b l) e)).trans ?_
  refine (final2_3 (rV (V5 m (outsB m))) c (row b l) e).trans ?_
  have h1 : (fun d : Fin 1024 => (rV (V5 m (outsB m)) c main_v12 : S8192x1024.Idx → EReal) (ix2 (row b l) d))
      = fun d => A b (Cert.Spec.mixQ l d) (Cert.Spec.mixF l d) :=
    funext fun d => (v12_apply m c b l d).trans (hA b (Cert.Spec.mixF l d) (Cert.Spec.mixQ l d))
  have h2 : (fun d : Fin 1024 => (rV (V5 m (outsB m)) c main_v4 : S1024x1024.Idx → EReal) (ix2 d e))
      = Cert.Spec.arr2 (n0 := 1024) (n1 := 1024) (α := EReal) (m ((c.tc : Thread nD τ).loc main_arg4)) e :=
    funext fun d => v4_apply m c d e
  have h3 : (rV (V5 m (outsB m)) c main_v13 : S1x1024.Idx → EReal) (ix2 0 e)
      = Cert.Spec.arr1 (n0 := 1024) (α := EReal) (m ((c.tc : Thread nD τ).loc main_arg5)) e := v13_apply m c e
  rw [h1, h2, h3]

end Cert.KernelIdeal.Hand

end
-- ==== Proof.KI.Chain.lean ====
/- The program's result array in terms of its arguments, element by element: the kernel's side of the claim. -/
import proofs.«422964_j3899830305375_2_alg».proof.Proof.KI.Run
import proofs.«422964_j3899830305375_2_alg».proof.Proof.KI.Val0
import proofs.«422964_j3899830305375_2_alg».proof.Proof.KI.Val1
import proofs.«422964_j3899830305375_2_alg».proof.Proof.KI.Val2
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import proofs.«422964_j3899830305375_2_alg».proof.Proof.Spec
import proofs.«422964_j3899830305375_2_alg».proof.Proof.KI.ChainA
import proofs.«422964_j3899830305375_2_alg».proof.Proof.KI.ChainB

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)
open Idealize.ShloMosaic.StableHlo

/-- The idealized kernel program's result at batch entry `b`, position `l`, feature `e` is the specification's `outK` of the six
    argument arrays read as functions of index tuples. -/
theorem kernel_apply (m : (ℓ : Loc nD τ sig) → Buf (Elt Ideal) ℓ) (c : Dev nD) (b : Fin 4) (l : Fin 2048) (e : Fin 1024) :
    (V7 m (outs m) c main_v15 : S4x2048x1024.Idx → EReal) (ix3 b l e)
      = Cert.Spec.outK
          (Cert.Spec.arr3 (n0 := 4) (n1 := 2048) (n2 := 1024) (α := EReal) (m ((c.tc : Thread nD τ).loc main_arg0)))
          (Cert.Spec.arr2 (n0 := 3072) (n1 := 1024) (α := EReal) (m ((c.tc : Thread nD τ).loc main_arg2)))
          (Cert.Spec.arr1 (n0 := 3072) (α := EReal) (m ((c.tc : Thread nD τ).loc main_arg3)))
          (Cert.Spec.arr1 (n0 := 4) (α := BitVec 32) (m ((c.tc : Thread nD τ).loc main_arg1)))
          (Cert.Spec.arr2 (n0 := 1024) (n1 := 1024) (α := EReal) (m ((c.tc : Thread nD τ).loc main_arg4)))
          (Cert.Spec.arr1 (n0 := 1024) (α := EReal) (m ((c.tc : Thread nD τ).loc main_arg5)))
          b l e :=
  out_apply m c _ (att_apply m c) b l e

end Cert.KernelIdeal.Hand

end
-- ==== Proof.Ref.lean ====
/- The reference's result array read at an index: the final projection of the re-read attention output. -/
import proofs.«422964_j3899830305375_2_alg».proof.Proof.Gen.ReferenceIdeal.Run
import proofs.«422964_j3899830305375_2_alg».proof.Proof.Gen.ReferenceIdeal.Read
import proofs.«422964_j3899830305375_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.ValueIdx

open Cert.ReferenceIdeal.Read Cert.Spec

section Stages

variable (x0 : (⟨S4x2048x1024, .f32⟩ : BufTy).Contents (Elt Ideal)) (x1 : (⟨S4, .i32⟩ : BufTy).Contents (Elt Ideal))
  (x2 : (⟨S3072x1024, .f32⟩ : BufTy).Contents (Elt Ideal)) (x3 : (⟨S3072, .f32⟩ : BufTy).Contents (Elt Ideal))
  (x4 : (⟨S1024x1024, .f32⟩ : BufTy).Contents (Elt Ideal)) (x5 : (⟨S1024, .f32⟩ : BufTy).Contents (Elt Ideal))

/-- The six argument arrays as functions of index tuples. -/
abbrev aX : Fin 4 → Fin 2048 → Fin 1024 → EReal := arr3 (n0 := 4) (n1 := 2048) (n2 := 1024) (α := EReal) x0
abbrev aW : Fin 3072 → Fin 1024 → EReal := arr2 (n0 := 3072) (n1 := 1024) (α := EReal) x2
abbrev aB : Fin 3072 → EReal := arr1 (n0 := 3072) (α := EReal) x3
abbrev aL : Fin 4 → BitVec 32 := arr1 (n0 := 4) (α := BitVec 32) x1
abbrev aWp : Fin 1024 → Fin 1024 → EReal := arr2 (n0 := 1024) (n1 := 1024) (α := EReal) x4
abbrev aBp : Fin 1024 → EReal := arr1 (n0 := 1024) (α := EReal) x5

/-! ## The three projections -/

/-- The projected features before slicing: a dot product of an input row with a weight row, plus the bias. -/
theorem proj_apply (b : Fin 4) (l : Fin 2048) (f : Fin 3072) :
    val_main_v3 (F := Ideal) x0 x2 x3 (ix3 b l f) = lin (aX x0 b l) (aW x2 f) (aB x3 f) := by
  rw [val_main_v3_apply, val_main_v0_apply, val_main_v2_apply, val_main_v1_apply]
  have el : ∀ k : Fin 1024, lidx_main_v0 (ix3 b l f) k = ix3 b l k := fun k => funext fun a => by
    match a with
    | ⟨0, _⟩ => rfl
    | ⟨1, _⟩ => rfl
    | ⟨2, _⟩ => rfl
  have er : ∀ k : Fin 1024, ridx_main_v0 (ix3 b l f) k = ix2 f k := fun k => funext fun a => by
    match a with
    | ⟨0, _⟩ => rfl
    | ⟨1, _⟩ => rfl
  have eb : idx_main_v1 (idx_main_v2 (ix3 b l f)) = ix1 f := funext fun a => by
    match a with
    | ⟨0, _⟩ => rfl
  rw [eb]
  simp only [el, er]
  rfl

/-- The first third of the projected features: the keys. -/
theorem keys_apply (b : Fin 4) (l : Fin 2048) (e : Fin 1024) :
    val_main_v4 (F := Ideal) x0 x2 x3 (ix3 b l e) = kqv (aX x0) (aW x2) (aB x3) 0 b l e := by
  rw [val_main_v4_apply]
  have ei : idx_main_v4 (ix3 b l e) = ix3 b l (third 0 e) := funext fun a => by
    match a with
    | ⟨0, _⟩ => rfl
    | ⟨1, _⟩ => rfl
    | ⟨2, _⟩ => exact Fin.ext (by show e.val = 0 * 1024 + e.val; omega)
  rw [ei, proj_apply]
  rfl

/-- The second third: the queries. -/
theorem queries_apply (b : Fin 4) (l : Fin 2048) (e : Fin 1024) :
    val_main_v5 (F := Ideal) x0 x2 x3 (ix3 b l e) = kqv (aX x0) (aW x2) (aB x3) 1 b l e := by
  rw [val_main_v5_apply]
  have ei : idx_main_v5 (ix3 b l e) = ix3 b l (third 1 e) := funext fun a => by
    match a with
    | ⟨0, _⟩ => rfl
    | ⟨1, _⟩ => rfl
    | ⟨2, _⟩ => exact Fin.ext (by show 1024 + e.val = 1 * 1024 + e.val; omega)
  rw [ei, proj_apply]
  rfl

/-- The last third: the values. -/
theorem values_apply (b : Fin 4) (l : Fin 2048) (e : Fin 1024) :
    val_main_v6 (F := Ideal) x0 x2 x3 (ix3 b l e) = kqv (aX x0) (aW x2) (aB x3) 2 b l e := by
  rw [val_main_v6_apply]
  have ei : idx_main_v6 (ix3 b l e) = ix3 b l (third 2 e) := funext fun a => by
    match a with
    | ⟨0, _⟩ => rfl
    | ⟨1, _⟩ => rfl
    | ⟨2, _⟩ => exact Fin.ext (by show 2048 + e.val = 2 * 1024 + e.val; omega)
  rw [ei, proj_apply]
  rfl

/-! ## The masked, scaled scores -/

/-- The score of query `l` against key `j` of batch entry `b`. -/
theorem score_apply (b : Fin 4) (l j : Fin 2048) :
    val_main_v16 (F := Ideal) x0 x1 x2 x3 (ix3 b l j)
      = score (aL x1 b) (kqv (aX x0) (aW x2) (aB x3) 1 b l) (kqv (aX x0) (aW x2) (aB x3) 0 b) j := by
  rw [val_main_v16_apply, val_main_call0_v1_apply, val_main_v15_apply, val_main_v13_apply, val_main_v11_apply,
    val_main_v10_apply, val_main_v14_apply, val_main_v12_apply, val_main_v9_apply, val_main_v7_apply, val_main_v8_apply,
    val_main_cst_apply, val_main_call0_v2_apply, val_main_call0_v0_apply, val_main_cst_0_apply]
  have el : ∀ k : Fin 1024, lidx_main_v7 (ix3 b l j) k = ix3 b l k := fun k => funext fun a => by
    match a with
    | ⟨0, _⟩ => rfl
    | ⟨1, _⟩ => rfl
    | ⟨2, _⟩ => rfl
  have er : ∀ k : Fin 1024, ridx_main_v7 (ix3 b l j) k = ix3 b j k := fun k => funext fun a => by
    match a with
    | ⟨0, _⟩ => rfl
    | ⟨1, _⟩ => rfl
    | ⟨2, _⟩ => rfl
  have ev : idx_main_v12 (idx_main_v14 (idx_main_call0_v1 (ix3 b l j))) = ix1 b := funext fun a => by
    match a with
    | ⟨0, _⟩ => rfl
  rw [ev]
  simp only [el, er, queries_apply, keys_apply]
  rfl

/-! ## A row of scores turned into weights -/

/-- The index over (b, l) with key `k` put back on the reduced axis is (b, l, k). -/
theorem lift_row (hR : S4x2048x2048.Reduces [2] S4x2048) (b : Fin 4) (l : Fin 2048) (k : Fin (S4x2048x2048.size 2)) :
    hR.lift (ix2 b l) k = ix3 b l (⟨k.val, k.isLt⟩ : Fin 2048) := by
  funext c
  apply Fin.ext
  match c with
  | ⟨0, _⟩ => rfl
  | ⟨1, _⟩ => rfl
  | ⟨2, _⟩ => rfl

/-- The larger of -∞ and `x` is `x`. -/
theorem max_negInf (x : EReal) : max (Ideal.ofBits .f32 0xFF800000#32) x = x := by
  have h : Ideal.ofBits .f32 0xFF800000#32 = ⊥ := by simp [Ideal.ofBits, Ideal.ieee]
  rw [h]
  exact max_bot_left x

/-- The row maximum: the fold from -∞ over the keys, then once more against -∞. -/
theorem rowMax_apply (b : Fin 4) (l : Fin 2048) :
    val_main_v19 (F := Ideal) x0 x1 x2 x3 (ix2 b l)
      = rowMax (fun j => val_main_v16 (F := Ideal) x0 x1 x2 x3 (ix3 b l j)) := by
  rw [val_main_v19_apply, val_main_v18_apply, val_main_cst_2_apply]
  unfold val_main_v17
  generalize val_main_v16 (F := Ideal) x0 x1 x2 x3 = y
  have hR : S4x2048x2048.Reduces [2] S4x2048 := by decide
  have h17 : Host.reduce FloatOps.maximumf y (val_main_cst_1 (F := Ideal)) reducesTo_S4x2048x2048_S4x2048_d2 h_S_ (ix2 b l)
      = (Finset.univ : Finset (Fin 2048)).fold max (Ideal.ofBits .f32 0xFF800000#32) (fun k : Fin 2048 => y (ix3 b l k)) := by
    refine (Host.reduce_eq_fold_single (FloatOps.maximumf (F := Ideal) (φ := .f32)) y _
      reducesTo_S4x2048x2048_S4x2048_d2 hR h_S_ (ix2 b l)).trans ?_
    have hf : (y ∘ hR.lift (ix2 b l)) = fun k : Fin 2048 => y (ix3 b l k) :=
      funext fun k => congrArg y (lift_row hR b l k)
    exact congrArg (fun f => Finset.fold max (Ideal.ofBits .f32 0xFF800000#32) f (Finset.univ : Finset (Fin 2048))) hf
  exact (congrArg (max (Ideal.ofBits .f32 0xFF800000#32)) h17).trans (max_negInf _)

/-- The exponential of a score less its row's maximum. -/
theorem ex_apply (b : Fin 4) (l j : Fin 2048) :
    val_main_v23 (F := Ideal) x0 x1 x2 x3 (ix3 b l j)
      = ex (fun j' => val_main_v16 (F := Ideal) x0 x1 x2 x3 (ix3 b l j')) j := by
  rw [val_main_v23_apply, val_main_v22_apply, val_main_v21_apply, val_main_v20_apply]
  have ei : idx_main_v20 (idx_main_v21 (ix3 b l j)) = ix2 b l := funext fun a => by
    match a with
    | ⟨0, _⟩ => rfl
    | ⟨1, _⟩ => rfl
  rw [ei, rowMax_apply]
  rfl

/-- The row's normaliser: zero plus the sum of the exponentials. -/
theorem den_apply (b : Fin 4) (l : Fin 2048) :
    val_main_v24 (F := Ideal) x0 x1 x2 x3 (ix2 b l)
      = den (fun j => val_main_v16 (F := Ideal) x0 x1 x2 x3 (ix3 b l j)) := by
  rw [val_main_v24_apply, val_main_cst_3_apply]
  have ei : ∀ k : Fin 2048, idx_main_v24 (ix2 b l) k = ix3 b l k := fun k => funext fun a => by
    match a with
    | ⟨0, _⟩ => rfl
    | ⟨1, _⟩ => rfl
    | ⟨2, _⟩ => rfl
  simp only [ei, ex_apply]
  refine (congrArg (· + _) Ideal.ofBits_zero_f32).trans ?_
  exact zero_add _

/-- The softmax weight: the exponential divided by the normaliser. -/
theorem weight_apply (b : Fin 4) (l j : Fin 2048) :
    val_main_v27 (F := Ideal) x0 x1 x2 x3 (ix3 b l j)
      = wR (fun j' => val_main_v16 (F := Ideal) x0 x1 x2 x3 (ix3 b l j')) j := by
  rw [val_main_v27_apply, val_main_v26_apply, val_main_v25_apply]
  have ei : idx_main_v25 (idx_main_v26 (ix3 b l j)) = ix2 b l := funext fun a => by
    match a with
    | ⟨0, _⟩ => rfl
    | ⟨1, _⟩ => rfl
  rw [ei, den_apply, ex_apply]
  rfl

/-! ## The attention output and its re-reading -/

/-- Feature `e` of the attention output row of query `l`: the weighted sum of the value rows. -/
theorem attn_apply (b : Fin 4) (l : Fin 2048) (e : Fin 1024) :
    val_main_v28 (F := Ideal) x0 x1 x2 x3 (ix3 b l e) = attR (aX x0) (aW x2) (aB x3) (aL x1) b l e := by
  rw [val_main_v28_apply]
  have el : ∀ k : Fin 2048, lidx_main_v28 (ix3 b l e) k = ix3 b l k := fun k => funext fun a => by
    match a with
    | ⟨0, _⟩ => rfl
    | ⟨1, _⟩ => rfl
    | ⟨2, _⟩ => rfl
  have er : ∀ k : Fin 2048, ridx_main_v28 (ix3 b l e) k = ix3 b k e := fun k => funext fun a => by
    match a with
    | ⟨0, _⟩ => rfl
    | ⟨1, _⟩ => rfl
    | ⟨2, _⟩ => rfl
  have hs : (fun j' => val_main_v16 (F := Ideal) x0 x1 x2 x3 (ix3 b l j'))
      = score (aL x1 b) (kqv (aX x0) (aW x2) (aB x3) 1 b l) (kqv (aX x0) (aW x2) (aB x3) 0 b) :=
    funext fun j' => score_apply x0 x1 x2 x3 b l j'
  simp only [el, er, weight_apply, values_apply, hs]
  rfl

/-- The transposed output re-read in the projection's layout: position (l, d) holds feature
    (l * 1024 + d) / 2048 of query (l * 1024 + d) % 2048. -/
theorem reread_apply (b : Fin 4) (l : Fin 2048) (d : Fin 1024) :
    val_main_v30 (F := Ideal) x0 x1 x2 x3 (ix3 b l d)
      = val_main_v28 (F := Ideal) x0 x1 x2 x3 (ix3 b (mixQ l d) (mixF l d)) := by
  rw [val_main_v30_apply, val_main_v29_apply]
  refine congrArg _ (funext fun a => ?_)
  have hb := b.isLt
  have hl := l.isLt
  have hd := d.isLt
  match a with
  | ⟨0, _⟩ => exact Fin.ext (by show ((b.val * 2048 + l.val) * 1024 + d.val) / 2097152 = b.val; omega)
  | ⟨1, _⟩ => exact Fin.ext (by show ((b.val * 2048 + l.val) * 1024 + d.val) % 2048 = (l.val * 1024 + d.val) % 2048; omega)
  | ⟨2, _⟩ => exact Fin.ext (by show ((b.val * 2048 + l.val) * 1024 + d.val) / 2048 % 1024 = (l.val * 1024 + d.val) / 2048; omega)

/-! ## The final projection -/

/-- The result: the re-read attention output projected, plus the bias. -/
theorem out_apply (b : Fin 4) (l : Fin 2048) (e : Fin 1024) :
    val_main_v34 (F := Ideal) x0 x1 x2 x3 x4 x5 (ix3 b l e)
      = outR (aX x0) (aW x2) (aB x3) (aL x1) (aWp x4) (aBp x5) b l e := by
  rw [val_main_v34_apply, val_main_v31_apply, val_main_v33_apply, val_main_v32_apply]
  have el : ∀ k : Fin 1024, lidx_main_v31 (ix3 b l e) k = ix3 b l k := fun k => funext fun a => by
    match a with
    | ⟨0, _⟩ => rfl
    | ⟨1, _⟩ => rfl
    | ⟨2, _⟩ => rfl
  have er : ∀ k : Fin 1024, ridx_main_v31 (ix3 b l e) k = ix2 e k := fun k => funext fun a => by
    match a with
    | ⟨0, _⟩ => rfl
    | ⟨1, _⟩ => rfl
  have eb : idx_main_v32 (idx_main_v33 (ix3 b l e)) = ix1 e := funext fun a => by
    match a with
    | ⟨0, _⟩ => rfl
  rw [eb]
  simp only [el, er, reread_apply, attn_apply]
  rfl

end Stages

/-- The reference's result at batch entry `b`, position `l`, feature `e` is the specification's `outR` of the six
    argument arrays read as functions of index tuples. -/
theorem ref_apply (m : (ℓ : Loc nD τ sig) → Buf (Elt Ideal) ℓ) (c : Dev nD) (b : Fin 4) (l : Fin 2048) (e : Fin 1024) :
    (res_main_v34 (F := Ideal) m c : S4x2048x1024.Idx → EReal) (ix3 b l e)
      = Cert.Spec.outR
          (Cert.Spec.arr3 (n0 := 4) (n1 := 2048) (n2 := 1024) (α := EReal) (m ((c.tc : Thread nD τ).loc main_arg0)))
          (Cert.Spec.arr2 (n0 := 3072) (n1 := 1024) (α := EReal) (m ((c.tc : Thread nD τ).loc main_arg2)))
          (Cert.Spec.arr1 (n0 := 3072) (α := EReal) (m ((c.tc : Thread nD τ).loc main_arg3)))
          (Cert.Spec.arr1 (n0 := 4) (α := BitVec 32) (m ((c.tc : Thread nD τ).loc main_arg1)))
          (Cert.Spec.arr2 (n0 := 1024) (n1 := 1024) (α := EReal) (m ((c.tc : Thread nD τ).loc main_arg4)))
          (Cert.Spec.arr1 (n0 := 1024) (α := EReal) (m ((c.tc : Thread nD τ).loc main_arg5)))
          b l e := by
  exact (congrFun (val_main_v34_eq (F := Ideal) m c) (ix3 b l e)).trans (out_apply _ _ _ _ _ _ b l e)

end Cert.ReferenceIdeal.RefValue

end
-- ==== Proof.Law.lean ====
/- The two normalisations agree on real inputs.

   On one row of scores that are all real numbers, the row maximum is real, every exponential is a positive real,
   so the normaliser is a positive real; multiplying by its reciprocal is then dividing by it.  Keys and queries are
   real when the activations, the weights and the bias are, so every score is real. -/
import proofs.«422964_j3899830305375_2_alg».proof.Proof.Spec
import Mathlib.Data.EReal.Basic
import Mathlib.Data.EReal.Operations
import Mathlib.Data.EReal.Inv
import Mathlib.Data.Finset.Fold
import Mathlib.Algebra.Order.BigOperators.Group.Finset
import Mathlib.Analysis.SpecialFunctions.Exp

noncomputable section

namespace Cert.Spec

open Idealize.ShloMosaic

/-! ## The literals -/

/-- The pattern 0x3F800000 denotes one. -/
theorem ofBits_one : Ideal.ofBits .f32 0x3F800000#32 = 1 := by
  simp [Ideal.ofBits, Ideal.ieee, -EReal.coe_mul]; norm_num

/-- The pattern 0xFF800000 denotes -∞. -/
theorem ofBits_negInf : Ideal.ofBits .f32 0xFF800000#32 = ⊥ := by
  simp [Ideal.ofBits, Ideal.ieee]

/-- The scale 1/32 is a real number. -/
theorem isReal_scale : IsReal (Ideal.ofBits .f32 0x3D000000#32) := by
  unfold IsReal
  simp [Ideal.ofBits, Ideal.ieee, -EReal.coe_mul] <;> exact ⟨_, rfl⟩

/-- The mask value -10^6 is a real number. -/
theorem isReal_mask : IsReal (Ideal.ofBits .f32 0xC9742400#32) := by
  unfold IsReal
  simp [Ideal.ofBits, Ideal.ieee, -EReal.coe_mul] <;> exact ⟨_, rfl⟩

/-! ## Real numbers are closed under the arithmetic -/

theorem isReal_add {a b : EReal} (ha : IsReal a) (hb : IsReal b) : IsReal (a + b) := by
  obtain ⟨r, rfl⟩ := ha
  obtain ⟨t, rfl⟩ := hb
  exact ⟨r + t, (EReal.coe_add r t).symm⟩

theorem isReal_mul {a b : EReal} (ha : IsReal a) (hb : IsReal b) : IsReal (a * b) := by
  obtain ⟨r, rfl⟩ := ha
  obtain ⟨t, rfl⟩ := hb
  exact ⟨r * t, (EReal.coe_mul r t).symm⟩

theorem isReal_sum {ι : Type} [DecidableEq ι] (t : Finset ι) (f : ι → EReal) (hf : ∀ i, IsReal (f i)) :
    IsReal (∑ i ∈ t, f i) := by
  induction t using Finset.induction_on with
  | empty => exact ⟨0, by simp⟩
  | insert a t ha ih => rw [Finset.sum_insert ha]; exact isReal_add (hf a) ih

/-- A fold of max from -∞ over real numbers is -∞ or a real number. -/
theorem fold_max_bot_or_real (s : Fin 2048 → EReal) (h : ∀ j, IsReal (s j)) (t : Finset (Fin 2048)) :
    t.fold max ⊥ s = ⊥ ∨ IsReal (t.fold max ⊥ s) := by
  induction t using Finset.induction_on with
  | empty => left; exact Finset.fold_empty
  | insert a t ha ih =>
    right
    rw [Finset.fold_insert ha]
    rcases ih with ih | ih
    · rw [ih, max_eq_left bot_le]; exact h a
    · rcases max_choice (s a) (t.fold max ⊥ s) with hm | hm
      · rw [hm]; exact h a
      · rw [hm]; exact ih

/-- The maximum of a row of real scores is real. -/
theorem isReal_rowMax (s : Fin 2048 → EReal) (h : ∀ j, IsReal (s j)) : IsReal (rowMax s) := by
  unfold rowMax
  rw [ofBits_negInf]
  rcases fold_max_bot_or_real s h Finset.univ with hb | hr
  · exfalso
    have h0 : s 0 ≤ (Finset.univ : Finset (Fin 2048)).fold max ⊥ s :=
      (Finset.le_fold_max _).2 (Or.inr ⟨0, Finset.mem_univ _, le_rfl⟩)
    rw [hb] at h0
    obtain ⟨r, hr⟩ := h 0
    rw [hr] at h0
    exact (EReal.coe_ne_bot r) (le_bot_iff.1 h0)
  · exact hr

/-- On a row of real scores every exponential is positive. -/
theorem ex_pos (s : Fin 2048 → EReal) (h : ∀ j, IsReal (s j)) (j : Fin 2048) : 0 < ex s j := by
  unfold ex
  obtain ⟨m, hm⟩ := isReal_rowMax s h
  obtain ⟨a, ha⟩ := h j
  rw [hm, ha, ← EReal.coe_sub, Ideal.exp_coe]
  exact EReal.coe_pos.2 (Real.exp_pos _)

/-- The two forms of a softmax weight agree where the normaliser is not zero. -/
theorem wK_eq_wR (s : Fin 2048 → EReal) (h : den s ≠ 0) (j : Fin 2048) : wK s j = wR s j := by
  unfold wK wR Ideal.div
  simp only [if_neg h, ofBits_one, one_mul]

/-- On a row of real scores the normaliser is not zero. -/
theorem den_ne_zero (s : Fin 2048 → EReal) (h : ∀ j, IsReal (s j)) : den s ≠ 0 := by
  unfold den
  have hle : ex s 0 ≤ ∑ j : Fin 2048, ex s j :=
    Finset.single_le_sum (fun j _ => (ex_pos s h j).le) (Finset.mem_univ 0)
  exact ne_of_gt (lt_of_lt_of_le (ex_pos s h 0) hle)

/-- A linear layer's output feature is real when its inputs are. -/
theorem isReal_lin (x w : Fin 1024 → EReal) (b : EReal) (hx : ∀ d, IsReal (x d)) (hw : ∀ d, IsReal (w d)) (hb : IsReal b) :
    IsReal (lin x w b) := by
  unfold lin
  exact isReal_add (isReal_sum _ _ (fun d => isReal_mul (hx d) (hw d))) hb

/-- A masked, scaled score of real queries and keys is real. -/
theorem isReal_score (vl : BitVec 32) (q : Fin 1024 → EReal) (k : Fin 2048 → Fin 1024 → EReal)
    (hq : ∀ d, IsReal (q d)) (hk : ∀ j d, IsReal (k j d)) (j : Fin 2048) : IsReal (score vl q k j) := by
  unfold score Scalar.select
  split_ifs
  · exact isReal_mul (isReal_sum _ _ (fun d => isReal_mul (hq d) (hk j d))) isReal_scale
  · exact isReal_mask

/-- With real activations, projection weights and projection bias, the projected keys, queries and values are real. -/
theorem isReal_kqv (x : Fin 4 → Fin 2048 → Fin 1024 → EReal) (W : Fin 3072 → Fin 1024 → EReal) (bk : Fin 3072 → EReal)
    (hx : ∀ b l d, IsReal (x b l d)) (hW : ∀ e d, IsReal (W e d)) (hb : ∀ e, IsReal (bk e))
    (o : Fin 3) (b : Fin 4) (l : Fin 2048) (e : Fin 1024) : IsReal (kqv x W bk o b l e) := by
  unfold kqv
  exact isReal_lin _ _ _ (hx b l) (hW _) (hb _)

/-- With real activations, projection weights and projection bias, the two attention outputs agree. -/
theorem attK_eq_attR (x : Fin 4 → Fin 2048 → Fin 1024 → EReal) (W : Fin 3072 → Fin 1024 → EReal) (bk : Fin 3072 → EReal)
    (vl : Fin 4 → BitVec 32)
    (hx : ∀ b l d, IsReal (x b l d)) (hW : ∀ e d, IsReal (W e d)) (hb : ∀ e, IsReal (bk e))
    (b : Fin 4) (l : Fin 2048) (e : Fin 1024) : attK x W bk vl b l e = attR x W bk vl b l e := by
  unfold attK attR attnK attnR
  refine Finset.sum_congr rfl (fun j _ => ?_)
  rw [wK_eq_wR _ (den_ne_zero _ (isReal_score _ _ _ (fun d => isReal_kqv x W bk hx hW hb 1 b l d)
    (fun j d => isReal_kqv x W bk hx hW hb 0 b j d)))]

/-- With real activations, projection weights and projection bias, the kernel's and the reference's whole
    computations agree. -/
theorem outK_eq_outR (x : Fin 4 → Fin 2048 → Fin 1024 → EReal) (W : Fin 3072 → Fin 1024 → EReal) (bk : Fin 3072 → EReal)
    (vl : Fin 4 → BitVec 32) (Wp : Fin 1024 → Fin 1024 → EReal) (bp : Fin 1024 → EReal)
    (hx : ∀ b l d, IsReal (x b l d)) (hW : ∀ e d, IsReal (W e d)) (hb : ∀ e, IsReal (bk e))
    (b : Fin 4) (l : Fin 2048) (e : Fin 1024) :
    outK x W bk vl Wp bp b l e = outR x W bk vl Wp bp b l e := by
  unfold outK outR
  have hfun : (fun d => attK x W bk vl b (mixQ l d) (mixF l d)) = (fun d => attR x W bk vl b (mixQ l d) (mixF l d)) :=
    funext fun d => attK_eq_attR x W bk vl hx hW hb b (mixQ l d) (mixF l d)
  rw [hfun]

end Cert.Spec

end
-- ==== Proof.Fin.lean ====
/- From the precondition to real entries: every entry of the activations, of the projection weights and of the
   projection bias is a real number when the precondition's predicate is all ones (each float input is compared,
   in absolute value, strictly below +∞, and the comparisons are and-ed together). -/
import proofs.«422964_j3899830305375_2_alg».proof.Pre_finite_inputs
import proofs.«422964_j3899830305375_2_alg».proof.Proof.Gen.Pre_finite_inputs
import proofs.«422964_j3899830305375_2_alg».proof.Proof.Spec
import Idealize.ShloMosaic.Lib.ReduceAll
import Idealize.ShloMosaic.Lib.ValueIdx
import Idealize.ShloMosaic.PureOps.Ideal.Laws

noncomputable section

namespace Cert.Pre_finite_inputs.Hand

open Cert.Pre_finite_inputs Idealize.ShloMosaic

/-- The rank-0 shape has a single index. -/
instance subsingleton_scalar_idx : Subsingleton S_.Idx := ⟨fun a b => funext fun d => d.elim0⟩

/-- An extended real whose absolute value max x (-x) is strictly below +∞ is a real number. -/
theorem isReal_of_abs_lt (x : EReal)
    (h : Ideal.cmp .olt (max x (-x)) (Ideal.ofBits .f32 0x7F800000#32) = 1#1) : Cert.Spec.IsReal x := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- Where the precondition's predicate is all ones, every entry of the first, third and fourth argument arrays is a
    real number. -/
theorem real_of_pre (a0 : FVec Ideal S4x2048x1024 .f32) (a1 : IVec S4 32) (a2 : FVec Ideal S3072x1024 .f32)
    (a3 : FVec Ideal S3072 .f32) (a4 : FVec Ideal S1024x1024 .f32) (a5 : FVec Ideal S1024 .f32)
    (h : Cert.Pre_finite_inputs.fn (F := Ideal) a0 a1 a2 a3 a4 a5 = fun _ => 1#1) :
    (∀ i, Cert.Spec.IsReal (a0 i)) ∧ (∀ i, Cert.Spec.IsReal (a2 i)) ∧ (∀ i, Cert.Spec.IsReal (a3 i)) := by
  have h0 := congrFun h ValueIdx.ix0
  dsimp only [fn, fn_part1, andi] at h0
  simp only [IntOp.andi_eq_one] at h0
  obtain ⟨⟨⟨⟨h3, h7⟩, h12⟩, -⟩, -⟩ := h0
  refine ⟨fun i => ?_, fun i => ?_, fun i => ?_⟩
  · exact isReal_of_abs_lt _ (Host.reduce_andi_all _ _ _ _ _ h3 i)
  · exact isReal_of_abs_lt _ (Host.reduce_andi_all _ _ _ _ _ h7 i)
  · exact isReal_of_abs_lt _ (Host.reduce_andi_all _ _ _ _ _ h12 i)

end Cert.Pre_finite_inputs.Hand

end
-- ==== Proof.lean ====
/- The five claims, assembled.

   The word-level kernel program and its idealization run their seven items (host reshapes and transposes around
   three kernel regions) to the end, leaving the arguments as launched: each region is entered from, and left at,
   "every unscoped buffer at a valuation", its body run once per grid point on the staged blocks.  The reference is
   a straight line of host operations.  At the ideal values the kernel's result is, index by index, the final
   projection of the re-read attention output of the projected queries, keys and values, and so is the
   reference's; the one difference, normalising the softmax by a reciprocal or by a quotient, vanishes on inputs
   that are real numbers, which the precondition provides.  The ideal pass rewrote nothing. -/
import proofs.«422964_j3899830305375_2_alg».proof.Defs
import proofs.«422964_j3899830305375_2_alg».proof.Proof.Gen.Kernel
import proofs.«422964_j3899830305375_2_alg».proof.Proof.Gen.KernelIdeal
import proofs.«422964_j3899830305375_2_alg».proof.Proof.Gen.ReferenceIdeal
import proofs.«422964_j3899830305375_2_alg».proof.Proof.Gen.ReferenceIdeal.Run
import proofs.«422964_j3899830305375_2_alg».proof.Proof.Gen.Pre_finite_inputs
import proofs.«422964_j3899830305375_2_alg».proof.Proof.KB.Run
import proofs.«422964_j3899830305375_2_alg».proof.Proof.KI.Run
import proofs.«422964_j3899830305375_2_alg».proof.Proof.KI.Chain
import proofs.«422964_j3899830305375_2_alg».proof.Proof.Ref
import proofs.«422964_j3899830305375_2_alg».proof.Proof.Law
import proofs.«422964_j3899830305375_2_alg».proof.Proof.Fin
import Idealize.ShloMosaic.Adequacy
import Idealize.ShloMosaic.Init

noncomputable section

namespace Cert.Proof

open Idealize.ShloMosaic Idealize.ShloMosaic.TcCoe Idealize.SL.Sem Idealize.ShloMosaic.ValueIdx

theorem frame_p : @Cert.frame_Kernel Cert.Kernel.Gen.facts Cert.Pre_finite_inputs.Gen.facts :=
  fun m ρ _ => Cert.Kernel.Hand.frame (F := Bits) m ρ

theorem frame_pi : @Cert.frame_KernelIdeal Cert.KernelIdeal.Gen.facts Cert.Pre_finite_inputs.Gen.facts :=
  fun m ρ _ => Cert.KernelIdeal.Hand.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The two results agree: both are the specification's whole computation of the arguments, which agree, and the two
    normalisations agree on real inputs. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.V7 m (Cert.KernelIdeal.Hand.outs m) c Cert.KernelIdeal.main_v15, ?_, ?_⟩
  · refine (θ_run Cert.KernelIdeal.defs _ _).mono (fun _ h c => ?_) (Cert.KernelIdeal.Hand.run_all (F := Ideal) m ρ)
    exact ⟨h c _ (Cert.KernelIdeal.Hand.mem_uc Cert.KernelIdeal.main_v15 (by decide)),
      (h c _ (Cert.KernelIdeal.Hand.mem_uc Cert.KernelIdeal.main_arg0 (by decide))).trans (Cert.KernelIdeal.Gen.V7_main_arg0 m _ c),
      (h c _ (Cert.KernelIdeal.Hand.mem_uc Cert.KernelIdeal.main_arg1 (by decide))).trans (Cert.KernelIdeal.Gen.V7_main_arg1 m _ c),
      (h c _ (Cert.KernelIdeal.Hand.mem_uc Cert.KernelIdeal.main_arg2 (by decide))).trans (Cert.KernelIdeal.Gen.V7_main_arg2 m _ c),
      (h c _ (Cert.KernelIdeal.Hand.mem_uc Cert.KernelIdeal.main_arg3 (by decide))).trans (Cert.KernelIdeal.Gen.V7_main_arg3 m _ c),
      (h c _ (Cert.KernelIdeal.Hand.mem_uc Cert.KernelIdeal.main_arg4 (by decide))).trans (Cert.KernelIdeal.Gen.V7_main_arg4 m _ c),
      (h c _ (Cert.KernelIdeal.Hand.mem_uc Cert.KernelIdeal.main_arg5 (by decide))).trans (Cert.KernelIdeal.Gen.V7_main_arg5 m _ c)⟩
  · refine (θ_run Cert.ReferenceIdeal.defs _ _).mono (fun _ h c => ⟨(h c).1.trans ?_, (h c).2⟩)
      (Cert.ReferenceIdeal.Value.run (F := Ideal) m' ρ')
    obtain ⟨h0, h2, h3⟩ := Cert.Pre_finite_inputs.Hand.real_of_pre _ _ _ _ _ _ (hpre c)
    funext j
    obtain ⟨b, l, e, rfl⟩ : ∃ (b : Fin 4) (l : Fin 2048) (e : Fin 1024), j = ix3 b l e := ⟨j 0, j 1, j 2, eq_ix3 j⟩
    refine (Cert.ReferenceIdeal.RefValue.ref_apply m' c b l e).trans ?_
    rw [(hagree c).1, (hagree c).2.1, (hagree c).2.2.1, (hagree c).2.2.2.1, (hagree c).2.2.2.2.1, (hagree c).2.2.2.2.2]
    refine ((Cert.Spec.outK_eq_outR _ _ _ _ _ _ (fun b l d => h0 (ix3 b l d)) (fun e d => h2 (ix2 e d)) (fun e => h3 (ix1 e)) b l e).symm).trans ?_
    exact (Cert.KernelIdeal.Hand.kernel_apply m c b l e).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
